-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v38_0)) (v1 : (c : Dev Cert.KernelIdeal.nD) → Buf (Elt Ideal) ((c.tc : Thread Cert.KernelIdeal.nD Cert.KernelIdeal.τ).loc Cert.KernelIdeal.main_v38_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38_0) = v0 c
          ∧ r.2.mem ((c.tc : Thread Cert.KernelIdeal.nD Cert.KernelIdeal.τ).loc Cert.KernelIdeal.main_v38_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x3 : Shape := ⟨2, ![50000, 3]⟩
abbrev S300000x128 : Shape := ⟨2, ![300000, 128]⟩
abbrev S2x300000 : Shape := ⟨2, ![2, 300000]⟩
abbrev S1 : Shape := ⟨1, ![1]⟩
abbrev S16 : Shape := ⟨1, ![16]⟩
abbrev S401x128 : Shape := ⟨2, ![401, 128]⟩
abbrev S128 : Shape := ⟨1, ![128]⟩
abbrev S128x128 : Shape := ⟨2, ![128, 128]⟩
abbrev S529x128 : Shape := ⟨2, ![529, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x3 : S_.BroadcastsInDim S50000x3 (![] : Fin 0 → Fin S50000x3.rank)
  reducesTo_S50000x3_S_d0_1 : S50000x3.ReducesTo [0, 1] S_
  bcast_S_S300000x128 : S_.BroadcastsInDim S300000x128 (![] : Fin 0 → Fin S300000x128.rank)
  reducesTo_S300000x128_S_d0_1 : S300000x128.ReducesTo [0, 1] S_
  bcast_S_S1 : S_.BroadcastsInDim S1 (![] : Fin 0 → Fin S1.rank)
  reducesTo_S1_S_d0 : S1.ReducesTo [0] S_
  bcast_S_S16 : S_.BroadcastsInDim S16 (![] : Fin 0 → Fin S16.rank)
  reducesTo_S16_S_d0 : S16.ReducesTo [0] S_
  bcast_S_S401x128 : S_.BroadcastsInDim S401x128 (![] : Fin 0 → Fin S401x128.rank)
  reducesTo_S401x128_S_d0_1 : S401x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S529x128 : S_.BroadcastsInDim S529x128 (![] : Fin 0 → Fin S529x128.rank)
  reducesTo_S529x128_S_d0_1 : S529x128.ReducesTo [0, 1] S_
  bcast_S_S2x300000 : S_.BroadcastsInDim S2x300000 (![] : Fin 0 → Fin S2x300000.rank)
  reducesTo_S2x300000_S_d0_1 : S2x300000.ReducesTo [0, 1] S_

variable [Facts]

def fn_part4 {F : FTy → Type} [FloatOps F] (main_arg3 : IVec S2x300000 32) (main_v67 : IVec S_ 1) : IVec S_ 1 :=
  let main_c_26 : IVec S_ 32 := constantI S_ 32 50000#32
  let main_v68 : IVec S2x300000 32 := broadcastInDim S2x300000 ![] bcast_S_S2x300000 main_c_26
  let main_v69 : IVec S2x300000 1 := cmpi .slt main_arg3 main_v68
  let main_c_27 : IVec S_ 1 := constantI S_ 1 1#1
  let main_v70 : IVec S_ 1 := (fun x v => Host.reduce IntOp.andi x v reducesTo_S2x300000_S_d0_1 h_S_) main_v69 main_c_27
  let main_v71 : IVec S_ 1 := andi main_v67 main_v70
  main_v71

def fn_part3 {F : FTy → Type} [FloatOps F] (main_arg3 : IVec S2x300000 32) (main_arg12 : FVec F S128x128 .f32) (main_arg13 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg12
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_c_24 : IVec S_ 32 := constantI S_ 32 4294917296#32
  let main_v64 : IVec S2x300000 32 := broadcastInDim S2x300000 ![] bcast_S_S2x300000 main_c_24
  let main_v65 : IVec S2x300000 1 := cmpi .sge main_arg3 main_v64
  let main_c_25 : IVec S_ 1 := constantI S_ 1 1#1
  let main_v66 : IVec S_ 1 := (fun x v => Host.reduce IntOp.andi x v reducesTo_S2x300000_S_d0_1 h_S_) main_v65 main_c_25
  let main_v67 : IVec S_ 1 := andi main_v63 main_v66
  fn_part4 (F := F) main_arg3 main_v67

def fn_part2 {F : FTy → Type} [FloatOps F] (main_arg3 : IVec S2x300000 32) (main_arg8 : FVec F S128x128 .f32) (main_arg9 : FVec F S128 .f32) (main_arg10 : FVec F S529x128 .f32) (main_arg11 : FVec F S128 .f32) (main_arg12 : FVec F S128x128 .f32) (main_arg13 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S529x128 .f32 := Host.absf main_arg10
  let main_cst_16 : FVec F S_ .f32 := constant S_ .f32 0x7F800000#32
  let main_v45 : FVec F S529x128 .f32 := broadcastInDim S529x128 ![] bcast_S_S529x128 main_cst_16
  let main_v46 : IVec S529x128 1 := cmpf .olt main_v44 main_v45
  let main_c_17 : IVec S_ 1 := constantI S_ 1 1#1
  let main_v47 : IVec S_ 1 := (fun x v => Host.reduce IntOp.andi x v reducesTo_S529x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg3 main_arg12 main_arg13 main_v48 main_v49 main_v50

def fn_part1 {F : FTy → Type} [FloatOps F] (main_arg3 : IVec S2x300000 32) (main_arg5 : FVec F S16 .f32) (main_arg6 : FVec F S401x128 .f32) (main_arg7 : FVec F S128 .f32) (main_arg8 : FVec F S128x128 .f32) (main_arg9 : FVec F S128 .f32) (main_arg10 : FVec F S529x128 .f32) (main_arg11 : FVec F S128 .f32) (main_arg12 : FVec F S128x128 .f32) (main_arg13 : FVec F S128 .f32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S401x128 .f32 := Host.absf main_arg6
  let main_cst_8 : FVec F S_ .f32 := constant S_ .f32 0x7F800000#32
  let main_v25 : FVec F S401x128 .f32 := broadcastInDim S401x128 ![] bcast_S_S401x128 main_cst_8
  let main_v26 : IVec S401x128 1 := cmpf .olt main_v24 main_v25
  let main_c_9 : IVec S_ 1 := constantI S_ 1 1#1
  let main_v27 : IVec S_ 1 := (fun x v => Host.reduce IntOp.andi x v reducesTo_S401x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg3 main_arg8 main_arg9 main_arg10 main_arg11 main_arg12 main_arg13 main_v33

def fn {F : FTy → Type} [FloatOps F] (main_arg0 : FVec F S50000x128 .f32) (main_arg1 : FVec F S50000x3 .f32) (main_arg2 : FVec F S300000x128 .f32) (main_arg3 : IVec S2x300000 32) (main_arg4 : FVec F S1 .f32) (main_arg5 : FVec F S16 .f32) (main_arg6 : FVec F S401x128 .f32) (main_arg7 : FVec F S128 .f32) (main_arg8 : FVec F S128x128 .f32) (main_arg9 : FVec F S128 .f32) (main_arg10 : FVec F S529x128 .f32) (main_arg11 : FVec F S128 .f32) (main_arg12 : FVec F S128x128 .f32) (main_arg13 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x3 .f32 := Host.absf main_arg1
  let main_cst_0 : FVec F S_ .f32 := constant S_ .f32 0x7F800000#32
  let main_v5 : FVec F S50000x3 .f32 := broadcastInDim S50000x3 ![] bcast_S_S50000x3 main_cst_0
  let main_v6 : IVec S50000x3 1 := cmpf .olt main_v4 main_v5
  let main_c_1 : IVec S_ 1 := constantI S_ 1 1#1
  let main_v7 : IVec S_ 1 := (fun x v => Host.reduce IntOp.andi x v reducesTo_S50000x3_S_d0_1 h_S_) main_v6 main_c_1
  let main_v8 : IVec S_ 1 := andi main_v3 main_v7
  let main_v9 : FVec F S300000x128 .f32 := Host.absf main_arg2
  let main_cst_2 : FVec F S_ .f32 := constant S_ .f32 0x7F800000#32
  let main_v10 : FVec F S300000x128 .f32 := broadcastInDim S300000x128 ![] bcast_S_S300000x128 main_cst_2
  let main_v11 : IVec S300000x128 1 := cmpf .olt main_v9 main_v10
  let main_c_3 : IVec S_ 1 := constantI S_ 1 1#1
  let main_v12 : IVec S_ 1 := (fun x v => Host.reduce IntOp.andi x v reducesTo_S300000x128_S_d0_1 h_S_) main_v11 main_c_3
  let main_v13 : IVec S_ 1 := andi main_v8 main_v12
  let main_v14 : FVec F S1 .f32 := Host.absf main_arg4
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg3 main_arg5 main_arg6 main_arg7 main_arg8 main_arg9 main_arg10 main_arg11 main_arg12 main_arg13 main_v13 main_v16
-- ==== Kernel.lean ====
abbrev S50000x128 : Shape := ⟨2, ![50000, 128]⟩
abbrev S50000x3 : Shape := ⟨2, ![50000, 3]⟩
abbrev S300000x128 : Shape := ⟨2, ![300000, 128]⟩
abbrev S2x300000 : Shape := ⟨2, ![2, 300000]⟩
abbrev S1 : Shape := ⟨1, ![1]⟩
abbrev S16 : Shape := ⟨1, ![16]⟩
abbrev S401x128 : Shape := ⟨2, ![401, 128]⟩
abbrev S128 : Shape := ⟨1, ![128]⟩
abbrev S128x128 : Shape := ⟨2, ![128, 128]⟩
abbrev S529x128 : Shape := ⟨2, ![529, 128]⟩
abbrev S1x300000 : Shape := ⟨2, ![1, 300000]⟩
abbrev S300000 : Shape := ⟨1, ![300000]⟩
abbrev S_ : Shape := ⟨0, ![]⟩
abbrev S300000x1 : Shape := ⟨2, ![300000, 1]⟩
abbrev S1x1 : Shape := ⟨2, ![1, 1]⟩
abbrev S300000x3 : Shape := ⟨2, ![300000, 3]⟩
abbrev S1x16 : Shape := ⟨2, ![1, 16]⟩
abbrev S300000x16 : Shape := ⟨2, ![300000, 16]⟩
abbrev S300000x17 : Shape := ⟨2, ![300000, 17]⟩
abbrev S1x128 : Shape := ⟨2, ![1, 128]⟩
abbrev S3000x128 : Shape := ⟨2, ![3000, 128]⟩
abbrev S3000x17 : Shape := ⟨2, ![3000, 17]⟩
abbrev S3000x401 : Shape := ⟨2, ![3000, 401]⟩
abbrev S3000x529 : Shape := ⟨2, ![3000, 529]⟩

abbrev nBuf : Space → Nat
  | .hbm => 144
  | .vmem => 20
  | .smem => 0
  | _ => 0

abbrev hbmTy0_0 (i : Nat) : BufTy := match i % 128 with
  | 0 => ⟨S50000x128, .f32⟩
  | 1 => ⟨S50000x3, .f32⟩
  | 2 => ⟨S300000x128, .f32⟩
  | 3 => ⟨S2x300000, .i32⟩
  | 4 => ⟨S1, .f32⟩
  | 5 => ⟨S16, .f32⟩
  | 6 => ⟨S401x128, .f32⟩
  | 7 => ⟨S128, .f32⟩
  | 8 => ⟨S128x128, .f32⟩
  | 9 => ⟨S128, .f32⟩
  | 10 => ⟨S529x128, .f32⟩
  | 11 => ⟨S128, .f32⟩
  | 12 => ⟨S128x128, .f32⟩
  | 13 => ⟨S128, .f32⟩
  | 14 => ⟨S1x300000, .i32⟩
  | 15 => ⟨S300000, .i32⟩
  | 16 => ⟨S1x300000, .i32⟩
  | 17 => ⟨S300000, .i32⟩
  | 18 => ⟨S_, .i32⟩
  | 19 => ⟨S300000, .i32⟩
  | 20 => ⟨S300000, .i1⟩
  | 21 => ⟨S_, .i32⟩
  | 22 => ⟨S300000, .i32⟩
  | 23 => ⟨S300000, .i32⟩
  | 24 => ⟨S300000, .i32⟩
  | 25 => ⟨S300000x1, .i32⟩
  | 26 => ⟨S1, .i32⟩
  | 27 => ⟨S_, .i32⟩
  | 28 => ⟨S300000x1, .i32⟩
  | 29 => ⟨S300000x1, .i1⟩
  | 30 => ⟨S1x1, .i32⟩
  | 31 => ⟨S300000x1, .i32⟩
  | 32 => ⟨S300000x1, .i1⟩
  | 33 => ⟨S300000x1, .i1⟩
  | 34 => ⟨S_, .i1⟩
  | 35 => ⟨S300000, .i1⟩
  | 36 => ⟨S300000x128, .f32⟩
  | 37 => ⟨S300000x128, .i1⟩
  | 38 => ⟨S_, .f32⟩
  | 39 => ⟨S300000x128, .f32⟩
  | 40 => ⟨S300000x128, .f32⟩
  | 41 => ⟨S_, .i32⟩
  | 42 => ⟨S300000, .i32⟩
  | 43 => ⟨S300000, .i1⟩
  | 44 => ⟨S_, .i32⟩
  | 45 => ⟨S300000, .i32⟩
  | 46 => ⟨S300000, .i32⟩
  | 47 => ⟨S300000, .i32⟩
  | 48 => ⟨S300000x1, .i32⟩
  | 49 => ⟨S1, .i32⟩
  | 50 => ⟨S_, .i32⟩
  | 51 => ⟨S300000x1, .i32⟩
  | 52 => ⟨S300000x1, .i1⟩
  | 53 => ⟨S1x1, .i32⟩
  | 54 => ⟨S300000x1, .i32⟩
  | 55 => ⟨S300000x1, .i1⟩
  | 56 => ⟨S300000x1, .i1⟩
  | 57 => ⟨S_, .i1⟩
  | 58 => ⟨S300000, .i1⟩
  | 59 => ⟨S300000x128, .f32⟩
  | 60 => ⟨S300000x128, .i1⟩
  | 61 => ⟨S_, .f32⟩
  | 62 => ⟨S300000x128, .f32⟩
  | 63 => ⟨S300000x128, .f32⟩
  | 64 => ⟨S_, .i32⟩
  | 65 => ⟨S300000, .i32⟩
  | 66 => ⟨S300000, .i1⟩
  | 67 => ⟨S_, .i32⟩
  | 68 => ⟨S300000, .i32⟩
  | 69 => ⟨S300000, .i32⟩
  | 70 => ⟨S300000, .i32⟩
  | 71 => ⟨S300000x1, .i32⟩
  | 72 => ⟨S1, .i32⟩
  | 73 => ⟨S_, .i32⟩
  | 74 => ⟨S300000x1, .i32⟩
  | 75 => ⟨S300000x1, .i1⟩
  | 76 => ⟨S1x1, .i32⟩
  | 77 => ⟨S300000x1, .i32⟩
  | 78 => ⟨S300000x1, .i1⟩
  | 79 => ⟨S300000x1, .i1⟩
  | 80 => ⟨S_, .i1⟩
  | 81 => ⟨S300000, .i1⟩
  | 82 => ⟨S300000x3, .f32⟩
  | 83 => ⟨S300000x3, .i1⟩
  | 84 => ⟨S_, .f32⟩
  | 85 => ⟨S300000x3, .f32⟩
  | 86 => ⟨S300000x3, .f32⟩
  | 87 => ⟨S_, .i32⟩
  | 88 => ⟨S300000, .i32⟩
  | 89 => ⟨S300000, .i1⟩
  | 90 => ⟨S_, .i32⟩
  | 91 => ⟨S300000, .i32⟩
  | 92 => ⟨S300000, .i32⟩
  | 93 => ⟨S300000, .i32⟩
  | 94 => ⟨S300000x1, .i32⟩
  | 95 => ⟨S1, .i32⟩
  | 96 => ⟨S_, .i32⟩
  | 97 => ⟨S300000x1, .i32⟩
  | 98 => ⟨S300000x1, .i1⟩
  | 99 => ⟨S1x1, .i32⟩
  | 100 => ⟨S300000x1, .i32⟩
  | 101 => ⟨S300000x1, .i1⟩
  | 102 => ⟨S300000x1, .i1⟩
  | 103 => ⟨S_, .i1⟩
  | 104 => ⟨S300000, .i1⟩
  | 105 => ⟨S300000x3, .f32⟩
  | 106 => ⟨S300000x3, .i1⟩
  | 107 => ⟨S_, .f32⟩
  | 108 => ⟨S300000x3, .f32⟩
  | 109 => ⟨S300000x3, .f32⟩
  | 110 => ⟨S300000x3, .f32⟩
  | 111 => ⟨S300000x3, .f32⟩
  | 112 => ⟨S_, .f32⟩
  | 113 => ⟨S300000, .f32⟩
  | 114 => ⟨S300000x1, .f32⟩
  | 115 => ⟨S300000x1, .f32⟩
  | 116 => ⟨S_, .f32⟩
  | 117 => ⟨S1, .f32⟩
  | 118 => ⟨S1, .f32⟩
  | 119 => ⟨S1, .f32⟩
  | 120 => ⟨S1x16, .f32⟩
  | 121 => ⟨S300000x16, .f32⟩
  | 122 => ⟨S300000x16, .f32⟩
  | 123 => ⟨S300000x16, .f32⟩
  | 124 => ⟨S1x1, .f32⟩
  | 125 => ⟨S300000x16, .f32⟩
  | 126 => ⟨S300000x16, .f32⟩
  | 127 => ⟨S300000x16, .f32⟩
  | _ => ⟨S50000x128, .f32⟩

abbrev hbmTy0_1 (i : Nat) : BufTy := match i % 128 with
  | 0 => ⟨S1x1, .f32⟩
  | 1 => ⟨S300000x16, .f32⟩
  | 2 => ⟨S300000x16, .f32⟩
  | 3 => ⟨S300000x16, .f32⟩
  | 4 => ⟨S300000x16, .f32⟩
  | 5 => ⟨S300000x17, .f32⟩
  | 6 => ⟨S401x128, .bf16⟩
  | 7 => ⟨S128x128, .bf16⟩
  | 8 => ⟨S529x128, .bf16⟩
  | 9 => ⟨S128x128, .bf16⟩
  | 10 => ⟨S1x128, .f32⟩
  | 11 => ⟨S1x128, .f32⟩
  | 12 => ⟨S1x128, .f32⟩
  | 13 => ⟨S1x128, .f32⟩
  | 14 => ⟨S300000x128, .f32⟩
  | 15 => ⟨S300000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S3000x128, .f32⟩
  | .local _ .vmem, ⟨1, _⟩ => ⟨S3000x128, .f32⟩
  | .local _ .vmem, ⟨2, _⟩ => ⟨S3000x128, .f32⟩
  | .local _ .vmem, ⟨3, _⟩ => ⟨S3000x128, .f32⟩
  | .local _ .vmem, ⟨4, _⟩ => ⟨S3000x128, .f32⟩
  | .local _ .vmem, ⟨5, _⟩ => ⟨S3000x128, .f32⟩
  | .local _ .vmem, ⟨6, _⟩ => ⟨S3000x17, .f32⟩
  | .local _ .vmem, ⟨7, _⟩ => ⟨S3000x17, .f32⟩
  | .local _ .vmem, ⟨8, _⟩ => ⟨S401x128, .bf16⟩
  | .local _ .vmem, ⟨9, _⟩ => ⟨S1x128, .f32⟩
  | .local _ .vmem, ⟨10, _⟩ => ⟨S128x128, .bf16⟩
  | .local _ .vmem, ⟨11, _⟩ => ⟨S1x128, .f32⟩
  | .local _ .vmem, ⟨12, _⟩ => ⟨S529x128, .bf16⟩
  | .local _ .vmem, ⟨13, _⟩ => ⟨S1x128, .f32⟩
  | .local _ .vmem, ⟨14, _⟩ => ⟨S128x128, .bf16⟩
  | .local _ .vmem, ⟨15, _⟩ => ⟨S1x128, .f32⟩
  | .local _ .vmem, ⟨16, _⟩ => ⟨S3000x128, .f32⟩
  | .local _ .vmem, ⟨17, _⟩ => ⟨S3000x128, .f32⟩
  | .local _ .vmem, ⟨18, _⟩ => ⟨S3000x128, .f32⟩
  | .local _ .vmem, ⟨19, _⟩ => ⟨S3000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_cst : Ref sig .tc := ⟨.hbm, 38, rfl⟩
abbrev main_call0_v15 : Ref sig .tc := ⟨.hbm, 39, rfl⟩
abbrev main_v4 : Ref sig .tc := ⟨.hbm, 40, rfl⟩
abbrev main_call1_c : Ref sig .tc := ⟨.hbm, 41, rfl⟩
abbrev main_call1_v0 : Ref sig .tc := ⟨.hbm, 42, rfl⟩
abbrev main_call1_v1 : Ref sig .tc := ⟨.hbm, 43, rfl⟩
abbrev main_call1_c_0 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_c_1 : Ref sig .tc := ⟨.hbm, 49, rfl⟩
abbrev main_call1_c_2 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_c_3 : Ref sig .tc := ⟨.hbm, 57, rfl⟩
abbrev main_call1_v12 : Ref sig .tc := ⟨.hbm, 58, rfl⟩
abbrev main_call1_v13 : Ref sig .tc := ⟨.hbm, 59, rfl⟩
abbrev main_call1_v14 : Ref sig .tc := ⟨.hbm, 60, rfl⟩
abbrev main_call1_cst : Ref sig .tc := ⟨.hbm, 61, rfl⟩
abbrev main_call1_v15 : Ref sig .tc := ⟨.hbm, 62, rfl⟩
abbrev main_v5 : Ref sig .tc := ⟨.hbm, 63, rfl⟩
abbrev main_call2_c : Ref sig .tc := ⟨.hbm, 64, rfl⟩
abbrev main_call2_v0 : Ref sig .tc := ⟨.hbm, 65, rfl⟩
abbrev main_call2_v1 : Ref sig .tc := ⟨.hbm, 66, rfl⟩
abbrev main_call2_c_0 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_v5 : Ref sig .tc := ⟨.hbm, 71, rfl⟩
abbrev main_call2_c_1 : Ref sig .tc := ⟨.hbm, 72, rfl⟩
abbrev main_call2_c_2 : Ref sig .tc := ⟨.hbm, 73, rfl⟩
abbrev main_call2_v6 : Ref sig .tc := ⟨.hbm, 74, rfl⟩
abbrev main_call2_v7 : Ref sig .tc := ⟨.hbm, 75, rfl⟩
abbrev main_call2_v8 : Ref sig .tc := ⟨.hbm, 76, rfl⟩
abbrev main_call2_v9 : Ref sig .tc := ⟨.hbm, 77, rfl⟩
abbrev main_call2_v10 : Ref sig .tc := ⟨.hbm, 78, rfl⟩
abbrev main_call2_v11 : Ref sig .tc := ⟨.hbm, 79, rfl⟩
abbrev main_call2_c_3 : Ref sig .tc := ⟨.hbm, 80, rfl⟩
abbrev main_call2_v12 : Ref sig .tc := ⟨.hbm, 81, rfl⟩
abbrev main_call2_v13 : Ref sig .tc := ⟨.hbm, 82, rfl⟩
abbrev main_call2_v14 : Ref sig .tc := ⟨.hbm, 83, rfl⟩
abbrev main_call2_cst : Ref sig .tc := ⟨.hbm, 84, rfl⟩
abbrev main_call2_v15 : Ref sig .tc := ⟨.hbm, 85, rfl⟩
abbrev main_v6 : Ref sig .tc := ⟨.hbm, 86, rfl⟩
abbrev main_call3_c : Ref sig .tc := ⟨.hbm, 87, rfl⟩
abbrev main_call3_v0 : Ref sig .tc := ⟨.hbm, 88, rfl⟩
abbrev main_call3_v1 : Ref sig .tc := ⟨.hbm, 89, rfl⟩
abbrev main_call3_c_0 : Ref sig .tc := ⟨.hbm, 90, rfl⟩
abbrev main_call3_v2 : Ref sig .tc := ⟨.hbm, 91, rfl⟩
abbrev main_call3_v3 : Ref sig .tc := ⟨.hbm, 92, rfl⟩
abbrev main_call3_v4 : Ref sig .tc := ⟨.hbm, 93, rfl⟩
abbrev main_call3_v5 : Ref sig .tc := ⟨.hbm, 94, rfl⟩
abbrev main_call3_c_1 : Ref sig .tc := ⟨.hbm, 95, rfl⟩
abbrev main_call3_c_2 : Ref sig .tc := ⟨.hbm, 96, rfl⟩
abbrev main_call3_v6 : Ref sig .tc := ⟨.hbm, 97, rfl⟩
abbrev main_call3_v7 : Ref sig .tc := ⟨.hbm, 98, rfl⟩
abbrev main_call3_v8 : Ref sig .tc := ⟨.hbm, 99, rfl⟩
abbrev main_call3_v9 : Ref sig .tc := ⟨.hbm, 100, rfl⟩
abbrev main_call3_v10 : Ref sig .tc := ⟨.hbm, 101, rfl⟩
abbrev main_call3_v11 : Ref sig .tc := ⟨.hbm, 102, rfl⟩
abbrev main_call3_c_3 : Ref sig .tc := ⟨.hbm, 103, rfl⟩
abbrev main_call3_v12 : Ref sig .tc := ⟨.hbm, 104, rfl⟩
abbrev main_call3_v13 : Ref sig .tc := ⟨.hbm, 105, rfl⟩
abbrev main_call3_v14 : Ref sig .tc := ⟨.hbm, 106, rfl⟩
abbrev main_call3_cst : Ref sig .tc := ⟨.hbm, 107, rfl⟩
abbrev main_call3_v15 : Ref sig .tc := ⟨.hbm, 108, rfl⟩
abbrev main_v7 : Ref sig .tc := ⟨.hbm, 109, rfl⟩
abbrev main_v8 : Ref sig .tc := ⟨.hbm, 110, rfl⟩
abbrev main_v9 : Ref sig .tc := ⟨.hbm, 111, rfl⟩
abbrev main_cst : Ref sig .tc := ⟨.hbm, 112, rfl⟩
abbrev main_v10 : Ref sig .tc := ⟨.hbm, 113, rfl⟩
abbrev main_v11 : Ref sig .tc := ⟨.hbm, 114, rfl⟩
abbrev main_v12 : Ref sig .tc := ⟨.hbm, 115, rfl⟩
abbrev main_cst_0 : Ref sig .tc := ⟨.hbm, 116, rfl⟩
abbrev main_v13 : Ref sig .tc := ⟨.hbm, 117, rfl⟩
abbrev main_v14 : Ref sig .tc := ⟨.hbm, 118, rfl⟩
abbrev main_v15 : Ref sig .tc := ⟨.hbm, 119, rfl⟩
abbrev main_v16 : Ref sig .tc := ⟨.hbm, 120, rfl⟩
abbrev main_v17 : Ref sig .tc := ⟨.hbm, 121, rfl⟩
abbrev main_v18 : Ref sig .tc := ⟨.hbm, 122, rfl⟩
abbrev main_v19 : Ref sig .tc := ⟨.hbm, 123, rfl⟩
abbrev main_v20 : Ref sig .tc := ⟨.hbm, 124, rfl⟩
abbrev main_v21 : Ref sig .tc := ⟨.hbm, 125, rfl⟩
abbrev main_v22 : Ref sig .tc := ⟨.hbm, 126, rfl⟩
abbrev main_v23 : Ref sig .tc := ⟨.hbm, 127, rfl⟩
abbrev main_v24 : Ref sig .tc := ⟨.hbm, 128, rfl⟩
abbrev main_v25 : Ref sig .tc := ⟨.hbm, 129, rfl⟩
abbrev main_v26 : Ref sig .tc := ⟨.hbm, 130, rfl⟩
abbrev main_v27 : Ref sig .tc := ⟨.hbm, 131, rfl⟩
abbrev main_v28 : Ref sig .tc := ⟨.hbm, 132, rfl⟩
abbrev main_v29 : Ref sig .tc := ⟨.hbm, 133, rfl⟩
abbrev main_v30 : Ref sig .tc := ⟨.hbm, 134, rfl⟩
abbrev main_v31 : Ref sig .tc := ⟨.hbm, 135, rfl⟩
abbrev main_v32 : Ref sig .tc := ⟨.hbm, 136, rfl⟩
abbrev main_v33 : Ref sig .tc := ⟨.hbm, 137, rfl⟩
abbrev main_v34 : Ref sig .tc := ⟨.hbm, 138, rfl⟩
abbrev main_v35 : Ref sig .tc := ⟨.hbm, 139, rfl⟩
abbrev main_v36 : Ref sig .tc := ⟨.hbm, 140, rfl⟩
abbrev main_v37 : Ref sig .tc := ⟨.hbm, 141, rfl⟩
abbrev main_v38_0 : Ref sig .tc := ⟨.hbm, 142, rfl⟩
abbrev main_v38_1 : Ref sig .tc := ⟨.hbm, 143, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3000x17 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S401x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S529x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S3000x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S3000x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  slices_S2x300000_S1x300000_0_0 : S2x300000.Slices ![0, 0] S1x300000
  shapeCasts_S1x300000_S300000 : S1x300000.ShapeCasts S300000
  slices_S2x300000_S1x300000_1_0 : S2x300000.Slices ![1, 0] S1x300000
  bcast_S_S300000 : S_.BroadcastsInDim S300000 (![] : Fin 0 → Fin S300000.rank)
  bcast_S300000_S300000x1_0 : S300000.BroadcastsInDim S300000x1 (![0] : Fin 1 → Fin S300000x1.rank)
  bcast_S_S300000x1 : S_.BroadcastsInDim S300000x1 (![] : Fin 0 → Fin S300000x1.rank)
  bcast_S1_S1x1_1 : S1.BroadcastsInDim S1x1 (![1] : Fin 1 → Fin S1x1.rank)
  bcast_S1x1_S300000x1_0_1 : S1x1.BroadcastsInDim S300000x1 (![0, 1] : Fin 2 → Fin S300000x1.rank)
  reducesTo_S300000x1_S300000_d1 : S300000x1.ReducesTo [1] S300000
  h_S_ : 0 < S_.numel
  bcast_S300000_S300000x128_0 : S300000.BroadcastsInDim S300000x128 (![0] : Fin 1 → Fin S300000x128.rank)
  bcast_S_S300000x128 : S_.BroadcastsInDim S300000x128 (![] : Fin 0 → Fin S300000x128.rank)
  bcast_S300000_S300000x3_0 : S300000.BroadcastsInDim S300000x3 (![0] : Fin 1 → Fin S300000x3.rank)
  bcast_S_S300000x3 : S_.BroadcastsInDim S300000x3 (![] : Fin 0 → Fin S300000x3.rank)
  reducesTo_S300000x3_S300000_d1 : S300000x3.ReducesTo [1] S300000
  bcast_S_S1 : S_.BroadcastsInDim S1 (![] : Fin 0 → Fin S1.rank)
  bcast_S16_S1x16_1 : S16.BroadcastsInDim S1x16 (![1] : Fin 1 → Fin S1x16.rank)
  bcast_S1x16_S300000x16_0_1 : S1x16.BroadcastsInDim S300000x16 (![0, 1] : Fin 2 → Fin S300000x16.rank)
  bcast_S300000x1_S300000x16_0_1 : S300000x1.BroadcastsInDim S300000x16 (![0, 1] : Fin 2 → Fin S300000x16.rank)
  bcast_S1x1_S300000x16_0_1 : S1x1.BroadcastsInDim S300000x16 (![0, 1] : Fin 2 → Fin S300000x16.rank)
  concatenates_S300000x1_S300000x16_S300000x17_d1 : Shape.Concatenates [S300000x1, S300000x16] S300000x17 1
  bitsLt_bf16_f32 : FTy.bits .bf16 < FTy.bits .f32
  shapeCasts_S128_S1x128 : S128.ShapeCasts S1x128
  inb_S3000x128_S3000x128_0_0 : ∀ a, (![0, 0] : Fin 2 → Nat) a + S3000x128.size a ≤ S3000x128.size a
  h_S3000x128 : 0 < S3000x128.numel
  shapeCasts_S3000x128_S3000x128 : S3000x128.ShapeCasts S3000x128
  inb_S3000x17_S3000x17_0_0 : ∀ a, (![0, 0] : Fin 2 → Nat) a + S3000x17.size a ≤ S3000x17.size a
  h_S3000x17 : 0 < S3000x17.numel
  shapeCasts_S3000x17_S3000x17 : S3000x17.ShapeCasts S3000x17
  concatenates_S3000x128_S3000x128_S3000x17_S3000x128_S3000x401_d1 : Shape.Concatenates [S3000x128, S3000x128, S3000x17, S3000x128] S3000x401 1
  inb_S401x128_S401x128_0_0 : ∀ a, (![0, 0] : Fin 2 → Nat) a + S401x128.size a ≤ S401x128.size a
  h_S401x128 : 0 < S401x128.numel
  shapeCasts_S401x128_S401x128 : S401x128.ShapeCasts S401x128
  inb_S1x128_S1x128_0_0 : ∀ a, (![0, 0] : Fin 2 → Nat) a + S1x128.size a ≤ S1x128.size a
  h_S1x128 : 0 < S1x128.numel
  shapeCasts_S1x128_S128 : S1x128.ShapeCasts S128
  broadcasts_S1x128_S3000x128 : S1x128.Broadcasts S3000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  concatenates_S3000x128_S3000x128_S3000x128_S3000x17_S3000x128_S3000x529_d1 : Shape.Concatenates [S3000x128, S3000x128, S3000x128, S3000x17, S3000x128] S3000x529 1
  inb_S529x128_S529x128_0_0 : ∀ a, (![0, 0] : Fin 2 → Nat) a + S529x128.size a ≤ S529x128.size a
  h_S529x128 : 0 < S529x128.numel
  shapeCasts_S529x128_S529x128 : S529x128.ShapeCasts S529x128
  gather_S50000x128_S300000x1_S300000x128_1_0_n_n_0_1_1128_wf : GatherDims.WF S50000x128 S300000x1 S300000x128 [1] [0] [] [0] [] 1 ![1, 128]
  gather_S50000x3_S300000x1_S300000x3_1_0_n_n_0_1_13_wf : GatherDims.WF S50000x3 S300000x1 S300000x3 [1] [0] [] [0] [] 1 ![1, 3]
  dot_S3000x401_S401x128_S3000x128_1_0_0_1_n_n_wf : DotDims.WF S3000x401 S401x128 S3000x128 [1] [0] [0] [1] [] []
  dot_S3000x128_S128x128_S3000x128_1_0_0_1_n_n_wf : DotDims.WF S3000x128 S128x128 S3000x128 [1] [0] [0] [1] [] []
  dot_S3000x529_S529x128_S3000x128_1_0_0_1_n_n_wf : DotDims.WF S3000x529 S529x128 S3000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3000x128.size a ≤ S300000x128.size a
  hwx0_0 : ∀ i : grid0.Coords, EltTy.bits .f32 = 32 ∨ (Rect.block (s := S300000x128) S3000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3000x128.size a ≤ S300000x128.size a
  hwx0_1 : ∀ i : grid0.Coords, EltTy.bits .f32 = 32 ∨ (Rect.block (s := S300000x128) S3000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3000x128.size a ≤ S300000x128.size a
  hwx0_2 : ∀ i : grid0.Coords, EltTy.bits .f32 = 32 ∨ (Rect.block (s := S300000x128) S3000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S3000x17.size a ≤ S300000x17.size a
  hwx0_3 : ∀ i : grid0.Coords, EltTy.bits .f32 = 32 ∨ (Rect.block (s := S300000x17) S3000x17.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S401x128.size a ≤ S401x128.size a
  hwx0_4 : ∀ i : grid0.Coords, EltTy.bits .bf16 = 32 ∨ (Rect.block (s := S401x128) S401x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .bf16 = 32 ∨ (Rect.block (s := S128x128) S128x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S529x128.size a ≤ S529x128.size a
  hwx0_8 : ∀ i : grid0.Coords, EltTy.bits .bf16 = 32 ∨ (Rect.block (s := S529x128) S529x128.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x128.size a ≤ S128x128.size a
  hwx0_10 : ∀ i : grid0.Coords, EltTy.bits .bf16 = 32 ∨ (Rect.block (s := S128x128) S128x128.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x128.size a
  hwx0_11 : ∀ i : grid0.Coords, EltTy.bits .f32 = 32 ∨ (Rect.block (s := S1x128) S1x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S3000x128.size a ≤ S300000x128.size a
  hwx0_12 : ∀ i : grid0.Coords, EltTy.bits .f32 = 32 ∨ (Rect.block (s := S300000x128) S3000x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S3000x128.size a ≤ S300000x128.size a
  hwx0_13 : ∀ i : grid0.Coords, EltTy.bits .f32 = 32 ∨ (Rect.block (s := S300000x128) S3000x128.size (cc0_transform_13 i) (hinb0_13 i)).WholeWords (EltTy.packing .f32)

variable [Facts₀]

def gather_S50000x128_S300000x1_S300000x128_1_0_n_n_0_1_1128 : GatherDims S50000x128 S300000x1 S300000x128 where
  offsetDims := [1]
  collapsedSliceDims := [0]
  operandBatchingDims := []
  startIndicesBatchingDims := []
  startIndexMap := [0]
  indexVectorDim := 1
  sliceSizes := ![1, 128]
  wf := gather_S50000x128_S300000x1_S300000x128_1_0_n_n_0_1_1128_wf
def gather_S50000x3_S300000x1_S300000x3_1_0_n_n_0_1_13 : GatherDims S50000x3 S300000x1 S300000x3 where
  offsetDims := [1]
  collapsedSliceDims := [0]
  operandBatchingDims := []
  startIndicesBatchingDims := []
  startIndexMap := [0]
  indexVectorDim := 1
  sliceSizes := ![1, 3]
  wf := gather_S50000x3_S300000x1_S300000x3_1_0_n_n_0_1_13_wf
def dot_S3000x401_S401x128_S3000x128_1_0_0_1_n_n : DotDims S3000x401 S401x128 S3000x128 where
  lhsContracting := [1]
  rhsContracting := [0]
  lhsNonContracting := [0]
  rhsNonContracting := [1]
  lhsBatch := []
  rhsBatch := []
  wf := dot_S3000x401_S401x128_S3000x128_1_0_0_1_n_n_wf
def dot_S3000x128_S128x128_S3000x128_1_0_0_1_n_n : DotDims S3000x128 S128x128 S3000x128 where
  lhsContracting := [1]
  rhsContracting := [0]
  lhsNonContracting := [0]
  rhsNonContracting := [1]
  lhsBatch := []
  rhsBatch := []
  wf := dot_S3000x128_S128x128_S3000x128_1_0_0_1_n_n_wf
def dot_S3000x529_S529x128_S3000x128_1_0_0_1_n_n : DotDims S3000x529 S529x128 S3000x128 where
  lhsContracting := [1]
  rhsContracting := [0]
  lhsNonContracting := [0]
  rhsNonContracting := [1]
  lhsBatch := []
  rhsBatch := []
  wf := dot_S3000x529_S529x128_S3000x128_1_0_0_1_n_n_wf

abbrev win0_0 : Pipeline.Window sig grid0 :=
  Pipeline.Window.ofSpec (Memref.whole main_v4) S3000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S3000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S3000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v29) S3000x17.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v30) S401x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v34) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v31) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v35) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v32) S529x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v36) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v33) S128x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v37) S1x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v38_0) S3000x128.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v38_1) S3000x128.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S50000x128 : Shape := ⟨2, ![50000, 128]⟩
abbrev S50000x3 : Shape := ⟨2, ![50000, 3]⟩
abbrev S300000x128 : Shape := ⟨2, ![300000, 128]⟩
abbrev S2x300000 : Shape := ⟨2, ![2, 300000]⟩
abbrev S1 : Shape := ⟨1, ![1]⟩
abbrev S16 : Shape := ⟨1, ![16]⟩
abbrev S401x128 : Shape := ⟨2, ![401, 128]⟩
abbrev S128 : Shape := ⟨1, ![128]⟩
abbrev S128x128 : Shape := ⟨2, ![128, 128]⟩
abbrev S529x128 : Shape := ⟨2, ![529, 128]⟩
abbrev S1x300000 : Shape := ⟨2, ![1, 300000]⟩
abbrev S300000 : Shape := ⟨1, ![300000]⟩
abbrev S_ : Shape := ⟨0, ![]⟩
abbrev S300000x1 : Shape := ⟨2, ![300000, 1]⟩
abbrev S300000x3 : Shape := ⟨2, ![300000, 3]⟩
abbrev S1x16 : Shape := ⟨2, ![1, 16]⟩
abbrev S300000x16 : Shape := ⟨2, ![300000, 16]⟩
abbrev S1x1 : Shape := ⟨2, ![1, 1]⟩
abbrev S300000x401 : Shape := ⟨2, ![300000, 401]⟩
abbrev S1x128 : Shape := ⟨2, ![1, 128]⟩
abbrev S300000x529 : Shape := ⟨2, ![300000, 529]⟩

abbrev nBuf : Space → Nat
  | .hbm => 113
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x3, .f32⟩
  | .hbm, ⟨2, _⟩ => ⟨S300000x128, .f32⟩
  | .hbm, ⟨3, _⟩ => ⟨S2x300000, .i32⟩
  | .hbm, ⟨4, _⟩ => ⟨S1, .f32⟩
  | .hbm, ⟨5, _⟩ => ⟨S16, .f32⟩
  | .hbm, ⟨6, _⟩ => ⟨S401x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S529x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S1x300000, .i32⟩
  | .hbm, ⟨15, _⟩ => ⟨S300000, .i32⟩
  | .hbm, ⟨16, _⟩ => ⟨S1x300000, .i32⟩
  | .hbm, ⟨17, _⟩ => ⟨S300000, .i32⟩
  | .hbm, ⟨18, _⟩ => ⟨S_, .i32⟩
  | .hbm, ⟨19, _⟩ => ⟨S300000, .i32⟩
  | .hbm, ⟨20, _⟩ => ⟨S300000, .i1⟩
  | .hbm, ⟨21, _⟩ => ⟨S_, .i32⟩
  | .hbm, ⟨22, _⟩ => ⟨S300000, .i32⟩
  | .hbm, ⟨23, _⟩ => ⟨S300000, .i32⟩
  | .hbm, ⟨24, _⟩ => ⟨S300000, .i32⟩
  | .hbm, ⟨25, _⟩ => ⟨S300000x1, .i32⟩
  | .hbm, ⟨26, _⟩ => ⟨S300000x128, .f32⟩
  | .hbm, ⟨27, _⟩ => ⟨S_, .i32⟩
  | .hbm, ⟨28, _⟩ => ⟨S300000, .i32⟩
  | .hbm, ⟨29, _⟩ => ⟨S300000, .i1⟩
  | .hbm, ⟨30, _⟩ => ⟨S_, .i32⟩
  | .hbm, ⟨31, _⟩ => ⟨S300000, .i32⟩
  | .hbm, ⟨32, _⟩ => ⟨S300000, .i32⟩
  | .hbm, ⟨33, _⟩ => ⟨S300000, .i32⟩
  | .hbm, ⟨34, _⟩ => ⟨S300000x1, .i32⟩
  | .hbm, ⟨35, _⟩ => ⟨S300000x128, .f32⟩
  | .hbm, ⟨36, _⟩ => ⟨S_, .i32⟩
  | .hbm, ⟨37, _⟩ => ⟨S300000, .i32⟩
  | .hbm, ⟨38, _⟩ => ⟨S300000, .i1⟩
  | .hbm, ⟨39, _⟩ => ⟨S_, .i32⟩
  | .hbm, ⟨40, _⟩ => ⟨S300000, .i32⟩
  | .hbm, ⟨41, _⟩ => ⟨S300000, .i32⟩
  | .hbm, ⟨42, _⟩ => ⟨S300000, .i32⟩
  | .hbm, ⟨43, _⟩ => ⟨S300000x1, .i32⟩
  | .hbm, ⟨44, _⟩ => ⟨S300000x3, .f32⟩
  | .hbm, ⟨45, _⟩ => ⟨S_, .i32⟩
  | .hbm, ⟨46, _⟩ => ⟨S300000, .i32⟩
  | .hbm, ⟨47, _⟩ => ⟨S300000, .i1⟩
  | .hbm, ⟨48, _⟩ => ⟨S_, .i32⟩
  | .hbm, ⟨49, _⟩ => ⟨S300000, .i32⟩
  | .hbm, ⟨50, _⟩ => ⟨S300000, .i32⟩
  | .hbm, ⟨51, _⟩ => ⟨S300000, .i32⟩
  | .hbm, ⟨52, _⟩ => ⟨S300000x1, .i32⟩
  | .hbm, ⟨53, _⟩ => ⟨S300000x3, .f32⟩
  | .hbm, ⟨54, _⟩ => ⟨S300000x3, .f32⟩
  | .hbm, ⟨55, _⟩ => ⟨S300000x3, .f32⟩
  | .hbm, ⟨56, _⟩ => ⟨S_, .f32⟩
  | .hbm, ⟨57, _⟩ => ⟨S300000, .f32⟩
  | .hbm, ⟨58, _⟩ => ⟨S300000x1, .f32⟩
  | .hbm, ⟨59, _⟩ => ⟨S300000x1, .f32⟩
  | .hbm, ⟨60, _⟩ => ⟨S_, .f32⟩
  | .hbm, ⟨61, _⟩ => ⟨S1, .f32⟩
  | .hbm, ⟨62, _⟩ => ⟨S1, .f32⟩
  | .hbm, ⟨63, _⟩ => ⟨S1, .f32⟩
  | .hbm, ⟨64, _⟩ => ⟨S1x16, .f32⟩
  | .hbm, ⟨65, _⟩ => ⟨S300000x16, .f32⟩
  | .hbm, ⟨66, _⟩ => ⟨S300000x16, .f32⟩
  | .hbm, ⟨67, _⟩ => ⟨S300000x16, .f32⟩
  | .hbm, ⟨68, _⟩ => ⟨S1x1, .f32⟩
  | .hbm, ⟨69, _⟩ => ⟨S300000x16, .f32⟩
  | .hbm, ⟨70, _⟩ => ⟨S300000x16, .f32⟩
  | .hbm, ⟨71, _⟩ => ⟨S300000x16, .f32⟩
  | .hbm, ⟨72, _⟩ => ⟨S1x1, .f32⟩
  | .hbm, ⟨73, _⟩ => ⟨S300000x16, .f32⟩
  | .hbm, ⟨74, _⟩ => ⟨S300000x16, .f32⟩
  | .hbm, ⟨75, _⟩ => ⟨S300000x16, .f32⟩
  | .hbm, ⟨76, _⟩ => ⟨S300000x16, .f32⟩
  | .hbm, ⟨77, _⟩ => ⟨S300000x401, .f32⟩
  | .hbm, ⟨78, _⟩ => ⟨S300000x128, .f32⟩
  | .hbm, ⟨79, _⟩ => ⟨S1x128, .f32⟩
  | .hbm, ⟨80, _⟩ => ⟨S300000x128, .f32⟩
  | .hbm, ⟨81, _⟩ => ⟨S300000x128, .f32⟩
  | .hbm, ⟨82, _⟩ => ⟨S300000x128, .f32⟩
  | .hbm, ⟨83, _⟩ => ⟨S300000x128, .f32⟩
  | .hbm, ⟨84, _⟩ => ⟨S_, .f32⟩
  | .hbm, ⟨85, _⟩ => ⟨S300000x128, .f32⟩
  | .hbm, ⟨86, _⟩ => ⟨S300000x128, .f32⟩
  | .hbm, ⟨87, _⟩ => ⟨S_, .f32⟩
  | .hbm, ⟨88, _⟩ => ⟨S300000x128, .f32⟩
  | .hbm, ⟨89, _⟩ => ⟨S300000x128, .f32⟩
  | .hbm, ⟨90, _⟩ => ⟨S300000x128, .f32⟩
  | .hbm, ⟨91, _⟩ => ⟨S300000x128, .f32⟩
  | .hbm, ⟨92, _⟩ => ⟨S1x128, .f32⟩
  | .hbm, ⟨93, _⟩ => ⟨S300000x128, .f32⟩
  | .hbm, ⟨94, _⟩ => ⟨S300000x128, .f32⟩
  | .hbm, ⟨95, _⟩ => ⟨S300000x529, .f32⟩
  | .hbm, ⟨96, _⟩ => ⟨S300000x128, .f32⟩
  | .hbm, ⟨97, _⟩ => ⟨S1x128, .f32⟩
  | .hbm, ⟨98, _⟩ => ⟨S300000x128, .f32⟩
  | .hbm, ⟨99, _⟩ => ⟨S300000x128, .f32⟩
  | .hbm, ⟨100, _⟩ => ⟨S300000x128, .f32⟩
  | .hbm, ⟨101, _⟩ => ⟨S300000x128, .f32⟩
  | .hbm, ⟨102, _⟩ => ⟨S_, .f32⟩
  | .hbm, ⟨103, _⟩ => ⟨S300000x128, .f32⟩
  | .hbm, ⟨104, _⟩ => ⟨S300000x128, .f32⟩
  | .hbm, ⟨105, _⟩ => ⟨S_, .f32⟩
  | .hbm, ⟨106, _⟩ => ⟨S300000x128, .f32⟩
  | .hbm, ⟨107, _⟩ => ⟨S300000x128, .f32⟩
  | .hbm, ⟨108, _⟩ => ⟨S300000x128, .f32⟩
  | .hbm, ⟨109, _⟩ => ⟨S300000x128, .f32⟩
  | .hbm, ⟨110, _⟩ => ⟨S1x128, .f32⟩
  | .hbm, ⟨111, _⟩ => ⟨S300000x128, .f32⟩
  | .hbm, ⟨112, _⟩ => ⟨S300000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c_1 : Ref sig .tc := ⟨.hbm, 27, rfl⟩
abbrev main_v11 : Ref sig .tc := ⟨.hbm, 28, rfl⟩
abbrev main_v12 : Ref sig .tc := ⟨.hbm, 29, rfl⟩
abbrev main_c_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c_3 : Ref sig .tc := ⟨.hbm, 36, rfl⟩
abbrev main_v18 : Ref sig .tc := ⟨.hbm, 37, rfl⟩
abbrev main_v19 : Ref sig .tc := ⟨.hbm, 38, rfl⟩
abbrev main_c_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_5 : Ref sig .tc := ⟨.hbm, 45, rfl⟩
abbrev main_v25 : Ref sig .tc := ⟨.hbm, 46, rfl⟩
abbrev main_v26 : Ref sig .tc := ⟨.hbm, 47, rfl⟩
abbrev main_c_6 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_7 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_call0_v0 : Ref sig .tc := ⟨.hbm, 82, rfl⟩
abbrev main_call0_v1 : Ref sig .tc := ⟨.hbm, 83, rfl⟩
abbrev main_call0_cst : Ref sig .tc := ⟨.hbm, 84, rfl⟩
abbrev main_call0_v2 : Ref sig .tc := ⟨.hbm, 85, rfl⟩
abbrev main_call0_v3 : Ref sig .tc := ⟨.hbm, 86, rfl⟩
abbrev main_call0_cst_0 : Ref sig .tc := ⟨.hbm, 87, rfl⟩
abbrev main_call0_v4 : Ref sig .tc := ⟨.hbm, 88, rfl⟩
abbrev main_call0_v5 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_call1_v0 : Ref sig .tc := ⟨.hbm, 100, rfl⟩
abbrev main_call1_v1 : Ref sig .tc := ⟨.hbm, 101, rfl⟩
abbrev main_call1_cst : Ref sig .tc := ⟨.hbm, 102, rfl⟩
abbrev main_call1_v2 : Ref sig .tc := ⟨.hbm, 103, rfl⟩
abbrev main_call1_v3 : Ref sig .tc := ⟨.hbm, 104, rfl⟩
abbrev main_call1_cst_0 : Ref sig .tc := ⟨.hbm, 105, rfl⟩
abbrev main_call1_v4 : Ref sig .tc := ⟨.hbm, 106, rfl⟩
abbrev main_call1_v5 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩

abbrev nD : Nat := 1
abbrev τ : Topo := Topo.v7x

variable {F : FTy → Type} [FloatOps F]

class Facts₀ : Prop where
  slices_S2x300000_S1x300000_0_0 : S2x300000.Slices ![0, 0] S1x300000
  shapeCasts_S1x300000_S300000 : S1x300000.ShapeCasts S300000
  slices_S2x300000_S1x300000_1_0 : S2x300000.Slices ![1, 0] S1x300000
  bcast_S_S300000 : S_.BroadcastsInDim S300000 (![] : Fin 0 → Fin S300000.rank)
  bcast_S300000_S300000x1_0 : S300000.BroadcastsInDim S300000x1 (![0] : Fin 1 → Fin S300000x1.rank)
  reducesTo_S300000x3_S300000_d1 : S300000x3.ReducesTo [1] S300000
  h_S_ : 0 < S_.numel
  bcast_S_S1 : S_.BroadcastsInDim S1 (![] : Fin 0 → Fin S1.rank)
  bcast_S16_S1x16_1 : S16.BroadcastsInDim S1x16 (![1] : Fin 1 → Fin S1x16.rank)
  bcast_S1x16_S300000x16_0_1 : S1x16.BroadcastsInDim S300000x16 (![0, 1] : Fin 2 → Fin S300000x16.rank)
  bcast_S300000x1_S300000x16_0_1 : S300000x1.BroadcastsInDim S300000x16 (![0, 1] : Fin 2 → Fin S300000x16.rank)
  bcast_S1_S1x1_1 : S1.BroadcastsInDim S1x1 (![1] : Fin 1 → Fin S1x1.rank)
  bcast_S1x1_S300000x16_0_1 : S1x1.BroadcastsInDim S300000x16 (![0, 1] : Fin 2 → Fin S300000x16.rank)
  concatenates_S300000x128_S300000x128_S300000x1_S300000x16_S300000x128_S300000x401_d1 : Shape.Concatenates [S300000x128, S300000x128, S300000x1, S300000x16, S300000x128] S300000x401 1
  bcast_S128_S1x128_1 : S128.BroadcastsInDim S1x128 (![1] : Fin 1 → Fin S1x128.rank)
  bcast_S1x128_S300000x128_0_1 : S1x128.BroadcastsInDim S300000x128 (![0, 1] : Fin 2 → Fin S300000x128.rank)
  bcast_S_S300000x128 : S_.BroadcastsInDim S300000x128 (![] : Fin 0 → Fin S300000x128.rank)
  concatenates_S300000x128_S300000x128_S300000x128_S300000x1_S300000x16_S300000x128_S300000x529_d1 : Shape.Concatenates [S300000x128, S300000x128, S300000x128, S300000x1, S300000x16, S300000x128] S300000x529 1
  gather_S50000x128_S300000x1_S300000x128_1_0_n_n_0_1_1128_wf : GatherDims.WF S50000x128 S300000x1 S300000x128 [1] [0] [] [0] [] 1 ![1, 128]
  gather_S50000x3_S300000x1_S300000x3_1_0_n_n_0_1_13_wf : GatherDims.WF S50000x3 S300000x1 S300000x3 [1] [0] [] [0] [] 1 ![1, 3]
  dot_S300000x401_S401x128_S300000x128_1_0_0_1_n_n_wf : DotDims.WF S300000x401 S401x128 S300000x128 [1] [0] [0] [1] [] []
  dot_S300000x128_S128x128_S300000x128_1_0_0_1_n_n_wf : DotDims.WF S300000x128 S128x128 S300000x128 [1] [0] [0] [1] [] []
  dot_S300000x529_S529x128_S300000x128_1_0_0_1_n_n_wf : DotDims.WF S300000x529 S529x128 S300000x128 [1] [0] [0] [1] [] []

variable [Facts₀]

def gather_S50000x128_S300000x1_S300000x128_1_0_n_n_0_1_1128 : GatherDims S50000x128 S300000x1 S300000x128 where
  offsetDims := [1]
  collapsedSliceDims := [0]
  operandBatchingDims := []
  startIndicesBatchingDims := []
  startIndexMap := [0]
  indexVectorDim := 1
  sliceSizes := ![1, 128]
  wf := gather_S50000x128_S300000x1_S300000x128_1_0_n_n_0_1_1128_wf
def gather_S50000x3_S300000x1_S300000x3_1_0_n_n_0_1_13 : GatherDims S50000x3 S300000x1 S300000x3 where
  offsetDims := [1]
  collapsedSliceDims := [0]
  operandBatchingDims := []
  startIndicesBatchingDims := []
  startIndexMap := [0]
  indexVectorDim := 1
  sliceSizes := ![1, 3]
  wf := gather_S50000x3_S300000x1_S300000x3_1_0_n_n_0_1_13_wf
def dot_S300000x401_S401x128_S300000x128_1_0_0_1_n_n : DotDims S300000x401 S401x128 S300000x128 where
  lhsContracting := [1]
  rhsContracting := [0]
  lhsNonContracting := [0]
  rhsNonContracting := [1]
  lhsBatch := []
  rhsBatch := []
  wf := dot_S300000x401_S401x128_S300000x128_1_0_0_1_n_n_wf
def dot_S300000x128_S128x128_S300000x128_1_0_0_1_n_n : DotDims S300000x128 S128x128 S300000x128 where
  lhsContracting := [1]
  rhsContracting := [0]
  lhsNonContracting := [0]
  rhsNonContracting := [1]
  lhsBatch := []
  rhsBatch := []
  wf := dot_S300000x128_S128x128_S300000x128_1_0_0_1_n_n_wf
def dot_S300000x529_S529x128_S300000x128_1_0_0_1_n_n : DotDims S300000x529 S529x128 S300000x128 where
  lhsContracting := [1]
  rhsContracting := [0]
  lhsNonContracting := [0]
  rhsNonContracting := [1]
  lhsBatch := []
  rhsBatch := []
  wf := dot_S300000x529_S529x128_S300000x128_1_0_0_1_n_n_wf

class Facts : Prop extends Facts₀ where

variable [Facts]
-- ==== Proof.RefStretches.lean ====
/-
  The reference program's host operations, in order, as eight stretches.

  The reference is a straight line of 99 array operations.  Its run is read off as a fold of the operations' results over
  the launch contents, and that fold is easier to reason about a stretch at a time: each stretch below is a literal list
  of consecutive operations (the text of the operations is the program's own), with the two facts the run needs of it —
  it touches TensorCore buffers only, and it allocates nothing.  `main_chain` says the program IS these stretches one
  after the other.
-/
import proofs.«415486_j17815524344038_2_alg».proof.Proof.Gen.ReferenceIdeal
import Idealize.ShloMosaic.Lib.StableHlo.Run
import Idealize.ShloMosaic.Lib.Pipeline.Regions

noncomputable section

namespace Cert.ReferenceIdeal.Stretches

open Cert.ReferenceIdeal Cert.ReferenceIdeal.Gen Idealize.ShloMosaic Idealize.ShloMosaic.TcCoe Idealize.SL.Sem Idealize.ShloMosaic.StableHlo

variable {F : FTy → Type} [FloatOps F]

/-- Stretch 0: the index rows, the four wrapped gathers, and the geometry up to the scaled sine (the first 60 operations). -/
abbrev ops0 : List (HloOp τ sig (Elt F)) :=
  [ unary main_arg3 main_v0 ((extractStridedSlice S1x300000 ![0, 0] · slices_S2x300000_S1x300000_0_0) : (⟨S2x300000, .i32⟩ : BufTy).Contents (Elt F) → (⟨S1x300000, .i32⟩ : BufTy).Contents (Elt F)),
    reshape main_v0 main_v1 rfl shapeCasts_S1x300000_S300000,
    unary main_arg3 main_v2 ((extractStridedSlice S1x300000 ![1, 0] · slices_S2x300000_S1x300000_1_0) : (⟨S2x300000, .i32⟩ : BufTy).Contents (Elt F) → (⟨S1x300000, .i32⟩ : BufTy).Contents (Elt F)),
    reshape main_v2 main_v3 rfl shapeCasts_S1x300000_S300000,
    nullary main_c (constantI S_ 32 0#32),
    unary main_c main_v4 (broadcastInDim S300000 ![] bcast_S_S300000 : (⟨S_, .i32⟩ : BufTy).Contents (Elt F) → (⟨S300000, .i32⟩ : BufTy).Contents (Elt F)),
    binary main_v1 main_v4 main_v5 (cmpi .slt : (⟨S300000, .i32⟩ : BufTy).Contents (Elt F) → (⟨S300000, .i32⟩ : BufTy).Contents (Elt F) → (⟨S300000, .i1⟩ : BufTy).Contents (Elt F)),
    nullary main_c_0 (constantI S_ 32 50000#32),
    unary main_c_0 main_v6 (broadcastInDim S300000 ![] bcast_S_S300000 : (⟨S_, .i32⟩ : BufTy).Contents (Elt F) → (⟨S300000, .i32⟩ : BufTy).Contents (Elt F)),
    binary main_v1 main_v6 main_v7 (addi : (⟨S300000, .i32⟩ : BufTy).Contents (Elt F) → (⟨S300000, .i32⟩ : BufTy).Contents (Elt F) → (⟨S300000, .i32⟩ : BufTy).Contents (Elt F)),
    ternary main_v5 main_v7 main_v1 main_v8 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    unary main_v8 main_v9 (broadcastInDim S300000x1 ![0] bcast_S300000_S300000x1_0 : (⟨S300000, .i32⟩ : BufTy).Contents (Elt F) → (⟨S300000x1, .i32⟩ : BufTy).Contents (Elt F)),
    binary main_arg0 main_v9 main_v10 ((fun x i => Host.gather gather_S50000x128_S300000x1_S300000x128_1_0_n_n_0_1_1128 x i) : (⟨S50000x128, .f32⟩ : BufTy).Contents (Elt F) → (⟨S300000x1, .i32⟩ : BufTy).Contents (Elt F) → (⟨S300000x128, .f32⟩ : BufTy).Contents (Elt F)),
    nullary main_c_1 (constantI S_ 32 0#32),
    unary main_c_1 main_v11 (broadcastInDim S300000 ![] bcast_S_S300000 : (⟨S_, .i32⟩ : BufTy).Contents (Elt F) → (⟨S300000, .i32⟩ : BufTy).Contents (Elt F)),
    binary main_v3 main_v11 main_v12 (cmpi .slt : (⟨S300000, .i32⟩ : BufTy).Contents (Elt F) → (⟨S300000, .i32⟩ : BufTy).Contents (Elt F) → (⟨S300000, .i1⟩ : BufTy).Contents (Elt F)),
    nullary main_c_2 (constantI S_ 32 50000#32),
    unary main_c_2 main_v13 (broadcastInDim S300000 ![] bcast_S_S300000 : (⟨S_, .i32⟩ : BufTy).Contents (Elt F) → (⟨S300000, .i32⟩ : BufTy).Contents (Elt F)),
    binary main_v3 main_v13 main_v14 (addi : (⟨S300000, .i32⟩ : BufTy).Contents (Elt F) → (⟨S300000, .i32⟩ : BufTy).Contents (Elt F) → (⟨S300000, .i32⟩ : BufTy).Contents (Elt F)),
    ternary main_v12 main_v14 main_v3 main_v15 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    unary main_v15 main_v16 (broadcastInDim S300000x1 ![0] bcast_S300000_S300000x1_0 : (⟨S300000, .i32⟩ : BufTy).Contents (Elt F) → (⟨S300000x1, .i32⟩ : BufTy).Contents (Elt F)),
    binary main_arg0 main_v16 main_v17 ((fun x i => Host.gather gather_S50000x128_S300000x1_S300000x128_1_0_n_n_0_1_1128 x i) : (⟨S50000x128, .f32⟩ : BufTy).Contents (Elt F) → (⟨S300000x1, .i32⟩ : BufTy).Contents (Elt F) → (⟨S300000x128, .f32⟩ : BufTy).Contents (Elt F)),
    nullary main_c_3 (constantI S_ 32 0#32),
    unary main_c_3 main_v18 (broadcastInDim S300000 ![] bcast_S_S300000 : (⟨S_, .i32⟩ : BufTy).Contents (Elt F) → (⟨S300000, .i32⟩ : BufTy).Contents (Elt F)),
    binary main_v1 main_v18 main_v19 (cmpi .slt : (⟨S300000, .i32⟩ : BufTy).Contents (Elt F) → (⟨S300000, .i32⟩ : BufTy).Contents (Elt F) → (⟨S300000, .i1⟩ : BufTy).Contents (Elt F)),
    nullary main_c_4 (constantI S_ 32 50000#32),
    unary main_c_4 main_v20 (broadcastInDim S300000 ![] bcast_S_S300000 : (⟨S_, .i32⟩ : BufTy).Contents (Elt F) → (⟨S300000, .i32⟩ : BufTy).Contents (Elt F)),
    binary main_v1 main_v20 main_v21 (addi : (⟨S300000, .i32⟩ : BufTy).Contents (Elt F) → (⟨S300000, .i32⟩ : BufTy).Contents (Elt F) → (⟨S300000, .i32⟩ : BufTy).Contents (Elt F)),
    ternary main_v19 main_v21 main_v1 main_v22 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    unary main_v22 main_v23 (broadcastInDim S300000x1 ![0] bcast_S300000_S300000x1_0 : (⟨S300000, .i32⟩ : BufTy).Contents (Elt F) → (⟨S300000x1, .i32⟩ : BufTy).Contents (Elt F)),
    binary main_arg1 main_v23 main_v24 ((fun x i => Host.gather gather_S50000x3_S300000x1_S300000x3_1_0_n_n_0_1_13 x i) : (⟨S50000x3, .f32⟩ : BufTy).Contents (Elt F) → (⟨S300000x1, .i32⟩ : BufTy).Contents (Elt F) → (⟨S300000x3, .f32⟩ : BufTy).Contents (Elt F)),
    nullary main_c_5 (constantI S_ 32 0#32),
    unary main_c_5 main_v25 (broadcastInDim S300000 ![] bcast_S_S300000 : (⟨S_, .i32⟩ : BufTy).Contents (Elt F) → (⟨S300000, .i32⟩ : BufTy).Contents (Elt F)),
    binary main_v3 main_v25 main_v26 (cmpi .slt : (⟨S300000, .i32⟩ : BufTy).Contents (Elt F) → (⟨S300000, .i32⟩ : BufTy).Contents (Elt F) → (⟨S300000, .i1⟩ : BufTy).Contents (Elt F)),
    nullary main_c_6 (constantI S_ 32 50000#32),
    unary main_c_6 main_v27 (broadcastInDim S300000 ![] bcast_S_S300000 : (⟨S_, .i32⟩ : BufTy).Contents (Elt F) → (⟨S300000, .i32⟩ : BufTy).Contents (Elt F)),
    binary main_v3 main_v27 main_v28 (addi : (⟨S300000, .i32⟩ : BufTy).Contents (Elt F) → (⟨S300000, .i32⟩ : BufTy).Contents (Elt F) → (⟨S300000, .i32⟩ : BufTy).Contents (Elt F)),
    ternary main_v26 main_v28 main_v3 main_v29 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    unary main_v29 main_v30 (broadcastInDim S300000x1 ![0] bcast_S300000_S300000x1_0 : (⟨S300000, .i32⟩ : BufTy).Contents (Elt F) → (⟨S300000x1, .i32⟩ : BufTy).Contents (Elt F)),
    binary main_arg1 main_v30 main_v31 ((fun x i => Host.gather gather_S50000x3_S300000x1_S300000x3_1_0_n_n_0_1_13 x i) : (⟨S50000x3, .f32⟩ : BufTy).Contents (Elt F) → (⟨S300000x1, .i32⟩ : BufTy).Contents (Elt F) → (⟨S300000x3, .f32⟩ : BufTy).Contents (Elt F)),
    binary main_v24 main_v31 main_v32 (subf : (⟨S300000x3, .f32⟩ : BufTy).Contents (Elt F) → (⟨S300000x3, .f32⟩ : BufTy).Contents (Elt F) → (⟨S300000x3, .f32⟩ : BufTy).Contents (Elt F)),
    binary main_v32 main_v32 main_v33 (mulf : (⟨S300000x3, .f32⟩ : BufTy).Contents (Elt F) → (⟨S300000x3, .f32⟩ : BufTy).Contents (Elt F) → (⟨S300000x3, .f32⟩ : BufTy).Contents (Elt F)),
    nullary main_cst (constant S_ .f32 0x00000000#32),
    binary main_v33 main_cst main_v34 ((fun x v => Host.reduceAdd x v reducesTo_S300000x3_S300000_d1 h_S_) : (⟨S300000x3, .f32⟩ : BufTy).Contents (Elt F) → (⟨S_, .f32⟩ : BufTy).Contents (Elt F) → (⟨S300000, .f32⟩ : BufTy).Contents (Elt F)),
    unary main_v34 main_v35 (broadcastInDim S300000x1 ![0] bcast_S300000_S300000x1_0 : (⟨S300000, .f32⟩ : BufTy).Contents (Elt F) → (⟨S300000x1, .f32⟩ : BufTy).Contents (Elt F)),
    unary main_v35 main_v36 (Host.sqrt : (⟨S300000x1, .f32⟩ : BufTy).Contents (Elt F) → (⟨S300000x1, .f32⟩ : BufTy).Contents (Elt F)),
    nullary main_cst_7 (constant S_ .f32 0x40000000#32),
    unary main_cst_7 main_v37 (broadcastInDim S1 ![] bcast_S_S1 : (⟨S_, .f32⟩ : BufTy).Contents (Elt F) → (⟨S1, .f32⟩ : BufTy).Contents (Elt F)),
    binary main_v37 main_arg4 main_v38 (Host.divf : (⟨S1, .f32⟩ : BufTy).Contents (Elt F) → (⟨S1, .f32⟩ : BufTy).Contents (Elt F) → (⟨S1, .f32⟩ : BufTy).Contents (Elt F)),
    unary main_v38 main_v39 (Host.sqrt : (⟨S1, .f32⟩ : BufTy).Contents (Elt F) → (⟨S1, .f32⟩ : BufTy).Contents (Elt F)),
    unary main_arg5 main_v40 (broadcastInDim S1x16 ![1] bcast_S16_S1x16_1 : (⟨S16, .f32⟩ : BufTy).Contents (Elt F) → (⟨S1x16, .f32⟩ : BufTy).Contents (Elt F)),
    unary main_v40 main_v41 (broadcastInDim S300000x16 ![0, 1] bcast_S1x16_S300000x16_0_1 : (⟨S1x16, .f32⟩ : BufTy).Contents (Elt F) → (⟨S300000x16, .f32⟩ : BufTy).Contents (Elt F)),
    unary main_v36 main_v42 (broadcastInDim S300000x16 ![0, 1] bcast_S300000x1_S300000x16_0_1 : (⟨S300000x1, .f32⟩ : BufTy).Contents (Elt F) → (⟨S300000x16, .f32⟩ : BufTy).Contents (Elt F)),
    binary main_v41 main_v42 main_v43 (mulf : (⟨S300000x16, .f32⟩ : BufTy).Contents (Elt F) → (⟨S300000x16, .f32⟩ : BufTy).Contents (Elt F) → (⟨S300000x16, .f32⟩ : BufTy).Contents (Elt F)),
    unary main_arg4 main_v44 (broadcastInDim S1x1 ![1] bcast_S1_S1x1_1 : (⟨S1, .f32⟩ : BufTy).Contents (Elt F) → (⟨S1x1, .f32⟩ : BufTy).Contents (Elt F)),
    unary main_v44 main_v45 (broadcastInDim S300000x16 ![0, 1] bcast_S1x1_S300000x16_0_1 : (⟨S1x1, .f32⟩ : BufTy).Contents (Elt F) → (⟨S300000x16, .f32⟩ : BufTy).Contents (Elt F)),
    binary main_v43 main_v45 main_v46 (Host.divf : (⟨S300000x16, .f32⟩ : BufTy).Contents (Elt F) → (⟨S300000x16, .f32⟩ : BufTy).Contents (Elt F) → (⟨S300000x16, .f32⟩ : BufTy).Contents (Elt F)),
    unary main_v46 main_v47 (Host.sin : (⟨S300000x16, .f32⟩ : BufTy).Contents (Elt F) → (⟨S300000x16, .f32⟩ : BufTy).Contents (Elt F)),
    unary main_v39 main_v48 (broadcastInDim S1x1 ![1] bcast_S1_S1x1_1 : (⟨S1, .f32⟩ : BufTy).Contents (Elt F) → (⟨S1x1, .f32⟩ : BufTy).Contents (Elt F)),
    unary main_v48 main_v49 (broadcastInDim S300000x16 ![0, 1] bcast_S1x1_S300000x16_0_1 : (⟨S1x1, .f32⟩ : BufTy).Contents (Elt F) → (⟨S300000x16, .f32⟩ : BufTy).Contents (Elt F)) ]
theorem ops0_sub : (ops0 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., binary_bufs_sub .., unary_bufs_sub .., unary_bufs_sub .., nullary_bufs_sub .., unary_bufs_sub .., binary_bufs_sub .., unary_bufs_sub .., unary_bufs_sub .., unary_bufs_sub .., unary_bufs_sub .., binary_bufs_sub .., unary_bufs_sub .., unary_bufs_sub .., binary_bufs_sub .., unary_bufs_sub .., unary_bufs_sub .., unary_bufs_sub ..⟩
theorem ops0_fresh : (ops0 : List (HloOp τ sig (Elt F))).Forall fun op => op.fresh = ∅ := by
  simp only [List.Forall]; repeat' constructor

/-- Stretch 1: the radial values: the product with √(2/c), the divisor broadcast, the quotient. -/
abbrev ops1 : List (HloOp τ sig (Elt F)) :=
  [ binary main_v49 main_v47 main_v50 (mulf : (⟨S300000x16, .f32⟩ : BufTy).Contents (Elt F) → (⟨S300000x16, .f32⟩ : BufTy).Contents (Elt F) → (⟨S300000x16, .f32⟩ : BufTy).Contents (Elt F)),
    unary main_v36 main_v51 (broadcastInDim S300000x16 ![0, 1] bcast_S300000x1_S300000x16_0_1 : (⟨S300000x1, .f32⟩ : BufTy).Contents (Elt F) → (⟨S300000x16, .f32⟩ : BufTy).Contents (Elt F)),
    binary main_v50 main_v51 main_v52 (Host.divf : (⟨S300000x16, .f32⟩ : BufTy).Contents (Elt F) → (⟨S300000x16, .f32⟩ : BufTy).Contents (Elt F) → (⟨S300000x16, .f32⟩ : BufTy).Contents (Elt F)) ]
theorem ops1_sub : (ops1 : List (HloOp τ sig (Elt F))).Forall fun op => op.bufs ⊆ tcRefs τ sig :=
  ⟨binary_bufs_sub .., unary_bufs_sub .., binary_bufs_sub ..⟩
theorem ops1_fresh : (ops1 : List (HloOp τ sig (Elt F))).Forall fun op => op.fresh = ∅ := by
  simp only [List.Forall]; repeat' constructor

/-- Stretch 2: the 401 features laid side by side, the first dense layer and its bias. -/
abbrev ops2 : List (HloOp τ sig (Elt F)) :=
  [ nary ![main_v10, main_v17, main_v36, main_v52, main_arg2] main_v53 (fun u => concatenate S300000x401 1 [⟨S300000x128, u 0⟩, ⟨S300000x128, u 1⟩, ⟨S300000x1, u 2⟩, ⟨S300000x16, u 3⟩, ⟨S300000x128, u 4⟩] concatenates_S300000x128_S300000x128_S300000x1_S300000x16_S300000x128_S300000x401_d1),
    binary main_v53 main_arg6 main_v54 ((fun l r => Host.dotGeneral dot_S300000x401_S401x128_S300000x128_1_0_0_1_n_n none l r) : (⟨S300000x401, .f32⟩ : BufTy).Contents (Elt F) → (⟨S401x128, .f32⟩ : BufTy).Contents (Elt F) → (⟨S300000x128, .f32⟩ : BufTy).Contents (Elt F)),
    unary main_arg7 main_v55 (broadcastInDim S1x128 ![1] bcast_S128_S1x128_1 : (⟨S128, .f32⟩ : BufTy).Contents (Elt F) → (⟨S1x128, .f32⟩ : BufTy).Contents (Elt F)),
    unary main_v55 main_v56 (broadcastInDim S300000x128 ![0, 1] bcast_S1x128_S300000x128_0_1 : (⟨S1x128, .f32⟩ : BufTy).Contents (Elt F) → (⟨S300000x128, .f32⟩ : BufTy).Contents (Elt F)),
    binary main_v54 main_v56 main_v57 (addf : (⟨S300000x128, .f32⟩ : BufTy).Contents (Elt F) → (⟨S300000x128, .f32⟩ : BufTy).Contents (Elt F) → (⟨S300000x128, .f32⟩ : BufTy).Contents (Elt F)) ]
theorem ops2_sub : (ops2 : List (HloOp τ sig (Elt F))).Forall fun op => op.bufs ⊆ tcRefs τ sig :=
  ⟨nary_bufs_sub .., binary_bufs_sub .., unary_bufs_sub .., unary_bufs_sub .., binary_bufs_sub ..⟩
theorem ops2_fresh : (ops2 : List (HloOp τ sig (Elt F))).Forall fun op => op.fresh = ∅ := by
  simp only [List.Forall]; repeat' constructor

/-- Stretch 3: silu of the first hidden layer (negate, exponential, 1 +, 1 /, times). -/
abbrev ops3 : List (HloOp τ sig (Elt F)) :=
  [ TRef.unary (TRef.of (T := ⟨S300000x128, .f32⟩) main_v57) (TRef.of (T := ⟨S300000x128, .f32⟩) main_call0_v0) Host.negf,
    TRef.unary (TRef.of (T := ⟨S300000x128, .f32⟩) main_call0_v0) (TRef.of (T := ⟨S300000x128, .f32⟩) main_call0_v1) Host.exp,
    TRef.nullary (TRef.of (T := ⟨S_, .f32⟩) main_call0_cst) (constant S_ .f32 0x3F800000#32),
    TRef.unary (TRef.of (T := ⟨S_, .f32⟩) main_call0_cst) (TRef.of (T := ⟨S300000x128, .f32⟩) main_call0_v2) (broadcastInDim S300000x128 ![] bcast_S_S300000x128),
    TRef.binary (TRef.of (T := ⟨S300000x128, .f32⟩) main_call0_v2) (TRef.of (T := ⟨S300000x128, .f32⟩) main_call0_v1) (TRef.of (T := ⟨S300000x128, .f32⟩) main_call0_v3) addf,
    TRef.nullary (TRef.of (T := ⟨S_, .f32⟩) main_call0_cst_0) (constant S_ .f32 0x3F800000#32),
    TRef.unary (TRef.of (T := ⟨S_, .f32⟩) main_call0_cst_0) (TRef.of (T := ⟨S300000x128, .f32⟩) main_call0_v4) (broadcastInDim S300000x128 ![] bcast_S_S300000x128),
    TRef.binary (TRef.of (T := ⟨S300000x128, .f32⟩) main_call0_v4) (TRef.of (T := ⟨S300000x128, .f32⟩) main_call0_v3) (TRef.of (T := ⟨S300000x128, .f32⟩) main_call0_v5) Host.divf,
    TRef.binary (TRef.of (T := ⟨S300000x128, .f32⟩) main_v57) (TRef.of (T := ⟨S300000x128, .f32⟩) main_call0_v5) (TRef.of (T := ⟨S300000x128, .f32⟩) main_v58) mulf ]
theorem ops3_sub : (ops3 : List (HloOp τ sig (Elt F))).Forall fun op => op.bufs ⊆ tcRefs τ sig :=
  ⟨unary_bufs_sub .., unary_bufs_sub .., nullary_bufs_sub .., unary_bufs_sub .., binary_bufs_sub .., nullary_bufs_sub .., unary_bufs_sub .., binary_bufs_sub .., binary_bufs_sub ..⟩
theorem ops3_fresh : (ops3 : List (HloOp τ sig (Elt F))).Forall fun op => op.fresh = ∅ := by
  simp only [List.Forall]; repeat' constructor

/-- Stretch 4: the second dense layer and its bias: the first result. -/
abbrev ops4 : List (HloOp τ sig (Elt F)) :=
  [ binary main_v58 main_arg8 main_v59 ((fun l r => Host.dotGeneral dot_S300000x128_S128x128_S300000x128_1_0_0_1_n_n none l r) : (⟨S300000x128, .f32⟩ : BufTy).Contents (Elt F) → (⟨S128x128, .f32⟩ : BufTy).Contents (Elt F) → (⟨S300000x128, .f32⟩ : BufTy).Contents (Elt F)),
    unary main_arg9 main_v60 (broadcastInDim S1x128 ![1] bcast_S128_S1x128_1 : (⟨S128, .f32⟩ : BufTy).Contents (Elt F) → (⟨S1x128, .f32⟩ : BufTy).Contents (Elt F)),
    unary main_v60 main_v61 (broadcastInDim S300000x128 ![0, 1] bcast_S1x128_S300000x128_0_1 : (⟨S1x128, .f32⟩ : BufTy).Contents (Elt F) → (⟨S300000x128, .f32⟩ : BufTy).Contents (Elt F)),
    binary main_v59 main_v61 main_v62 (addf : (⟨S300000x128, .f32⟩ : BufTy).Contents (Elt F) → (⟨S300000x128, .f32⟩ : BufTy).Contents (Elt F) → (⟨S300000x128, .f32⟩ : BufTy).Contents (Elt F)) ]
theorem ops4_sub : (ops4 : List (HloOp τ sig (Elt F))).Forall fun op => op.bufs ⊆ tcRefs τ sig :=
  ⟨binary_bufs_sub .., unary_bufs_sub .., unary_bufs_sub .., binary_bufs_sub ..⟩
theorem ops4_fresh : (ops4 : List (HloOp τ sig (Elt F))).Forall fun op => op.fresh = ∅ := by
  simp only [List.Forall]; repeat' constructor

/-- Stretch 5: the 529 features laid side by side, the first dense layer of the second network and its bias. -/
abbrev ops5 : List (HloOp τ sig (Elt F)) :=
  [ nary ![main_v10, main_v17, main_v62, main_v36, main_v52, main_arg2] main_v63 (fun u => concatenate S300000x529 1 [⟨S300000x128, u 0⟩, ⟨S300000x128, u 1⟩, ⟨S300000x128, u 2⟩, ⟨S300000x1, u 3⟩, ⟨S300000x16, u 4⟩, ⟨S300000x128, u 5⟩] concatenates_S300000x128_S300000x128_S300000x128_S300000x1_S300000x16_S300000x128_S300000x529_d1),
    binary main_v63 main_arg10 main_v64 ((fun l r => Host.dotGeneral dot_S300000x529_S529x128_S300000x128_1_0_0_1_n_n none l r) : (⟨S300000x529, .f32⟩ : BufTy).Contents (Elt F) → (⟨S529x128, .f32⟩ : BufTy).Contents (Elt F) → (⟨S300000x128, .f32⟩ : BufTy).Contents (Elt F)),
    unary main_arg11 main_v65 (broadcastInDim S1x128 ![1] bcast_S128_S1x128_1 : (⟨S128, .f32⟩ : BufTy).Contents (Elt F) → (⟨S1x128, .f32⟩ : BufTy).Contents (Elt F)),
    unary main_v65 main_v66 (broadcastInDim S300000x128 ![0, 1] bcast_S1x128_S300000x128_0_1 : (⟨S1x128, .f32⟩ : BufTy).Contents (Elt F) → (⟨S300000x128, .f32⟩ : BufTy).Contents (Elt F)),
    binary main_v64 main_v66 main_v67 (addf : (⟨S300000x128, .f32⟩ : BufTy).Contents (Elt F) → (⟨S300000x128, .f32⟩ : BufTy).Contents (Elt F) → (⟨S300000x128, .f32⟩ : BufTy).Contents (Elt F)) ]
theorem ops5_sub : (ops5 : List (HloOp τ sig (Elt F))).Forall fun op => op.bufs ⊆ tcRefs τ sig :=
  ⟨nary_bufs_sub .., binary_bufs_sub .., unary_bufs_sub .., unary_bufs_sub .., binary_bufs_sub ..⟩
theorem ops5_fresh : (ops5 : List (HloOp τ sig (Elt F))).Forall fun op => op.fresh = ∅ := by
  simp only [List.Forall]; repeat' constructor

/-- Stretch 6: silu of the second hidden layer. -/
abbrev ops6 : List (HloOp τ sig (Elt F)) :=
  [ TRef.unary (TRef.of (T := ⟨S300000x128, .f32⟩) main_v67) (TRef.of (T := ⟨S300000x128, .f32⟩) main_call1_v0) Host.negf,
    TRef.unary (TRef.of (T := ⟨S300000x128, .f32⟩) main_call1_v0) (TRef.of (T := ⟨S300000x128, .f32⟩) main_call1_v1) Host.exp,
    TRef.nullary (TRef.of (T := ⟨S_, .f32⟩) main_call1_cst) (constant S_ .f32 0x3F800000#32),
    TRef.unary (TRef.of (T := ⟨S_, .f32⟩) main_call1_cst) (TRef.of (T := ⟨S300000x128, .f32⟩) main_call1_v2) (broadcastInDim S300000x128 ![] bcast_S_S300000x128),
    TRef.binary (TRef.of (T := ⟨S300000x128, .f32⟩) main_call1_v2) (TRef.of (T := ⟨S300000x128, .f32⟩) main_call1_v1) (TRef.of (T := ⟨S300000x128, .f32⟩) main_call1_v3) addf,
    TRef.nullary (TRef.of (T := ⟨S_, .f32⟩) main_call1_cst_0) (constant S_ .f32 0x3F800000#32),
    TRef.unary (TRef.of (T := ⟨S_, .f32⟩) main_call1_cst_0) (TRef.of (T := ⟨S300000x128, .f32⟩) main_call1_v4) (broadcastInDim S300000x128 ![] bcast_S_S300000x128),
    TRef.binary (TRef.of (T := ⟨S300000x128, .f32⟩) main_call1_v4) (TRef.of (T := ⟨S300000x128, .f32⟩) main_call1_v3) (TRef.of (T := ⟨S300000x128, .f32⟩) main_call1_v5) Host.divf,
    TRef.binary (TRef.of (T := ⟨S300000x128, .f32⟩) main_v67) (TRef.of (T := ⟨S300000x128, .f32⟩) main_call1_v5) (TRef.of (T := ⟨S300000x128, .f32⟩) main_v68) mulf ]
theorem ops6_sub : (ops6 : List (HloOp τ sig (Elt F))).Forall fun op => op.bufs ⊆ tcRefs τ sig :=
  ⟨unary_bufs_sub .., unary_bufs_sub .., nullary_bufs_sub .., unary_bufs_sub .., binary_bufs_sub .., nullary_bufs_sub .., unary_bufs_sub .., binary_bufs_sub .., binary_bufs_sub ..⟩
theorem ops6_fresh : (ops6 : List (HloOp τ sig (Elt F))).Forall fun op => op.fresh = ∅ := by
  simp only [List.Forall]; repeat' constructor

/-- Stretch 7: the last dense layer and its bias: the second result. -/
abbrev ops7 : List (HloOp τ sig (Elt F)) :=
  [ binary main_v68 main_arg12 main_v69 ((fun l r => Host.dotGeneral dot_S300000x128_S128x128_S300000x128_1_0_0_1_n_n none l r) : (⟨S300000x128, .f32⟩ : BufTy).Contents (Elt F) → (⟨S128x128, .f32⟩ : BufTy).Contents (Elt F) → (⟨S300000x128, .f32⟩ : BufTy).Contents (Elt F)),
    unary main_arg13 main_v70 (broadcastInDim S1x128 ![1] bcast_S128_S1x128_1 : (⟨S128, .f32⟩ : BufTy).Contents (Elt F) → (⟨S1x128, .f32⟩ : BufTy).Contents (Elt F)),
    unary main_v70 main_v71 (broadcastInDim S300000x128 ![0, 1] bcast_S1x128_S300000x128_0_1 : (⟨S1x128, .f32⟩ : BufTy).Contents (Elt F) → (⟨S300000x128, .f32⟩ : BufTy).Contents (Elt F)),
    binary main_v69 main_v71 main_v72 (addf : (⟨S300000x128, .f32⟩ : BufTy).Contents (Elt F) → (⟨S300000x128, .f32⟩ : BufTy).Contents (Elt F) → (⟨S300000x128, .f32⟩ : BufTy).Contents (Elt F)) ]
theorem ops7_sub : (ops7 : List (HloOp τ sig (Elt F))).Forall fun op => op.bufs ⊆ tcRefs τ sig :=
  ⟨binary_bufs_sub .., unary_bufs_sub .., unary_bufs_sub .., binary_bufs_sub ..⟩
theorem ops7_fresh : (ops7 : List (HloOp τ sig (Elt F))).Forall fun op => op.fresh = ∅ := by
  simp only [List.Forall]; repeat' constructor

/-- The stretches, in order. -/
abbrev stretches : List (List (HloOp τ sig (Elt F))) := [ops0, ops1, ops2, ops3, ops4, ops5, ops6, ops7]

/-- The reference's @main is its stretches run one after the other. -/
theorem main_chain (c : Dev nD) : main (F := F) c = (Pipeline.chain
  [ seq ops0, seq ops1, seq ops2, seq ops3, seq ops4, seq ops5, seq ops6, seq ops7 ]
    : Prog (TpuEff nD τ sig (Elt F) (Pipeline.Sig Λ₀ (Fin 0) fun p => (pcfgs (F := F) p).Adm) .tc) PUnit) := by
  chain_rfl

end Cert.ReferenceIdeal.Stretches

end
-- ==== Proof.RefRun.lean ====
/-
  The reference program's run, read back.

  The reference is a straight line of 99 array operations (`RefStretches`: eight stretches).  Every weakly fair execution
  of such a line terminates with each buffer at the fold of the operations' results over the launch contents (the
  library's `run_seq`).  The fold is read in three groups of stretches, cut just before each of the two places where
  arrays are laid side by side:
    · the first group (index rows, gathers, geometry) leaves the four gathered and computed arrays at their stages
      `val_main_v10`, `val_main_v17`, `val_main_v36`, `val_main_v52` of the arguments, and writes no argument;
    · the second group turns whatever those four buffers, the edge features and the first network's weights hold into
      the first result (`mid62`: side by side, dense, silu, dense), and leaves the others alone;
    · the third group does the same with the first result among the features (`tail72`).
  Composed, the two results are the stage functions `val_main_v62`, `val_main_v72` of `RefRead` — those are, one
  definition per operation, the same compositions —, and an argument buffer, which no operation writes, is unchanged.
-/
import proofs.«415486_j17815524344038_2_alg».proof.Proof.RefStretches
import proofs.«415486_j17815524344038_2_alg».proof.Proof.RefRead
import Idealize.ShloMosaic.Lib.StableHlo.Run
import Idealize.ShloMosaic.Lib.Pipeline.Frame
import Idealize.ShloMosaic.Lib.Pipeline.Regions

set_option maxRecDepth 16384

noncomputable section

namespace Cert.ReferenceIdeal.ValueP

open Cert.ReferenceIdeal Cert.ReferenceIdeal.Gen Cert.ReferenceIdeal.Stretches Cert.ReferenceIdeal.ReadP
open Idealize.ShloMosaic Idealize.ShloMosaic.TcCoe Idealize.SL.Sem Idealize.ShloMosaic.StableHlo

variable {F : FTy → Type} [FloatOps F]

/-! ## The program as one line -/

/-- Lines run one after the other are their concatenation run as one line. -/
theorem chain_map_seq {Λ : Labels} : ∀ Is : List (List (HloOp τ sig (Elt F))),
    Pipeline.chain (Is.map fun l => (seq l : Prog (TpuEff nD τ sig (Elt F) Λ .tc) PUnit)) = seq Is.flatten
  | [] => rfl
  | l :: Is => by
    rw [List.map_cons, Pipeline.chain_cons, List.flatten_cons, seq_append, chain_map_seq Is]

/-- The reference's 99 operations, in order. -/
abbrev ops : List (HloOp τ sig (Elt F)) := (stretches (F := F)).flatten

theorem main_eq (c : Dev nD) : main (F := F) c = seq ops :=
  (main_chain c).trans (chain_map_seq stretches)

theorem scopedRefs_eq : (Finset.univ.filter fun b : Ref sig .tc => b.isScoped) = ∅ := by decide
theorem scopedSems_eq : (Finset.univ.filter fun sm : SemLoc sig => sm.isScoped .tc) = ∅ := by decide

/-- A property of every operation of every stretch is a property of every operation. -/
theorem forall_ops {p : HloOp τ sig (Elt F) → Prop}
    (h0 : (ops0 (F := F)).Forall p) (h1 : (ops1 (F := F)).Forall p) (h2 : (ops2 (F := F)).Forall p) (h3 : (ops3 (F := F)).Forall p)
    (h4 : (ops4 (F := F)).Forall p) (h5 : (ops5 (F := F)).Forall p) (h6 : (ops6 (F := F)).Forall p) (h7 : (ops7 (F := F)).Forall p) :
    ∀ op ∈ (ops (F := F)), p op := by
  intro op h
  obtain ⟨l, hl, hop⟩ := List.mem_flatten.1 h
  simp only [stretches, List.mem_cons, List.not_mem_nil, or_false] at hl
  rcases hl with rfl | rfl | rfl | rfl | rfl | rfl | rfl | rfl
  · exact List.forall_iff_forall_mem.1 h0 op hop
  · exact List.forall_iff_forall_mem.1 h1 op hop
  · exact List.forall_iff_forall_mem.1 h2 op hop
  · exact List.forall_iff_forall_mem.1 h3 op hop
  · exact List.forall_iff_forall_mem.1 h4 op hop
  · exact List.forall_iff_forall_mem.1 h5 op hop
  · exact List.forall_iff_forall_mem.1 h6 op hop
  · exact List.forall_iff_forall_mem.1 h7 op hop

theorem ops_sub : (ops : List (HloOp τ sig (Elt F))).Forall fun op => op.bufs ⊆ tcRefs τ sig :=
  List.forall_iff_forall_mem.2 (forall_ops ops0_sub ops1_sub ops2_sub ops3_sub ops4_sub ops5_sub ops6_sub ops7_sub)

theorem ops_fresh : ∀ op ∈ (ops : List (HloOp τ sig (Elt F))), op.fresh = ∅ :=
  forall_ops ops0_fresh ops1_fresh ops2_fresh ops3_fresh ops4_fresh ops5_fresh ops6_fresh ops7_fresh

/-- The fold over all 99 operations is the fold over the three groups, one after the other. -/
theorem after_ops (W : Valuation τ sig (Elt F)) :
    after ops W = after (ops5 ++ (ops6 ++ ops7)) (after (ops2 ++ (ops3 ++ ops4)) (after (ops0 ++ ops1) W)) := by
  simp only [ops, stretches, List.flatten_cons, List.flatten_nil, List.append_nil, StableHlo.after_append]

/-! ## What the second and third groups compute, as pure functions -/

/-- `x · (1 / (1 + e^(−x)))`, entry by entry, as the reference spells it. -/
def siluRows (x : FVec F S300000x128 .f32) : FVec F S300000x128 .f32 :=
  mulf x (Host.divf (broadcastInDim S300000x128 ![] bcast_S_S300000x128 (constant (F := F) S_ .f32 0x3F800000#32))
    (addf (broadcastInDim S300000x128 ![] bcast_S_S300000x128 (constant (F := F) S_ .f32 0x3F800000#32)) (Host.exp (Host.negf x))))

/-- A bias vector repeated on every row. -/
def biasRows (x : FVec F S128 .f32) : FVec F S300000x128 .f32 :=
  broadcastInDim S300000x128 ![0, 1] bcast_S1x128_S300000x128_0_1 (broadcastInDim S1x128 ![1] bcast_S128_S1x128_1 x)

/-- The second group: the five arrays side by side (401 columns), dense, silu, dense. -/
def mid62 (fi fj : FVec F S300000x128 .f32) (ar : FVec F S300000x1 .f32) (rb : FVec F S300000x16 .f32) (ef : FVec F S300000x128 .f32)
    (x6 : FVec F S401x128 .f32) (x7 : FVec F S128 .f32) (x8 : FVec F S128x128 .f32) (x9 : FVec F S128 .f32) : FVec F S300000x128 .f32 :=
  addf (Host.dotGeneral dot_S300000x128_S128x128_S300000x128_1_0_0_1_n_n none
    (siluRows (addf (Host.dotGeneral dot_S300000x401_S401x128_S300000x128_1_0_0_1_n_n none
      (concatenate S300000x401 1 [⟨S300000x128, fi⟩, ⟨S300000x128, fj⟩, ⟨S300000x1, ar⟩, ⟨S300000x16, rb⟩, ⟨S300000x128, ef⟩]
        concatenates_S300000x128_S300000x128_S300000x1_S300000x16_S300000x128_S300000x401_d1) x6) (biasRows x7))) x8) (biasRows x9)

/-- The third group: the six arrays side by side (529 columns), dense, silu, dense. -/
def tail72 (fi fj mji : FVec F S300000x128 .f32) (ar : FVec F S300000x1 .f32) (rb : FVec F S300000x16 .f32) (ef : FVec F S300000x128 .f32)
    (x10 : FVec F S529x128 .f32) (x11 : FVec F S128 .f32) (x12 : FVec F S128x128 .f32) (x13 : FVec F S128 .f32) : FVec F S300000x128 .f32 :=
  addf (Host.dotGeneral dot_S300000x128_S128x128_S300000x128_1_0_0_1_n_n none
    (siluRows (addf (Host.dotGeneral dot_S300000x529_S529x128_S300000x128_1_0_0_1_n_n none
      (concatenate S300000x529 1 [⟨S300000x128, fi⟩, ⟨S300000x128, fj⟩, ⟨S300000x128, mji⟩, ⟨S300000x1, ar⟩, ⟨S300000x16, rb⟩, ⟨S300000x128, ef⟩]
        concatenates_S300000x128_S300000x128_S300000x128_S300000x1_S300000x16_S300000x128_S300000x529_d1) x10) (biasRows x11))) x12) (biasRows x13)

/-- The stage of the first result is the second group's function of the stages before it. -/
theorem v62_mid (x0 : FVec F S50000x128 .f32) (x1 : FVec F S50000x3 .f32) (x2 : FVec F S300000x128 .f32) (x3 : IVec S2x300000 32)
    (x4 : FVec F S1 .f32) (x5 : FVec F S16 .f32) (x6 : FVec F S401x128 .f32) (x7 : FVec F S128 .f32) (x8 : FVec F S128x128 .f32) (x9 : FVec F S128 .f32) :
    val_main_v62 (F := F) x0 x1 x2 x3 x4 x5 x6 x7 x8 x9
      = mid62 (val_main_v10 (F := F) x0 x3) (val_main_v17 (F := F) x0 x3) (val_main_v36 (F := F) x1 x3) (val_main_v52 (F := F) x1 x3 x4 x5) x2 x6 x7 x8 x9 := rfl

/-- The stage of the second result is the third group's function of the stages before it. -/
theorem v72_tail (x0 : FVec F S50000x128 .f32) (x1 : FVec F S50000x3 .f32) (x2 : FVec F S300000x128 .f32) (x3 : IVec S2x300000 32)
    (x4 : FVec F S1 .f32) (x5 : FVec F S16 .f32) (x6 : FVec F S401x128 .f32) (x7 : FVec F S128 .f32) (x8 : FVec F S128x128 .f32) (x9 : FVec F S128 .f32)
    (x10 : FVec F S529x128 .f32) (x11 : FVec F S128 .f32) (x12 : FVec F S128x128 .f32) (x13 : FVec F S128 .f32) :
    val_main_v72 (F := F) x0 x1 x2 x3 x4 x5 x6 x7 x8 x9 x10 x11 x12 x13
      = tail72 (val_main_v10 (F := F) x0 x3) (val_main_v17 (F := F) x0 x3) (val_main_v62 (F := F) x0 x1 x2 x3 x4 x5 x6 x7 x8 x9)
          (val_main_v36 (F := F) x1 x3) (val_main_v52 (F := F) x1 x3 x4 x5) x2 x10 x11 x12 x13 := rfl

/-! ## The first group: gathers and geometry -/

set_option maxHeartbeats 4000000 in
theorem a10 (W : Valuation τ sig (Elt F)) : after (ops0 ++ ops1) W (Proc.devRef .tc main_v10) = val_main_v10 (F := F) (W (Proc.devRef .tc main_arg0)) (W (Proc.devRef .tc main_arg3)) := by
  simp only [ops0, ops1, List.cons_append, List.nil_append]
  after_results_simp
  try simp only [TRef.ofBuf, TRef.toBuf, cast_eq]
  all_goals rfl
set_option maxHeartbeats 4000000 in
theorem a17 (W : Valuation τ sig (Elt F)) : after (ops0 ++ ops1) W (Proc.devRef .tc main_v17) = val_main_v17 (F := F) (W (Proc.devRef .tc main_arg0)) (W (Proc.devRef .tc main_arg3)) := by
  simp only [ops0, ops1, List.cons_append, List.nil_append]
  after_results_simp
  try simp only [TRef.ofBuf, TRef.toBuf, cast_eq]
  all_goals rfl
set_option maxHeartbeats 4000000 in
theorem a36 (W : Valuation τ sig (Elt F)) : after (ops0 ++ ops1) W (Proc.devRef .tc main_v36) = val_main_v36 (F := F) (W (Proc.devRef .tc main_arg1)) (W (Proc.devRef .tc main_arg3)) := by
  simp only [ops0, ops1, List.cons_append, List.nil_append]
  after_results_simp
  try simp only [TRef.ofBuf, TRef.toBuf, cast_eq]
  all_goals rfl
set_option maxHeartbeats 4000000 in
theorem a52 (W : Valuation τ sig (Elt F)) : after (ops0 ++ ops1) W (Proc.devRef .tc main_v52)
    = val_main_v52 (F := F) (W (Proc.devRef .tc main_arg1)) (W (Proc.devRef .tc main_arg3)) (W (Proc.devRef .tc main_arg4)) (W (Proc.devRef .tc main_arg5)) := by
  simp only [ops0, ops1, List.cons_append, List.nil_append]
  after_results_simp
  try simp only [TRef.ofBuf, TRef.toBuf, cast_eq]
  all_goals rfl
set_option maxHeartbeats 4000000 in
theorem aArg2 (W : Valuation τ sig (Elt F)) : after (ops0 ++ ops1) W (Proc.devRef .tc main_arg2) = W (Proc.devRef .tc main_arg2) := by
  simp only [ops0, ops1, List.cons_append, List.nil_append]
  after_results_simp <;> rfl
set_option maxHeartbeats 4000000 in
theorem aArg6 (W : Valuation τ sig (Elt F)) : after (ops0 ++ ops1) W (Proc.devRef .tc main_arg6) = W (Proc.devRef .tc main_arg6) := by
  simp only [ops0, ops1, List.cons_append, List.nil_append]
  after_results_simp <;> rfl
set_option maxHeartbeats 4000000 in
theorem aArg7 (W : Valuation τ sig (Elt F)) : after (ops0 ++ ops1) W (Proc.devRef .tc main_arg7) = W (Proc.devRef .tc main_arg7) := by
  simp only [ops0, ops1, List.cons_append, List.nil_append]
  after_results_simp <;> rfl
set_option maxHeartbeats 4000000 in
theorem aArg8 (W : Valuation τ sig (Elt F)) : after (ops0 ++ ops1) W (Proc.devRef .tc main_arg8) = W (Proc.devRef .tc main_arg8) := by
  simp only [ops0, ops1, List.cons_append, List.nil_append]
  after_results_simp <;> rfl
set_option maxHeartbeats 4000000 in
theorem aArg9 (W : Valuation τ sig (Elt F)) : after (ops0 ++ ops1) W (Proc.devRef .tc main_arg9) = W (Proc.devRef .tc main_arg9) := by
  simp only [ops0, ops1, List.cons_append, List.nil_append]
  after_results_simp <;> rfl
set_option maxHeartbeats 4000000 in
theorem aArg10 (W : Valuation τ sig (Elt F)) : after (ops0 ++ ops1) W (Proc.devRef .tc main_arg10) = W (Proc.devRef .tc main_arg10) := by
  simp only [ops0, ops1, List.cons_append, List.nil_append]
  after_results_simp <;> rfl
set_option maxHeartbeats 4000000 in
theorem aArg11 (W : Valuation τ sig (Elt F)) : after (ops0 ++ ops1) W (Proc.devRef .tc main_arg11) = W (Proc.devRef .tc main_arg11) := by
  simp only [ops0, ops1, List.cons_append, List.nil_append]
  after_results_simp <;> rfl
set_option maxHeartbeats 4000000 in
theorem aArg12 (W : Valuation τ sig (Elt F)) : after (ops0 ++ ops1) W (Proc.devRef .tc main_arg12) = W (Proc.devRef .tc main_arg12) := by
  simp only [ops0, ops1, List.cons_append, List.nil_append]
  after_results_simp <;> rfl
set_option maxHeartbeats 4000000 in
theorem aArg13 (W : Valuation τ sig (Elt F)) : after (ops0 ++ ops1) W (Proc.devRef .tc main_arg13) = W (Proc.devRef .tc main_arg13) := by
  simp only [ops0, ops1, List.cons_append, List.nil_append]
  after_results_simp <;> rfl

/-! ## The second group: the first network -/

set_option maxHeartbeats 4000000 in
theorem b62 (W : Valuation τ sig (Elt F)) : after (ops2 ++ (ops3 ++ ops4)) W (Proc.devRef .tc main_v62)
    = mid62 (W (Proc.devRef .tc main_v10)) (W (Proc.devRef .tc main_v17)) (W (Proc.devRef .tc main_v36)) (W (Proc.devRef .tc main_v52)) (W (Proc.devRef .tc main_arg2))
        (W (Proc.devRef .tc main_arg6)) (W (Proc.devRef .tc main_arg7)) (W (Proc.devRef .tc main_arg8)) (W (Proc.devRef .tc main_arg9)) := by
  simp only [ops2, ops3, ops4, List.cons_append, List.nil_append]
  after_results_simp
  try simp only [TRef.ofBuf, TRef.toBuf, cast_eq]
  all_goals rfl
theorem bKeep_main_v10 (W : Valuation τ sig (Elt F)) : after (ops2 ++ (ops3 ++ ops4)) W (Proc.devRef .tc main_v10) = W (Proc.devRef .tc main_v10) := by
  simp only [ops2, ops3, ops4, List.cons_append, List.nil_append]
  after_results_simp <;> rfl
theorem bKeep_main_v17 (W : Valuation τ sig (Elt F)) : after (ops2 ++ (ops3 ++ ops4)) W (Proc.devRef .tc main_v17) = W (Proc.devRef .tc main_v17) := by
  simp only [ops2, ops3, ops4, List.cons_append, List.nil_append]
  after_results_simp <;> rfl
theorem bKeep_main_v36 (W : Valuation τ sig (Elt F)) : after (ops2 ++ (ops3 ++ ops4)) W (Proc.devRef .tc main_v36) = W (Proc.devRef .tc main_v36) := by
  simp only [ops2, ops3, ops4, List.cons_append, List.nil_append]
  after_results_simp <;> rfl
theorem bKeep_main_v52 (W : Valuation τ sig (Elt F)) : after (ops2 ++ (ops3 ++ ops4)) W (Proc.devRef .tc main_v52) = W (Proc.devRef .tc main_v52) := by
  simp only [ops2, ops3, ops4, List.cons_append, List.nil_append]
  after_results_simp <;> rfl
theorem bKeep_main_arg2 (W : Valuation τ sig (Elt F)) : after (ops2 ++ (ops3 ++ ops4)) W (Proc.devRef .tc main_arg2) = W (Proc.devRef .tc main_arg2) := by
  simp only [ops2, ops3, ops4, List.cons_append, List.nil_append]
  after_results_simp <;> rfl
theorem bKeep_main_arg10 (W : Valuation τ sig (Elt F)) : after (ops2 ++ (ops3 ++ ops4)) W (Proc.devRef .tc main_arg10) = W (Proc.devRef .tc main_arg10) := by
  simp only [ops2, ops3, ops4, List.cons_append, List.nil_append]
  after_results_simp <;> rfl
theorem bKeep_main_arg11 (W : Valuation τ sig (Elt F)) : after (ops2 ++ (ops3 ++ ops4)) W (Proc.devRef .tc main_arg11) = W (Proc.devRef .tc main_arg11) := by
  simp only [ops2, ops3, ops4, List.cons_append, List.nil_append]
  after_results_simp <;> rfl
theorem bKeep_main_arg12 (W : Valuation τ sig (Elt F)) : after (ops2 ++ (ops3 ++ ops4)) W (Proc.devRef .tc main_arg12) = W (Proc.devRef .tc main_arg12) := by
  simp only [ops2, ops3, ops4, List.cons_append, List.nil_append]
  after_results_simp <;> rfl
theorem bKeep_main_arg13 (W : Valuation τ sig (Elt F)) : after (ops2 ++ (ops3 ++ ops4)) W (Proc.devRef .tc main_arg13) = W (Proc.devRef .tc main_arg13) := by
  simp only [ops2, ops3, ops4, List.cons_append, List.nil_append]
  after_results_simp <;> rfl

/-! ## The third group: the second network -/

set_option maxHeartbeats 4000000 in
theorem c72 (W : Valuation τ sig (Elt F)) : after (ops5 ++ (ops6 ++ ops7)) W (Proc.devRef .tc main_v72)
    = tail72 (W (Proc.devRef .tc main_v10)) (W (Proc.devRef .tc main_v17)) (W (Proc.devRef .tc main_v62)) (W (Proc.devRef .tc main_v36)) (W (Proc.devRef .tc main_v52)) (W (Proc.devRef .tc main_arg2))
        (W (Proc.devRef .tc main_arg10)) (W (Proc.devRef .tc main_arg11)) (W (Proc.devRef .tc main_arg12)) (W (Proc.devRef .tc main_arg13)) := by
  simp only [ops5, ops6, ops7, List.cons_append, List.nil_append]
  after_results_simp
  try simp only [TRef.ofBuf, TRef.toBuf, cast_eq]
  all_goals rfl
theorem cKeep_main_v62 (W : Valuation τ sig (Elt F)) : after (ops5 ++ (ops6 ++ ops7)) W (Proc.devRef .tc main_v62) = W (Proc.devRef .tc main_v62) := by
  simp only [ops5, ops6, ops7, List.cons_append, List.nil_append]
  after_results_simp <;> rfl

/-! ## The fold read at the results -/

variable (m : (ℓ : Loc nD τ sig) → Buf (Elt F) ℓ)

/-- The first result buffer after the operations: the stage `val_main_v62` of the arguments. -/
theorem read62 (c : Dev nD) : after ops (launchContents m c) (Proc.devRef .tc main_v62)
    = val_main_v62 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  rw [after_ops, cKeep_main_v62, b62, a10, a17, a36, a52, aArg2, aArg6, aArg7, aArg8, aArg9, v62_mid]
  try rfl

/-- The second result buffer after the operations: the stage `val_main_v72` of the arguments. -/
theorem read72 (c : Dev nD) : after ops (launchContents m c) (Proc.devRef .tc main_v72)
    = val_main_v72 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  rw [after_ops, c72, b62, bKeep_main_v10, bKeep_main_v17, bKeep_main_v36, bKeep_main_v52, bKeep_main_arg2, bKeep_main_arg10,
    bKeep_main_arg11, bKeep_main_arg12, bKeep_main_arg13, a10, a17, a36, a52, aArg2, aArg6, aArg7, aArg8, aArg9, aArg10, aArg11,
    aArg12, aArg13, v72_tail, v62_mid]
  try rfl

/-! ## The fold read at the arguments: no operation writes one -/

set_option maxHeartbeats 4000000 in
theorem kept0 (c : Dev nD) : after ops (launchContents m c) (Proc.devRef .tc main_arg0) = m ((c.tc : Thread nD τ).loc main_arg0) := by
  simp only [ops, stretches, ops0, ops1, ops2, ops3, ops4, ops5, ops6, ops7, List.flatten_cons, List.flatten_nil, List.append_nil, List.cons_append, List.nil_append]
  after_results_simp <;> rfl
set_option maxHeartbeats 4000000 in
theorem kept1 (c : Dev nD) : after ops (launchContents m c) (Proc.devRef .tc main_arg1) = m ((c.tc : Thread nD τ).loc main_arg1) := by
  simp only [ops, stretches, ops0, ops1, ops2, ops3, ops4, ops5, ops6, ops7, List.flatten_cons, List.flatten_nil, List.append_nil, List.cons_append, List.nil_append]
  after_results_simp <;> rfl
set_option maxHeartbeats 4000000 in
theorem kept2 (c : Dev nD) : after ops (launchContents m c) (Proc.devRef .tc main_arg2) = m ((c.tc : Thread nD τ).loc main_arg2) := by
  simp only [ops, stretches, ops0, ops1, ops2, ops3, ops4, ops5, ops6, ops7, List.flatten_cons, List.flatten_nil, List.append_nil, List.cons_append, List.nil_append]
  after_results_simp <;> rfl
set_option maxHeartbeats 4000000 in
theorem kept3 (c : Dev nD) : after ops (launchContents m c) (Proc.devRef .tc main_arg3) = m ((c.tc : Thread nD τ).loc main_arg3) := by
  simp only [ops, stretches, ops0, ops1, ops2, ops3, ops4, ops5, ops6, ops7, List.flatten_cons, List.flatten_nil, List.append_nil, List.cons_append, List.nil_append]
  after_results_simp <;> rfl
set_option maxHeartbeats 4000000 in
theorem kept4 (c : Dev nD) : after ops (launchContents m c) (Proc.devRef .tc main_arg4) = m ((c.tc : Thread nD τ).loc main_arg4) := by
  simp only [ops, stretches, ops0, ops1, ops2, ops3, ops4, ops5, ops6, ops7, List.flatten_cons, List.flatten_nil, List.append_nil, List.cons_append, List.nil_append]
  after_results_simp <;> rfl
set_option maxHeartbeats 4000000 in
theorem kept5 (c : Dev nD) : after ops (launchContents m c) (Proc.devRef .tc main_arg5) = m ((c.tc : Thread nD τ).loc main_arg5) := by
  simp only [ops, stretches, ops0, ops1, ops2, ops3, ops4, ops5, ops6, ops7, List.flatten_cons, List.flatten_nil, List.append_nil, List.cons_append, List.nil_append]
  after_results_simp <;> rfl
set_option maxHeartbeats 4000000 in
theorem kept6 (c : Dev nD) : after ops (launchContents m c) (Proc.devRef .tc main_arg6) = m ((c.tc : Thread nD τ).loc main_arg6) := by
  simp only [ops, stretches, ops0, ops1, ops2, ops3, ops4, ops5, ops6, ops7, List.flatten_cons, List.flatten_nil, List.append_nil, List.cons_append, List.nil_append]
  after_results_simp <;> rfl
set_option maxHeartbeats 4000000 in
theorem kept7 (c : Dev nD) : after ops (launchContents m c) (Proc.devRef .tc main_arg7) = m ((c.tc : Thread nD τ).loc main_arg7) := by
  simp only [ops, stretches, ops0, ops1, ops2, ops3, ops4, ops5, ops6, ops7, List.flatten_cons, List.flatten_nil, List.append_nil, List.cons_append, List.nil_append]
  after_results_simp <;> rfl
set_option maxHeartbeats 4000000 in
theorem kept8 (c : Dev nD) : after ops (launchContents m c) (Proc.devRef .tc main_arg8) = m ((c.tc : Thread nD τ).loc main_arg8) := by
  simp only [ops, stretches, ops0, ops1, ops2, ops3, ops4, ops5, ops6, ops7, List.flatten_cons, List.flatten_nil, List.append_nil, List.cons_append, List.nil_append]
  after_results_simp <;> rfl
set_option maxHeartbeats 4000000 in
theorem kept9 (c : Dev nD) : after ops (launchContents m c) (Proc.devRef .tc main_arg9) = m ((c.tc : Thread nD τ).loc main_arg9) := by
  simp only [ops, stretches, ops0, ops1, ops2, ops3, ops4, ops5, ops6, ops7, List.flatten_cons, List.flatten_nil, List.append_nil, List.cons_append, List.nil_append]
  after_results_simp <;> rfl
set_option maxHeartbeats 4000000 in
theorem kept10 (c : Dev nD) : after ops (launchContents m c) (Proc.devRef .tc main_arg10) = m ((c.tc : Thread nD τ).loc main_arg10) := by
  simp only [ops, stretches, ops0, ops1, ops2, ops3, ops4, ops5, ops6, ops7, List.flatten_cons, List.flatten_nil, List.append_nil, List.cons_append, List.nil_append]
  after_results_simp <;> rfl
set_option maxHeartbeats 4000000 in
theorem kept11 (c : Dev nD) : after ops (launchContents m c) (Proc.devRef .tc main_arg11) = m ((c.tc : Thread nD τ).loc main_arg11) := by
  simp only [ops, stretches, ops0, ops1, ops2, ops3, ops4, ops5, ops6, ops7, List.flatten_cons, List.flatten_nil, List.append_nil, List.cons_append, List.nil_append]
  after_results_simp <;> rfl
set_option maxHeartbeats 4000000 in
theorem kept12 (c : Dev nD) : after ops (launchContents m c) (Proc.devRef .tc main_arg12) = m ((c.tc : Thread nD τ).loc main_arg12) := by
  simp only [ops, stretches, ops0, ops1, ops2, ops3, ops4, ops5, ops6, ops7, List.flatten_cons, List.flatten_nil, List.append_nil, List.cons_append, List.nil_append]
  after_results_simp <;> rfl
set_option maxHeartbeats 4000000 in
theorem kept13 (c : Dev nD) : after ops (launchContents m c) (Proc.devRef .tc main_arg13) = m ((c.tc : Thread nD τ).loc main_arg13) := by
  simp only [ops, stretches, ops0, ops1, ops2, ops3, ops4, ops5, ops6, ops7, List.flatten_cons, List.flatten_nil, List.append_nil, List.cons_append, List.nil_append]
  after_results_simp <;> rfl

/-! ## The run -/

/-- On every device, for any float values, from any memory with zero counters: every weakly fair execution of the
    reference's @main terminates with the two results at their stages of the arguments and the arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v62) = val_main_v62 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v72) = val_main_v72 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v62).trans (read62 m c), (h c main_v72).trans (read72 m c),
      (h c main_arg0).trans (kept0 m c),
      (h c main_arg1).trans (kept1 m c),
      (h c main_arg2).trans (kept2 m c),
      (h c main_arg3).trans (kept3 m c),
      (h c main_arg4).trans (kept4 m c),
      (h c main_arg5).trans (kept5 m c),
      (h c main_arg6).trans (kept6 m c),
      (h c main_arg7).trans (kept7 m c),
      (h c main_arg8).trans (kept8 m c),
      (h c main_arg9).trans (kept9 m c),
      (h c main_arg10).trans (kept10 m c),
      (h c main_arg11).trans (kept11 m c),
      (h c main_arg12).trans (kept12 m c),
      (h c main_arg13).trans (kept13 m c)⟩)
    (run_seq scopedRefs_eq scopedSems_eq defs main (fun _ => ops) main_eq (fun _ => ops_sub) m ρ (fun _ => ops_fresh))

end Cert.ReferenceIdeal.ValueP

end
-- ==== Proof.RowMlp.lean ====
/-
  The mathematics both programs compute, stated once and free of either program's text.

  Every edge `e` carries a feature row `h e : K → EReal`.  A dense layer of width 128 sends a row `h` to
  `n ↦ (∑ k, h k · W k n) + b n`; the edge network is two such layers with `silu x = x · σ(x)` between them,
  `σ x = 1 / (1 + e^(−x))` on the extended reals.  Nothing here mixes two rows: row `e` of the result depends on row `e`
  of the features and on the weights only.  That is the whole reason a program that walks the edges 3000 at a time and
  a program that handles all 300000 at once end with the same array, and it is stated below as `rowsMlp_congr`.
-/
import Idealize.ShloMosaic.PureOps.Ideal
import Idealize.ShloMosaic.Lib.ValueIdx

noncomputable section

namespace Cert.RowMlp

open Idealize.ShloMosaic Idealize.ShloMosaic.ValueIdx

/-- `x · σ(x)` on the extended reals. -/
def silu (x : EReal) : EReal := x * Ideal.logistic x

/-- One dense layer of width 128 applied to a row of `K` features. -/
def dense {K : Nat} (h : Fin K → EReal) (W : (⟨2, ![K, 128]⟩ : Shape).Idx → EReal)
    (b : (⟨1, ![128]⟩ : Shape).Idx → EReal) (n : Fin 128) : EReal :=
  (∑ k : Fin K, h k * W (ix2 k n)) + b (ix1 n)

/-- Two dense layers with `silu` between them, applied to one row. -/
def mlp {K : Nat} (h : Fin K → EReal) (W₁ : (⟨2, ![K, 128]⟩ : Shape).Idx → EReal) (b₁ : (⟨1, ![128]⟩ : Shape).Idx → EReal)
    (W₂ : (⟨2, ![128, 128]⟩ : Shape).Idx → EReal) (b₂ : (⟨1, ![128]⟩ : Shape).Idx → EReal) (n : Fin 128) : EReal :=
  dense (fun j => silu (dense h W₁ b₁ j)) W₂ b₂ n

/-- The network applied to every row of an `E × K` feature array: entry `(e, n)` is output `n` of row `e`. -/
def rowsMlp {E K : Nat} (H : (⟨2, ![E, K]⟩ : Shape).Idx → EReal) (W₁ : (⟨2, ![K, 128]⟩ : Shape).Idx → EReal)
    (b₁ : (⟨1, ![128]⟩ : Shape).Idx → EReal) (W₂ : (⟨2, ![128, 128]⟩ : Shape).Idx → EReal)
    (b₂ : (⟨1, ![128]⟩ : Shape).Idx → EReal) : (⟨2, ![E, 128]⟩ : Shape).Idx → EReal :=
  fun i => mlp (fun k => H (ix2 (i 0) k)) W₁ b₁ W₂ b₂ (i 1)

/-- Rows do not mix: if row `r` of one feature array is row `e` of another, the network's row `r` over the first is its
    row `e` over the second.  (The two arrays may have different numbers of rows: a block and the whole.) -/
theorem rowsMlp_congr {E E' K : Nat} (H : (⟨2, ![E, K]⟩ : Shape).Idx → EReal) (H' : (⟨2, ![E', K]⟩ : Shape).Idx → EReal)
    (W₁ : (⟨2, ![K, 128]⟩ : Shape).Idx → EReal) (b₁ : (⟨1, ![128]⟩ : Shape).Idx → EReal)
    (W₂ : (⟨2, ![128, 128]⟩ : Shape).Idx → EReal) (b₂ : (⟨1, ![128]⟩ : Shape).Idx → EReal)
    (r : Fin E) (e : Fin E') (n : Fin 128) (h : ∀ k : Fin K, H (ix2 r k) = H' (ix2 e k)) :
    rowsMlp H W₁ b₁ W₂ b₂ (ix2 r n) = rowsMlp H' W₁ b₁ W₂ b₂ (ix2 e n) := by
  show mlp (fun k => H (ix2 r k)) W₁ b₁ W₂ b₂ n = mlp (fun k => H' (ix2 e k)) W₁ b₁ W₂ b₂ n
  rw [show (fun k => H (ix2 r k)) = fun k => H' (ix2 e k) from funext h]

end Cert.RowMlp

end
-- ==== Proof.RefRows.lean ====
/-
  The reference's two edge networks are the row network of their feature arrays.

  Entry (e, n) of each result is read off the reference one operation at a time.  The last addition is a dot product over
  128 hidden features plus the second bias at n; hidden feature j of row e is x · (1 / (1 + e^(−x))) at
  x = (dot product of row e of the concatenated feature array with column j of the first weight) + the first bias at j.
  The literal 1.0 is the extended real one, so 1 / (1 + e^(−x)) is the logistic function and the hidden feature is
  silu of the first dense layer.  Only row e of the feature array is ever read, which is the row network's definition.
  The concatenated feature arrays themselves stay whole: nothing below looks inside them.
-/
import proofs.«415486_j17815524344038_2_alg».proof.Proof.RefRead
import proofs.«415486_j17815524344038_2_alg».proof.Proof.RowMlp
import Idealize.ShloMosaic.Lib.IdealHost

noncomputable section

namespace Cert.ReferenceIdeal.Rows

open Cert.ReferenceIdeal Cert.ReferenceIdeal.ReadP Cert.RowMlp Idealize.ShloMosaic Idealize.ShloMosaic.ValueIdx

/-- The reference spells silu as x · (1 / (1 + e^(−x))) with the 32-bit pattern of 1.0 for each one; that pattern is the
    extended real 1, and 1 / (1 + e^(−x)) is the logistic function by definition. -/
theorem silu_spelled (x : EReal) :
    FloatOps.mulf (F := Ideal) (φ := .f32) x
      (FloatOps.hostDivf (FloatOps.ofBits .f32 0x3F800000#32)
        (FloatOps.addf (FloatOps.ofBits .f32 0x3F800000#32) (FloatOps.hostUnary .exp (FloatOps.hostNegf x)))) = silu x := by
  show x * Ideal.div (Ideal.ofBits .f32 0x3F800000#32) (Ideal.ofBits .f32 0x3F800000#32 + Ideal.exp (-x)) = x * Ideal.logistic x
  rw [Ideal.ofBits_one_f32]
  rfl

/-- First network, first dense layer: entry (e, j) is the dot product of row e of the 401-feature array with column j of the weight, plus the bias at j. -/
theorem net1_first (x0 : (⟨S50000x128, .f32⟩ : BufTy).Contents (Elt Ideal)) (x1 : (⟨S50000x3, .f32⟩ : BufTy).Contents (Elt Ideal)) (x2 : (⟨S300000x128, .f32⟩ : BufTy).Contents (Elt Ideal)) (x3 : (⟨S2x300000, .i32⟩ : BufTy).Contents (Elt Ideal)) (x4 : (⟨S1, .f32⟩ : BufTy).Contents (Elt Ideal)) (x5 : (⟨S16, .f32⟩ : BufTy).Contents (Elt Ideal)) (x6 : (⟨S401x128, .f32⟩ : BufTy).Contents (Elt Ideal)) (x7 : (⟨S128, .f32⟩ : BufTy).Contents (Elt Ideal)) (e : Fin 300000) (j : Fin 128) :
    val_main_v57 (F := Ideal) x0 x1 x2 x3 x4 x5 x6 x7 (ix2 e j)
      = dense (fun k => val_main_v53 (F := Ideal) x0 x1 x2 x3 x4 x5 (ix2 e k)) x6 x7 j := by
  have hl : ∀ k : Fin 401, lidx_main_v54 (ix2 e j) k = ix2 e k := fun k => funext fun a => Fin.ext (by match a with | ⟨0, _⟩ => rfl | ⟨1, _⟩ => rfl)
  have hr : ∀ k : Fin 401, ridx_main_v54 (ix2 e j) k = ix2 k j := fun k => funext fun a => Fin.ext (by match a with | ⟨0, _⟩ => rfl | ⟨1, _⟩ => rfl)
  have hb : idx_main_v55 (idx_main_v56 (ix2 e j)) = ix1 j := funext fun a => Fin.ext (by match a with | ⟨0, _⟩ => rfl)
  rw [val_main_v57_apply, val_main_v54_apply, val_main_v56_apply, val_main_v55_apply, hb]
  simp only [hl, hr]
  rfl

/-- First network, hidden feature: entry (e, j) after the activation is silu of the first dense layer's entry. -/
theorem net1_act (x0 : (⟨S50000x128, .f32⟩ : BufTy).Contents (Elt Ideal)) (x1 : (⟨S50000x3, .f32⟩ : BufTy).Contents (Elt Ideal)) (x2 : (⟨S300000x128, .f32⟩ : BufTy).Contents (Elt Ideal)) (x3 : (⟨S2x300000, .i32⟩ : BufTy).Contents (Elt Ideal)) (x4 : (⟨S1, .f32⟩ : BufTy).Contents (Elt Ideal)) (x5 : (⟨S16, .f32⟩ : BufTy).Contents (Elt Ideal)) (x6 : (⟨S401x128, .f32⟩ : BufTy).Contents (Elt Ideal)) (x7 : (⟨S128, .f32⟩ : BufTy).Contents (Elt Ideal)) (e : Fin 300000) (j : Fin 128) :
    val_main_v58 (F := Ideal) x0 x1 x2 x3 x4 x5 x6 x7 (ix2 e j)
      = silu (dense (fun k => val_main_v53 (F := Ideal) x0 x1 x2 x3 x4 x5 (ix2 e k)) x6 x7 j) := by
  rw [val_main_v58_apply, val_main_call0_v5_apply, val_main_call0_v4_apply, val_main_call0_cst_0_apply,
    val_main_call0_v3_apply, val_main_call0_v2_apply, val_main_call0_cst_apply, val_main_call0_v1_apply,
    val_main_call0_v0_apply, net1_first]
  exact silu_spelled _

/-- The reference's first result is the row network of the 401-feature array. -/
theorem v62_eq_rows (x0 : (⟨S50000x128, .f32⟩ : BufTy).Contents (Elt Ideal)) (x1 : (⟨S50000x3, .f32⟩ : BufTy).Contents (Elt Ideal)) (x2 : (⟨S300000x128, .f32⟩ : BufTy).Contents (Elt Ideal)) (x3 : (⟨S2x300000, .i32⟩ : BufTy).Contents (Elt Ideal)) (x4 : (⟨S1, .f32⟩ : BufTy).Contents (Elt Ideal)) (x5 : (⟨S16, .f32⟩ : BufTy).Contents (Elt Ideal)) (x6 : (⟨S401x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) :
    val_main_v62 (F := Ideal) x0 x1 x2 x3 x4 x5 x6 x7 x8 x9 = rowsMlp (val_main_v53 (F := Ideal) x0 x1 x2 x3 x4 x5) x6 x7 x8 x9 := by
  funext i
  obtain ⟨e, n, rfl⟩ : ∃ (e : Fin 300000) (n : Fin 128), i = ix2 e n := ⟨i 0, i 1, eq_ix2 i⟩
  have hl : ∀ k : Fin 128, lidx_main_v59 (ix2 e n) k = ix2 e k := fun k => funext fun a => Fin.ext (by match a with | ⟨0, _⟩ => rfl | ⟨1, _⟩ => rfl)
  have hr : ∀ k : Fin 128, ridx_main_v59 (ix2 e n) k = ix2 k n := fun k => funext fun a => Fin.ext (by match a with | ⟨0, _⟩ => rfl | ⟨1, _⟩ => rfl)
  have hb : idx_main_v60 (idx_main_v61 (ix2 e n)) = ix1 n := funext fun a => Fin.ext (by match a with | ⟨0, _⟩ => rfl)
  rw [val_main_v62_apply, val_main_v59_apply, val_main_v61_apply, val_main_v60_apply, hb]
  simp only [hl, hr, net1_act]
  rfl

/-- Second network, first dense layer: entry (e, j) is the dot product of row e of the 529-feature array with column j of the weight, plus the bias at j. -/
theorem net2_first (x0 : (⟨S50000x128, .f32⟩ : BufTy).Contents (Elt Ideal)) (x1 : (⟨S50000x3, .f32⟩ : BufTy).Contents (Elt Ideal)) (x2 : (⟨S300000x128, .f32⟩ : BufTy).Contents (Elt Ideal)) (x3 : (⟨S2x300000, .i32⟩ : BufTy).Contents (Elt Ideal)) (x4 : (⟨S1, .f32⟩ : BufTy).Contents (Elt Ideal)) (x5 : (⟨S16, .f32⟩ : BufTy).Contents (Elt Ideal)) (x6 : (⟨S401x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S529x128, .f32⟩ : BufTy).Contents (Elt Ideal)) (x11 : (⟨S128, .f32⟩ : BufTy).Contents (Elt Ideal)) (e : Fin 300000) (j : Fin 128) :
    val_main_v67 (F := Ideal) x0 x1 x2 x3 x4 x5 x6 x7 x8 x9 x10 x11 (ix2 e j)
      = dense (fun k => val_main_v63 (F := Ideal) x0 x1 x2 x3 x4 x5 x6 x7 x8 x9 (ix2 e k)) x10 x11 j := by
  have hl : ∀ k : Fin 529, lidx_main_v64 (ix2 e j) k = ix2 e k := fun k => funext fun a => Fin.ext (by match a with | ⟨0, _⟩ => rfl | ⟨1, _⟩ => rfl)
  have hr : ∀ k : Fin 529, ridx_main_v64 (ix2 e j) k = ix2 k j := fun k => funext fun a => Fin.ext (by match a with | ⟨0, _⟩ => rfl | ⟨1, _⟩ => rfl)
  have hb : idx_main_v65 (idx_main_v66 (ix2 e j)) = ix1 j := funext fun a => Fin.ext (by match a with | ⟨0, _⟩ => rfl)
  rw [val_main_v67_apply, val_main_v64_apply, val_main_v66_apply, val_main_v65_apply, hb]
  simp only [hl, hr]
  rfl

/-- Second network, hidden feature: entry (e, j) after the activation is silu of the first dense layer's entry. -/
theorem net2_act (x0 : (⟨S50000x128, .f32⟩ : BufTy).Contents (Elt Ideal)) (x1 : (⟨S50000x3, .f32⟩ : BufTy).Contents (Elt Ideal)) (x2 : (⟨S300000x128, .f32⟩ : BufTy).Contents (Elt Ideal)) (x3 : (⟨S2x300000, .i32⟩ : BufTy).Contents (Elt Ideal)) (x4 : (⟨S1, .f32⟩ : BufTy).Contents (Elt Ideal)) (x5 : (⟨S16, .f32⟩ : BufTy).Contents (Elt Ideal)) (x6 : (⟨S401x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S529x128, .f32⟩ : BufTy).Contents (Elt Ideal)) (x11 : (⟨S128, .f32⟩ : BufTy).Contents (Elt Ideal)) (e : Fin 300000) (j : Fin 128) :
    val_main_v68 (F := Ideal) x0 x1 x2 x3 x4 x5 x6 x7 x8 x9 x10 x11 (ix2 e j)
      = silu (dense (fun k => val_main_v63 (F := Ideal) x0 x1 x2 x3 x4 x5 x6 x7 x8 x9 (ix2 e k)) x10 x11 j) := by
  rw [val_main_v68_apply, val_main_call1_v5_apply, val_main_call1_v4_apply, val_main_call1_cst_0_apply,
    val_main_call1_v3_apply, val_main_call1_v2_apply, val_main_call1_cst_apply, val_main_call1_v1_apply,
    val_main_call1_v0_apply, net2_first]
  exact silu_spelled _

/-- The reference's second result is the row network of the 529-feature array. -/
theorem v72_eq_rows (x0 : (⟨S50000x128, .f32⟩ : BufTy).Contents (Elt Ideal)) (x1 : (⟨S50000x3, .f32⟩ : BufTy).Contents (Elt Ideal)) (x2 : (⟨S300000x128, .f32⟩ : BufTy).Contents (Elt Ideal)) (x3 : (⟨S2x300000, .i32⟩ : BufTy).Contents (Elt Ideal)) (x4 : (⟨S1, .f32⟩ : BufTy).Contents (Elt Ideal)) (x5 : (⟨S16, .f32⟩ : BufTy).Contents (Elt Ideal)) (x6 : (⟨S401x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S529x128, .f32⟩ : BufTy).Contents (Elt Ideal)) (x11 : (⟨S128, .f32⟩ : BufTy).Contents (Elt Ideal)) (x12 : (⟨S128x128, .f32⟩ : BufTy).Contents (Elt Ideal)) (x13 : (⟨S128, .f32⟩ : BufTy).Contents (Elt Ideal)) :
    val_main_v72 (F := Ideal) x0 x1 x2 x3 x4 x5 x6 x7 x8 x9 x10 x11 x12 x13 = rowsMlp (val_main_v63 (F := Ideal) x0 x1 x2 x3 x4 x5 x6 x7 x8 x9) x10 x11 x12 x13 := by
  funext i
  obtain ⟨e, n, rfl⟩ : ∃ (e : Fin 300000) (n : Fin 128), i = ix2 e n := ⟨i 0, i 1, eq_ix2 i⟩
  have hl : ∀ k : Fin 128, lidx_main_v69 (ix2 e n) k = ix2 e k := fun k => funext fun a => Fin.ext (by match a with | ⟨0, _⟩ => rfl | ⟨1, _⟩ => rfl)
  have hr : ∀ k : Fin 128, ridx_main_v69 (ix2 e n) k = ix2 k n := fun k => funext fun a => Fin.ext (by match a with | ⟨0, _⟩ => rfl | ⟨1, _⟩ => rfl)
  have hb : idx_main_v70 (idx_main_v71 (ix2 e n)) = ix1 n := funext fun a => Fin.ext (by match a with | ⟨0, _⟩ => rfl)
  rw [val_main_v72_apply, val_main_v69_apply, val_main_v71_apply, val_main_v70_apply, hb]
  simp only [hl, hr, net2_act]
  rfl

end Cert.ReferenceIdeal.Rows

end
-- ==== Proof.PreRange.lean ====
/-
  What the precondition says of the edge indices.

  The precondition is a conjunction, folded left to right by `and`, of one "all entries satisfy …" per input.  Its last
  two conjuncts are `all (edge_indices ≥ −50000)` and `all (edge_indices < 50000)`; being the last two they sit at
  the outside of the fold, so they are read off without opening the eleven finiteness conjuncts before them.
  Each "all" is a reduction by `and` over every axis, from `true`: it is `true` only if every entry is.
-/
import proofs.«415486_j17815524344038_2_alg».proof.Pre_finite_inputs
import Idealize.ShloMosaic.Lib.ReduceAll
import Idealize.ShloMosaic.Lib.ValueIdx

noncomputable section

namespace Cert.Pre_finite_inputs.Range

open Cert.Pre_finite_inputs Cert.Pre_finite_inputs.Facts Idealize.ShloMosaic

variable [Cert.Pre_finite_inputs.Facts]
variable {F : FTy → Type} [FloatOps F]

instance : Subsingleton S_.Idx := ⟨fun a b => funext fun d => d.elim0⟩

/-- The last conjunct: every index is below 50000, and what was folded before it holds too. -/
theorem part4_one (x3 : IVec S2x300000 32) (v : IVec S_ 1) (h : fn_part4 (F := F) x3 v ValueIdx.ix0 = 1#1) :
    v ValueIdx.ix0 = 1#1 ∧ ∀ i : S2x300000.Idx, IntOp.cmpi .slt (x3 i) 50000#32 = 1#1 := by
  unfold fn_part4 at h
  dsimp only at h
  obtain ⟨h1, h2⟩ := IntOp.andi_eq_one.1 h
  exact ⟨h1, fun i => Host.reduce_andi_all _ _ _ _ _ h2 i⟩

/-- The last two conjuncts: every index is at least −50000 and below 50000. -/
theorem part3_one (x3 : IVec S2x300000 32) (x12 : FVec F S128x128 .f32) (x13 : FVec F S128 .f32) (v48 : IVec S_ 1)
    (v49 v50 : FVec F S128 .f32) (h : fn_part3 (F := F) x3 x12 x13 v48 v49 v50 ValueIdx.ix0 = 1#1) :
    ∀ i : S2x300000.Idx, IntOp.cmpi .sge (x3 i) 4294917296#32 = 1#1 ∧ IntOp.cmpi .slt (x3 i) 50000#32 = 1#1 := by
  unfold fn_part3 at h
  dsimp only at h
  obtain ⟨h1, h2⟩ := part4_one x3 _ h
  obtain ⟨-, h3⟩ := IntOp.andi_eq_one.1 h1
  exact fun i => ⟨Host.reduce_andi_all _ _ _ _ _ h3 i, h2 i⟩

/-- THE PRECONDITION, READ AT THE INDICES: every edge index, sender or receiver, lies in `[−50000, 50000)`. -/
theorem index_range (x0 : FVec F S50000x128 .f32) (x1 : FVec F S50000x3 .f32) (x2 : FVec F S300000x128 .f32)
    (x3 : IVec S2x300000 32) (x4 : FVec F S1 .f32) (x5 : FVec F S16 .f32) (x6 : FVec F S401x128 .f32) (x7 : FVec F S128 .f32)
    (x8 : FVec F S128x128 .f32) (x9 : FVec F S128 .f32) (x10 : FVec F S529x128 .f32) (x11 : FVec F S128 .f32)
    (x12 : FVec F S128x128 .f32) (x13 : FVec F S128 .f32)
    (h : fn (F := F) x0 x1 x2 x3 x4 x5 x6 x7 x8 x9 x10 x11 x12 x13 = fun _ => 1#1) :
    ∀ i : S2x300000.Idx, IntOp.cmpi .sge (x3 i) 4294917296#32 = 1#1 ∧ IntOp.cmpi .slt (x3 i) 50000#32 = 1#1 := by
  have e := congrFun h ValueIdx.ix0
  unfold fn at e
  dsimp only at e
  unfold fn_part1 at e
  dsimp only at e
  unfold fn_part2 at e
  dsimp only at e
  exact part3_one x3 _ _ _ _ _ e

end Cert.Pre_finite_inputs.Range

end
-- ==== Proof.BlockMlp.lean ====
/-
  The kernel's arithmetic on one block of 3000 edges, as the row network.

  A block's feature array is the row-wise concatenation of its pieces: node features of the two endpoints, the radial
  features, the edge features (and, for the second network, the first network's output).  Each of the kernel's two
  networks is a product with a weight block into a zero accumulator, plus a bias row repeated over the 3000 rows, then
  `x · σ(x)` entry by entry, then a second such product and bias.  Read at entry `(r, n)` each product is the sum over
  the contracted coordinate of the operands' products, the bias row reads `b (0, n)`, the narrowing format changes and
  the casts of a block to its own shape change nothing at the ideal values; so entry `(r, n)` is output `n` of the row
  network applied to row `r` of the concatenation.
-/
import proofs.«415486_j17815524344038_2_alg».proof.Proof.Gen.KernelIdeal.Skeleton
import proofs.«415486_j17815524344038_2_alg».proof.Proof.RowMlp
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.BlockMlp

open Cert.KernelIdeal Cert.KernelIdeal.Gen Cert.RowMlp Idealize.ShloMosaic Idealize.ShloMosaic.ValueIdx

/-! ### The 3000x401 by 401x128 block product at an index -/

theorem lhs401_0 (i : S3000x128.Idx) (q : dot_S3000x401_S401x128_S3000x128_1_0_0_1_n_n.contr.Idx) :
    (dot_S3000x401_S401x128_S3000x128_1_0_0_1_n_n.lhsIdx i q 0).val = (i 0).val := by
  unfold DotDims.lhsIdx
  rw [dif_neg (show ¬(0 : Fin S3000x401.rank) ∈ dot_S3000x401_S401x128_S3000x128_1_0_0_1_n_n.lhsBatch by decide), dif_pos (show (0 : Fin S3000x401.rank) ∈ dot_S3000x401_S401x128_S3000x128_1_0_0_1_n_n.lhsNonContracting by decide)]
  rfl
theorem lhs401_1 (i : S3000x128.Idx) (q : dot_S3000x401_S401x128_S3000x128_1_0_0_1_n_n.contr.Idx) :
    (dot_S3000x401_S401x128_S3000x128_1_0_0_1_n_n.lhsIdx i q 1).val = (q ⟨0, by decide⟩).val :=
  dot_S3000x401_S401x128_S3000x128_1_0_0_1_n_n.lhsIdx_val_of_single rfl i q
theorem rhs401_0 (i : S3000x128.Idx) (q : dot_S3000x401_S401x128_S3000x128_1_0_0_1_n_n.contr.Idx) :
    (dot_S3000x401_S401x128_S3000x128_1_0_0_1_n_n.rhsIdx i q 0).val = (q ⟨0, by decide⟩).val :=
  dot_S3000x401_S401x128_S3000x128_1_0_0_1_n_n.rhsIdx_val_of_single rfl i q
theorem rhs401_1 (i : S3000x128.Idx) (q : dot_S3000x401_S401x128_S3000x128_1_0_0_1_n_n.contr.Idx) :
    (dot_S3000x401_S401x128_S3000x128_1_0_0_1_n_n.rhsIdx i q 1).val = (i 1).val := by
  unfold DotDims.rhsIdx
  rw [dif_neg (show ¬(1 : Fin S401x128.rank) ∈ dot_S3000x401_S401x128_S3000x128_1_0_0_1_n_n.rhsBatch by decide), dif_pos (show (1 : Fin S401x128.rank) ∈ dot_S3000x401_S401x128_S3000x128_1_0_0_1_n_n.rhsNonContracting by decide)]
  rfl

/-- Entry `(r, n)` of the product into the zero accumulator is `∑ k, A (r, k) · W (k, n)`. -/
theorem mm401_apply (A : FVec Ideal S3000x401 .bf16) (W : FVec Ideal S401x128 .bf16) (r : Fin 3000) (n : Fin 128) :
    matmul dot_S3000x401_S401x128_S3000x128_1_0_0_1_n_n none A W (constant (F := Ideal) S3000x128 .f32 0x00000000#32) (ix2 r n)
      = ∑ k : Fin 401, A (ix2 r k) * W (ix2 k n) := by
  simp only [matmul]
  rw [Ideal.matmul_constant_zero_apply, ← Equiv.sum_comp (contrEquiv1 dot_S3000x401_S401x128_S3000x128_1_0_0_1_n_n 401 rfl rfl).symm]
  refine Finset.sum_congr rfl fun k _ => ?_
  have hk := contrEquiv1_symm_val dot_S3000x401_S401x128_S3000x128_1_0_0_1_n_n 401 rfl rfl k
  have el : dot_S3000x401_S401x128_S3000x128_1_0_0_1_n_n.lhsIdx (ix2 r n) ((contrEquiv1 dot_S3000x401_S401x128_S3000x128_1_0_0_1_n_n 401 rfl rfl).symm k) = ix2 r k := funext fun a => Fin.ext (by
    match a with
    | ⟨0, _⟩ => exact lhs401_0 _ _
    | ⟨1, _⟩ => exact (lhs401_1 _ _).trans hk)
  have er : dot_S3000x401_S401x128_S3000x128_1_0_0_1_n_n.rhsIdx (ix2 r n) ((contrEquiv1 dot_S3000x401_S401x128_S3000x128_1_0_0_1_n_n 401 rfl rfl).symm k) = ix2 k n := funext fun a => Fin.ext (by
    match a with
    | ⟨0, _⟩ => exact (rhs401_0 _ _).trans hk
    | ⟨1, _⟩ => exact rhs401_1 _ _)
  rw [el, er]

/-! ### The 3000x128 by 128x128 block product at an index -/

theorem lhs128_0 (i : S3000x128.Idx) (q : dot_S3000x128_S128x128_S3000x128_1_0_0_1_n_n.contr.Idx) :
    (dot_S3000x128_S128x128_S3000x128_1_0_0_1_n_n.lhsIdx i q 0).val = (i 0).val := by
  unfold DotDims.lhsIdx
  rw [dif_neg (show ¬(0 : Fin S3000x128.rank) ∈ dot_S3000x128_S128x128_S3000x128_1_0_0_1_n_n.lhsBatch by decide), dif_pos (show (0 : Fin S3000x128.rank) ∈ dot_S3000x128_S128x128_S3000x128_1_0_0_1_n_n.lhsNonContracting by decide)]
  rfl
theorem lhs128_1 (i : S3000x128.Idx) (q : dot_S3000x128_S128x128_S3000x128_1_0_0_1_n_n.contr.Idx) :
    (dot_S3000x128_S128x128_S3000x128_1_0_0_1_n_n.lhsIdx i q 1).val = (q ⟨0, by decide⟩).val :=
  dot_S3000x128_S128x128_S3000x128_1_0_0_1_n_n.lhsIdx_val_of_single rfl i q
theorem rhs128_0 (i : S3000x128.Idx) (q : dot_S3000x128_S128x128_S3000x128_1_0_0_1_n_n.contr.Idx) :
    (dot_S3000x128_S128x128_S3000x128_1_0_0_1_n_n.rhsIdx i q 0).val = (q ⟨0, by decide⟩).val :=
  dot_S3000x128_S128x128_S3000x128_1_0_0_1_n_n.rhsIdx_val_of_single rfl i q
theorem rhs128_1 (i : S3000x128.Idx) (q : dot_S3000x128_S128x128_S3000x128_1_0_0_1_n_n.contr.Idx) :
    (dot_S3000x128_S128x128_S3000x128_1_0_0_1_n_n.rhsIdx i q 1).val = (i 1).val := by
  unfold DotDims.rhsIdx
  rw [dif_neg (show ¬(1 : Fin S128x128.rank) ∈ dot_S3000x128_S128x128_S3000x128_1_0_0_1_n_n.rhsBatch by decide), dif_pos (show (1 : Fin S128x128.rank) ∈ dot_S3000x128_S128x128_S3000x128_1_0_0_1_n_n.rhsNonContracting by decide)]
  rfl

/-- Entry `(r, n)` of the product into the zero accumulator is `∑ k, A (r, k) · W (k, n)`. -/
theorem mm128_apply (A : FVec Ideal S3000x128 .bf16) (W : FVec Ideal S128x128 .bf16) (r : Fin 3000) (n : Fin 128) :
    matmul dot_S3000x128_S128x128_S3000x128_1_0_0_1_n_n none A W (constant (F := Ideal) S3000x128 .f32 0x00000000#32) (ix2 r n)
      = ∑ k : Fin 128, A (ix2 r k) * W (ix2 k n) := by
  simp only [matmul]
  rw [Ideal.matmul_constant_zero_apply, ← Equiv.sum_comp (contrEquiv1 dot_S3000x128_S128x128_S3000x128_1_0_0_1_n_n 128 rfl rfl).symm]
  refine Finset.sum_congr rfl fun k _ => ?_
  have hk := contrEquiv1_symm_val dot_S3000x128_S128x128_S3000x128_1_0_0_1_n_n 128 rfl rfl k
  have el : dot_S3000x128_S128x128_S3000x128_1_0_0_1_n_n.lhsIdx (ix2 r n) ((contrEquiv1 dot_S3000x128_S128x128_S3000x128_1_0_0_1_n_n 128 rfl rfl).symm k) = ix2 r k := funext fun a => Fin.ext (by
    match a with
    | ⟨0, _⟩ => exact lhs128_0 _ _
    | ⟨1, _⟩ => exact (lhs128_1 _ _).trans hk)
  have er : dot_S3000x128_S128x128_S3000x128_1_0_0_1_n_n.rhsIdx (ix2 r n) ((contrEquiv1 dot_S3000x128_S128x128_S3000x128_1_0_0_1_n_n 128 rfl rfl).symm k) = ix2 k n := funext fun a => Fin.ext (by
    match a with
    | ⟨0, _⟩ => exact (rhs128_0 _ _).trans hk
    | ⟨1, _⟩ => exact rhs128_1 _ _)
  rw [el, er]

/-! ### The 3000x529 by 529x128 block product at an index -/

theorem lhs529_0 (i : S3000x128.Idx) (q : dot_S3000x529_S529x128_S3000x128_1_0_0_1_n_n.contr.Idx) :
    (dot_S3000x529_S529x128_S3000x128_1_0_0_1_n_n.lhsIdx i q 0).val = (i 0).val := by
  unfold DotDims.lhsIdx
  rw [dif_neg (show ¬(0 : Fin S3000x529.rank) ∈ dot_S3000x529_S529x128_S3000x128_1_0_0_1_n_n.lhsBatch by decide), dif_pos (show (0 : Fin S3000x529.rank) ∈ dot_S3000x529_S529x128_S3000x128_1_0_0_1_n_n.lhsNonContracting by decide)]
  rfl
theorem lhs529_1 (i : S3000x128.Idx) (q : dot_S3000x529_S529x128_S3000x128_1_0_0_1_n_n.contr.Idx) :
    (dot_S3000x529_S529x128_S3000x128_1_0_0_1_n_n.lhsIdx i q 1).val = (q ⟨0, by decide⟩).val :=
  dot_S3000x529_S529x128_S3000x128_1_0_0_1_n_n.lhsIdx_val_of_single rfl i q
theorem rhs529_0 (i : S3000x128.Idx) (q : dot_S3000x529_S529x128_S3000x128_1_0_0_1_n_n.contr.Idx) :
    (dot_S3000x529_S529x128_S3000x128_1_0_0_1_n_n.rhsIdx i q 0).val = (q ⟨0, by decide⟩).val :=
  dot_S3000x529_S529x128_S3000x128_1_0_0_1_n_n.rhsIdx_val_of_single rfl i q
theorem rhs529_1 (i : S3000x128.Idx) (q : dot_S3000x529_S529x128_S3000x128_1_0_0_1_n_n.contr.Idx) :
    (dot_S3000x529_S529x128_S3000x128_1_0_0_1_n_n.rhsIdx i q 1).val = (i 1).val := by
  unfold DotDims.rhsIdx
  rw [dif_neg (show ¬(1 : Fin S529x128.rank) ∈ dot_S3000x529_S529x128_S3000x128_1_0_0_1_n_n.rhsBatch by decide), dif_pos (show (1 : Fin S529x128.rank) ∈ dot_S3000x529_S529x128_S3000x128_1_0_0_1_n_n.rhsNonContracting by decide)]
  rfl

/-- Entry `(r, n)` of the product into the zero accumulator is `∑ k, A (r, k) · W (k, n)`. -/
theorem mm529_apply (A : FVec Ideal S3000x529 .bf16) (W : FVec Ideal S529x128 .bf16) (r : Fin 3000) (n : Fin 128) :
    matmul dot_S3000x529_S529x128_S3000x128_1_0_0_1_n_n none A W (constant (F := Ideal) S3000x128 .f32 0x00000000#32) (ix2 r n)
      = ∑ k : Fin 529, A (ix2 r k) * W (ix2 k n) := by
  simp only [matmul]
  rw [Ideal.matmul_constant_zero_apply, ← Equiv.sum_comp (contrEquiv1 dot_S3000x529_S529x128_S3000x128_1_0_0_1_n_n 529 rfl rfl).symm]
  refine Finset.sum_congr rfl fun k _ => ?_
  have hk := contrEquiv1_symm_val dot_S3000x529_S529x128_S3000x128_1_0_0_1_n_n 529 rfl rfl k
  have el : dot_S3000x529_S529x128_S3000x128_1_0_0_1_n_n.lhsIdx (ix2 r n) ((contrEquiv1 dot_S3000x529_S529x128_S3000x128_1_0_0_1_n_n 529 rfl rfl).symm k) = ix2 r k := funext fun a => Fin.ext (by
    match a with
    | ⟨0, _⟩ => exact lhs529_0 _ _
    | ⟨1, _⟩ => exact (lhs529_1 _ _).trans hk)
  have er : dot_S3000x529_S529x128_S3000x128_1_0_0_1_n_n.rhsIdx (ix2 r n) ((contrEquiv1 dot_S3000x529_S529x128_S3000x128_1_0_0_1_n_n 529 rfl rfl).symm k) = ix2 k n := funext fun a => Fin.ext (by
    match a with
    | ⟨0, _⟩ => exact (rhs529_0 _ _).trans hk
    | ⟨1, _⟩ => exact rhs529_1 _ _)
  rw [el, er]

/-! ### Casts that change nothing, and the bias row -/

/-- A cast of a block to its own shape is the block. -/
theorem pay2_eq (x : Vec Ideal S3000x128 .f32) : k0_pay2 (F := Ideal) x = x := shapeCast_self x _
theorem pay3_eq (x : Vec Ideal S3000x128 .f32) : k0_pay3 (F := Ideal) x = x := shapeCast_self x _
theorem pay4_eq (x : Vec Ideal S3000x17 .f32) : k0_pay4 (F := Ideal) x = x := shapeCast_self x _
/-- A 1×128 block flattened to 128 and cast back is the block. -/
theorem pay7_eq (b : Vec Ideal S1x128 .f32) : k0_pay7 (F := Ideal) b = b := shapeCast_shapeCast b _ _

/-- The bias block, flattened, cast back and repeated over the 3000 rows, reads `b (0, n)` at `(r, n)`. -/
theorem bias_apply (b : Vec Ideal S1x128 .f32) (r : Fin 3000) (n : Fin 128) :
    (broadcastTo S3000x128 (shapeCast S1x128 (shapeCast S128 b shapeCasts_S1x128_S128) shapeCasts_S128_S1x128) broadcasts_S1x128_S3000x128) (ix2 r n) = b (ix2 (0 : Fin 1) n) := by
  rw [shapeCast_shapeCast]
  exact broadcastTo_1b_ab_apply b _ r n

/-- The same for a bias block already cast back. -/
theorem bias_apply' (b : Vec Ideal S1x128 .f32) (r : Fin 3000) (n : Fin 128) :
    broadcastTo S3000x128 b broadcasts_S1x128_S3000x128 (ix2 r n) = b (ix2 (0 : Fin 1) n) :=
  broadcastTo_1b_ab_apply b _ r n

/-! ### The two layers at an index -/

/-- The output layer over pre-activations `z`: entry `(r, n)` is `(∑ k, silu (z (r, k)) · W (k, n)) + b (0, n)`. -/
theorem out_apply (z : FVec Ideal S3000x128 .f32) (w : Vec Ideal S128x128 .bf16) (b : Vec Ideal S1x128 .f32) (r : Fin 3000) (n : Fin 128) :
    addf (matmul dot_S3000x128_S128x128_S3000x128_1_0_0_1_n_n none (truncf .bf16 (mulf z (logistic z)) bitsLt_bf16_f32) (shapeCast S128x128 w shapeCasts_S128x128_S128x128 : FVec Ideal S128x128 .bf16) (constant (F := Ideal) S3000x128 .f32 0x00000000#32))
        (broadcastTo S3000x128 (shapeCast S1x128 (shapeCast S128 b shapeCasts_S1x128_S128) shapeCasts_S128_S1x128) broadcasts_S1x128_S3000x128) (ix2 r n)
      = (∑ k : Fin 128, silu (z (ix2 r k)) * w (ix2 k n)) + b (ix2 (0 : Fin 1) n) := by
  rw [addf_apply, mm128_apply, bias_apply, shapeCast_self]
  rfl

/-- The hidden layer over 401 features: entry `(r, k)` is `(∑ k', H (r, k') · W (k', k)) + b (0, k)`. -/
theorem hidden401_apply (H : FVec Ideal S3000x401 .f32) (w : Vec Ideal S401x128 .bf16) (b : Vec Ideal S1x128 .f32) (r : Fin 3000) (k : Fin 128) :
    addf (matmul dot_S3000x401_S401x128_S3000x128_1_0_0_1_n_n none (truncf .bf16 H bitsLt_bf16_f32) (shapeCast S401x128 w shapeCasts_S401x128_S401x128 : FVec Ideal S401x128 .bf16) (constant (F := Ideal) S3000x128 .f32 0x00000000#32))
        (broadcastTo S3000x128 (shapeCast S1x128 (shapeCast S128 b shapeCasts_S1x128_S128) shapeCasts_S128_S1x128) broadcasts_S1x128_S3000x128) (ix2 r k)
      = (∑ k' : Fin 401, H (ix2 r k') * w (ix2 k' k)) + b (ix2 (0 : Fin 1) k) := by
  rw [addf_apply, mm401_apply, bias_apply, shapeCast_self]
  rfl

/-- The hidden layer over 529 features, its bias block already cast back. -/
theorem hidden529_apply (H : FVec Ideal S3000x529 .f32) (w : Vec Ideal S529x128 .bf16) (b : Vec Ideal S1x128 .f32) (r : Fin 3000) (k : Fin 128) :
    addf (matmul dot_S3000x529_S529x128_S3000x128_1_0_0_1_n_n none (truncf .bf16 H bitsLt_bf16_f32) (shapeCast S529x128 w shapeCasts_S529x128_S529x128 : FVec Ideal S529x128 .bf16) (constant (F := Ideal) S3000x128 .f32 0x00000000#32))
        (broadcastTo S3000x128 b broadcasts_S1x128_S3000x128) (ix2 r k)
      = (∑ k' : Fin 529, H (ix2 r k') * w (ix2 k' k)) + b (ix2 (0 : Fin 1) k) := by
  rw [addf_apply, mm529_apply, bias_apply', shapeCast_self]
  rfl

/-! ### The block's arithmetic is the row network -/

/-- A 1×128 bias block read as a vector of 128. -/
def biasRow (b : Vec Ideal S1x128 .f32) : (⟨1, ![128]⟩ : Shape).Idx → EReal := fun i => b (ix2 (0 : Fin 1) (i 0))

/-- The first network on a block: the row network over the 401 concatenated features. -/
theorem pay5_eq (x0 x1 x2 : Vec Ideal S3000x128 .f32) (x3 : Vec Ideal S3000x17 .f32) (w1 : Vec Ideal S401x128 .bf16) (b1 : Vec Ideal S1x128 .f32) (w2 : Vec Ideal S128x128 .bf16) (b2 : Vec Ideal S1x128 .f32) :
    k0_pay5 (F := Ideal) x0 x1 x2 x3 w1 b1 w2 b2
      = rowsMlp (concatenate S3000x401 1 [⟨S3000x128, x0⟩, ⟨S3000x128, x1⟩, ⟨S3000x17, x3⟩, ⟨S3000x128, x2⟩] concatenates_S3000x128_S3000x128_S3000x17_S3000x128_S3000x401_d1) w1 (biasRow b1) w2 (biasRow b2) := by
  funext j
  obtain ⟨r, n, rfl⟩ : ∃ (r : Fin 3000) (n : Fin 128), j = ix2 r n := ⟨j 0, j 1, eq_ix2 j⟩
  unfold k0_pay5
  rw [pay2_eq, pay3_eq, pay4_eq, out_apply]
  show _ = (∑ k : Fin 128, silu (dense (fun k' => (concatenate S3000x401 1 [⟨S3000x128, x0⟩, ⟨S3000x128, x1⟩, ⟨S3000x17, x3⟩, ⟨S3000x128, x2⟩] concatenates_S3000x128_S3000x128_S3000x17_S3000x128_S3000x401_d1) (ix2 r k')) w1 (biasRow b1) k) * w2 (ix2 k n)) + b2 (ix2 (0 : Fin 1) n)
  refine congrArg (· + b2 (ix2 (0 : Fin 1) n)) (Finset.sum_congr rfl fun k _ => ?_)
  rw [hidden401_apply]
  rfl

/-- The second network on a block: the row network over the 529 concatenated features, the first network's output among them. -/
theorem pay1_eq (x0 x1 x2 : Vec Ideal S3000x128 .f32) (x3 : Vec Ideal S3000x17 .f32) (w1 : Vec Ideal S401x128 .bf16) (b1 : Vec Ideal S1x128 .f32) (w2 : Vec Ideal S128x128 .bf16) (b2 : Vec Ideal S1x128 .f32) (w3 : Vec Ideal S529x128 .bf16) (b3 : Vec Ideal S1x128 .f32) (w4 : Vec Ideal S128x128 .bf16) (b4 : Vec Ideal S1x128 .f32) :
    k0_pay1 (F := Ideal) (k0_pay6 x0 x1 x2 x3 w1 b1 w2 b2 w3) (k0_pay7 b3) w4 b4
      = rowsMlp (concatenate S3000x529 1 [⟨S3000x128, x0⟩, ⟨S3000x128, x1⟩, ⟨S3000x128, k0_pay5 (F := Ideal) x0 x1 x2 x3 w1 b1 w2 b2⟩, ⟨S3000x17, x3⟩, ⟨S3000x128, x2⟩] concatenates_S3000x128_S3000x128_S3000x128_S3000x17_S3000x128_S3000x529_d1) w3 (biasRow b3) w4 (biasRow b4) := by
  funext j
  obtain ⟨r, n, rfl⟩ : ∃ (r : Fin 3000) (n : Fin 128), j = ix2 r n := ⟨j 0, j 1, eq_ix2 j⟩
  unfold k0_pay1 k0_pay6
  rw [pay2_eq, pay3_eq, pay4_eq, pay7_eq, out_apply]
  show _ = (∑ k : Fin 128, silu (dense (fun k' => (concatenate S3000x529 1 [⟨S3000x128, x0⟩, ⟨S3000x128, x1⟩, ⟨S3000x128, k0_pay5 (F := Ideal) x0 x1 x2 x3 w1 b1 w2 b2⟩, ⟨S3000x17, x3⟩, ⟨S3000x128, x2⟩] concatenates_S3000x128_S3000x128_S3000x128_S3000x17_S3000x128_S3000x529_d1) (ix2 r k')) w3 (biasRow b3) k) * w4 (ix2 k n)) + b4 (ix2 (0 : Fin 1) n)
  refine congrArg (· + b4 (ix2 (0 : Fin 1) n)) (Finset.sum_congr rfl fun k _ => ?_)
  rw [hidden529_apply]
  rfl

end Cert.KernelIdeal.BlockMlp

end
-- ==== Proof.ConcatRows.lean ====
/-
  Laying feature rows side by side, a block at a time or all at once.

  Arrays here have two axes: axis 0 counts rows, axis 1 counts the features of a row.  Concatenating arrays of equal
  row count along axis 1 lays their rows side by side: row `r` of the result is row `r` of the first piece, then row
  `r` of the second, and so on.  An entry `(r, k)` of the result therefore lies in exactly one piece — the one whose span
  of columns holds `k` — at column `k` less the widths of the pieces before it, and in the SAME row `r`.

  Two consequences are proved.  A row laid out as `[a' | b' | cd' | f']` (widths 128, 128, 17, 128) whose 17-wide piece
  is itself a row of `[c | d]` (widths 1, 16) is, entry by entry, the row laid out as `[a | b | c | d | f]`
  (widths 128, 128, 1, 16, 128), as soon as the primed pieces' row `r` is the unprimed pieces' row `e`: concatenation
  along the feature axis is associative and never mixes rows.  The same holds with one more 128-wide piece in third
  place.  The numbers of rows on the two sides are unrelated (a block of rows against the whole array).
-/
import Idealize.ShloMosaic.Lib.Pipeline.Value
import Idealize.ShloMosaic.Lib.ValueIdx

namespace Cert.ConcatRows

open Idealize.ShloMosaic Idealize.ShloMosaic.ValueIdx

variable {α : Type}

/-- An entry of a side-by-side concatenation of row arrays: if the pieces before piece `k` have total width `pre` and
    column `c` is `pre + c'` with `c'` a column of piece `k`, then entry `(r, c)` of the whole is entry `(r, c')` of piece
    `k`.  The row coordinate is untouched because the concatenation runs along axis 1. -/
theorem concat_row_piece {N W w : Nat} (xs : List ((s : Shape) × (s.Idx → α)))
    (h : Shape.Concatenates (xs.map (·.1)) ⟨2, ![N, W]⟩ 1) (r : Fin N) (c : Fin W)
    (k : Nat) (hk : k < xs.length) (x : (⟨2, ![N, w]⟩ : Shape).Idx → α)
    (hxk : xs[k] = ⟨⟨2, ![N, w]⟩, x⟩) (pre : Nat)
    (hpre : (((xs.take k).map (·.1)).map fun s =>
      if h : s.rank = (⟨2, ![N, W]⟩ : Shape).rank then
        s.size ((1 : Fin (⟨2, ![N, W]⟩ : Shape).rank).cast h.symm) else 0).sum = pre)
    (c' : Fin w) (hc : pre + c'.val = c.val) :
    concatenate ⟨2, ![N, W]⟩ 1 xs h (ix2 r c) = x (ix2 r c') := by
  refine concatenate_apply_piece 1 xs h (ix2 r c) k hk _ x hxk rfl pre hpre (ix2 r c') ?_ ?_
  · -- off the concatenation axis there is only axis 0, the row, and both indices carry the same row
    intro b hb
    match b with
    | ⟨0, _⟩ => rfl
    | ⟨1, _⟩ => exact absurd rfl hb
  · exact hc

/-- The 17-wide row `[c | d]`: column 0 is `c`'s only column. -/
theorem pair17_left {E : Nat} (c : (⟨2, ![E, 1]⟩ : Shape).Idx → α) (d : (⟨2, ![E, 16]⟩ : Shape).Idx → α)
    (h2 : Shape.Concatenates [(⟨2, ![E, 1]⟩ : Shape), ⟨2, ![E, 16]⟩] ⟨2, ![E, 17]⟩ 1)
    (e : Fin E) (j : Fin 17) (hj : j.val < 1) :
    concatenate ⟨2, ![E, 17]⟩ 1 [⟨⟨2, ![E, 1]⟩, c⟩, ⟨⟨2, ![E, 16]⟩, d⟩] h2 (ix2 e j) = c (ix2 e ⟨j.val, hj⟩) :=
  concat_row_piece _ _ e j 0 (by simp) c rfl 0 rfl ⟨j.val, hj⟩ (by simp)

/-- The 17-wide row `[c | d]`: column `j ≥ 1` is column `j - 1` of `d`. -/
theorem pair17_right {E : Nat} (c : (⟨2, ![E, 1]⟩ : Shape).Idx → α) (d : (⟨2, ![E, 16]⟩ : Shape).Idx → α)
    (h2 : Shape.Concatenates [(⟨2, ![E, 1]⟩ : Shape), ⟨2, ![E, 16]⟩] ⟨2, ![E, 17]⟩ 1)
    (e : Fin E) (j : Fin 17) (hj : 1 ≤ j.val) :
    concatenate ⟨2, ![E, 17]⟩ 1 [⟨⟨2, ![E, 1]⟩, c⟩, ⟨⟨2, ![E, 16]⟩, d⟩] h2 (ix2 e j)
      = d (ix2 e ⟨j.val - 1, by omega⟩) :=
  concat_row_piece _ _ e j 1 (by simp) d rfl 1 rfl ⟨j.val - 1, by omega⟩ (by simp; omega)

/-- `[a' | b' | cd' | f']` against `[a | b | c | d | f]` on one row, with `cd'` a row of `[c | d]`.  The column `k` lies in
    one of five spans — `[0,128)`, `[128,256)`, `{256}`, `[257,273)`, `[273,401)` — and in each both sides read the same
    entry of the same piece. -/
theorem features401 {R E : Nat}
    (a' b' f' : (⟨2, ![R, 128]⟩ : Shape).Idx → α) (cd' : (⟨2, ![R, 17]⟩ : Shape).Idx → α)
    (a b f : (⟨2, ![E, 128]⟩ : Shape).Idx → α) (c : (⟨2, ![E, 1]⟩ : Shape).Idx → α) (d : (⟨2, ![E, 16]⟩ : Shape).Idx → α)
    (h4 : Shape.Concatenates [(⟨2, ![R, 128]⟩ : Shape), ⟨2, ![R, 128]⟩, ⟨2, ![R, 17]⟩, ⟨2, ![R, 128]⟩] ⟨2, ![R, 401]⟩ 1)
    (h2 : Shape.Concatenates [(⟨2, ![E, 1]⟩ : Shape), ⟨2, ![E, 16]⟩] ⟨2, ![E, 17]⟩ 1)
    (h5 : Shape.Concatenates [(⟨2, ![E, 128]⟩ : Shape), ⟨2, ![E, 128]⟩, ⟨2, ![E, 1]⟩, ⟨2, ![E, 16]⟩, ⟨2, ![E, 128]⟩] ⟨2, ![E, 401]⟩ 1)
    (r : Fin R) (e : Fin E)
    (ha : ∀ k : Fin 128, a' (ix2 r k) = a (ix2 e k)) (hb : ∀ k : Fin 128, b' (ix2 r k) = b (ix2 e k)) (hf : ∀ k : Fin 128, f' (ix2 r k) = f (ix2 e k))
    (hcd : ∀ j : Fin 17, cd' (ix2 r j) = concatenate ⟨2, ![E, 17]⟩ 1 [⟨⟨2, ![E, 1]⟩, c⟩, ⟨⟨2, ![E, 16]⟩, d⟩] h2 (ix2 e j))
    (k : Fin 401) :
    concatenate ⟨2, ![R, 401]⟩ 1 [⟨⟨2, ![R, 128]⟩, a'⟩, ⟨⟨2, ![R, 128]⟩, b'⟩, ⟨⟨2, ![R, 17]⟩, cd'⟩, ⟨⟨2, ![R, 128]⟩, f'⟩] h4 (ix2 r k)
      = concatenate ⟨2, ![E, 401]⟩ 1 [⟨⟨2, ![E, 128]⟩, a⟩, ⟨⟨2, ![E, 128]⟩, b⟩, ⟨⟨2, ![E, 1]⟩, c⟩, ⟨⟨2, ![E, 16]⟩, d⟩, ⟨⟨2, ![E, 128]⟩, f⟩] h5 (ix2 e k) := by
  have hk := k.isLt
  rcases Nat.lt_or_ge k.val 128 with h1 | h1
  · -- first piece on both sides
    refine Eq.trans (concat_row_piece _ _ r k 0 (by simp) a' rfl 0 rfl ⟨k.val, h1⟩ (by simp)) ?_
    refine Eq.trans (ha _) ?_
    exact Eq.symm (concat_row_piece _ _ e k 0 (by simp) a rfl 0 rfl ⟨k.val, h1⟩ (by simp))
  rcases Nat.lt_or_ge k.val 256 with h2' | h2'
  · -- second piece on both sides, 128 columns in
    refine Eq.trans (concat_row_piece _ _ r k 1 (by simp) b' rfl 128 rfl ⟨k.val - 128, by omega⟩ (by simp; omega)) ?_
    refine Eq.trans (hb _) ?_
    exact Eq.symm (concat_row_piece _ _ e k 1 (by simp) b rfl 128 rfl ⟨k.val - 128, by omega⟩ (by simp; omega))
  rcases Nat.lt_or_ge k.val 273 with h3 | h3
  · -- the 17-wide piece on the left, 256 columns in; on the right it is `c` (column 256) or `d` (from column 257)
    refine Eq.trans (concat_row_piece _ _ r k 2 (by simp) cd' rfl 256 rfl ⟨k.val - 256, by omega⟩ (by simp; omega)) ?_
    refine Eq.trans (hcd _) ?_
    rcases Nat.lt_or_ge k.val 257 with h4' | h4'
    · refine Eq.trans (pair17_left c d h2 e ⟨k.val - 256, by omega⟩ (by simp; omega)) ?_
      exact Eq.symm (concat_row_piece _ _ e k 2 (by simp) c rfl 256 rfl ⟨k.val - 256, by omega⟩ (by simp; omega))
    · refine Eq.trans (pair17_right c d h2 e ⟨k.val - 256, by omega⟩ (by simp; omega)) ?_
      refine Eq.trans ?_ (Eq.symm (concat_row_piece _ _ e k 3 (by simp) d rfl 257 rfl ⟨k.val - 257, by omega⟩ (by simp; omega)))
      -- column `(k - 256) - 1` of `d` is column `k - 257`
      exact congrArg (fun j => d (ix2 e j)) (Fin.ext (by show k.val - 256 - 1 = k.val - 257; omega))
  · -- last piece on both sides, 273 columns in
    refine Eq.trans (concat_row_piece _ _ r k 3 (by simp) f' rfl 273 rfl ⟨k.val - 273, by omega⟩ (by simp; omega)) ?_
    refine Eq.trans (hf _) ?_
    exact Eq.symm (concat_row_piece _ _ e k 4 (by simp) f rfl 273 rfl ⟨k.val - 273, by omega⟩ (by simp; omega))

/-- The same with one more 128-wide piece in third place: `[a' | b' | g' | cd' | f']` against `[a | b | g | c | d | f]`.
    The spans are `[0,128)`, `[128,256)`, `[256,384)`, `{384}`, `[385,401)`, `[401,529)`. -/
theorem features529 {R E : Nat}
    (a' b' g' f' : (⟨2, ![R, 128]⟩ : Shape).Idx → α) (cd' : (⟨2, ![R, 17]⟩ : Shape).Idx → α)
    (a b g f : (⟨2, ![E, 128]⟩ : Shape).Idx → α) (c : (⟨2, ![E, 1]⟩ : Shape).Idx → α) (d : (⟨2, ![E, 16]⟩ : Shape).Idx → α)
    (h5' : Shape.Concatenates [(⟨2, ![R, 128]⟩ : Shape), ⟨2, ![R, 128]⟩, ⟨2, ![R, 128]⟩, ⟨2, ![R, 17]⟩, ⟨2, ![R, 128]⟩] ⟨2, ![R, 529]⟩ 1)
    (h2 : Shape.Concatenates [(⟨2, ![E, 1]⟩ : Shape), ⟨2, ![E, 16]⟩] ⟨2, ![E, 17]⟩ 1)
    (h6 : Shape.Concatenates [(⟨2, ![E, 128]⟩ : Shape), ⟨2, ![E, 128]⟩, ⟨2, ![E, 128]⟩, ⟨2, ![E, 1]⟩, ⟨2, ![E, 16]⟩, ⟨2, ![E, 128]⟩] ⟨2, ![E, 529]⟩ 1)
    (r : Fin R) (e : Fin E)
    (ha : ∀ k : Fin 128, a' (ix2 r k) = a (ix2 e k)) (hb : ∀ k : Fin 128, b' (ix2 r k) = b (ix2 e k))
    (hg : ∀ k : Fin 128, g' (ix2 r k) = g (ix2 e k)) (hf : ∀ k : Fin 128, f' (ix2 r k) = f (ix2 e k))
    (hcd : ∀ j : Fin 17, cd' (ix2 r j) = concatenate ⟨2, ![E, 17]⟩ 1 [⟨⟨2, ![E, 1]⟩, c⟩, ⟨⟨2, ![E, 16]⟩, d⟩] h2 (ix2 e j))
    (k : Fin 529) :
    concatenate ⟨2, ![R, 529]⟩ 1 [⟨⟨2, ![R, 128]⟩, a'⟩, ⟨⟨2, ![R, 128]⟩, b'⟩, ⟨⟨2, ![R, 128]⟩, g'⟩, ⟨⟨2, ![R, 17]⟩, cd'⟩, ⟨⟨2, ![R, 128]⟩, f'⟩] h5' (ix2 r k)
      = concatenate ⟨2, ![E, 529]⟩ 1 [⟨⟨2, ![E, 128]⟩, a⟩, ⟨⟨2, ![E, 128]⟩, b⟩, ⟨⟨2, ![E, 128]⟩, g⟩, ⟨⟨2, ![E, 1]⟩, c⟩, ⟨⟨2, ![E, 16]⟩, d⟩, ⟨⟨2, ![E, 128]⟩, f⟩] h6 (ix2 e k) := by
  have hk := k.isLt
  rcases Nat.lt_or_ge k.val 128 with h1 | h1
  · -- first piece on both sides
    refine Eq.trans (concat_row_piece _ _ r k 0 (by simp) a' rfl 0 rfl ⟨k.val, h1⟩ (by simp)) ?_
    refine Eq.trans (ha _) ?_
    exact Eq.symm (concat_row_piece _ _ e k 0 (by simp) a rfl 0 rfl ⟨k.val, h1⟩ (by simp))
  rcases Nat.lt_or_ge k.val 256 with h2' | h2'
  · -- second piece on both sides, 128 columns in
    refine Eq.trans (concat_row_piece _ _ r k 1 (by simp) b' rfl 128 rfl ⟨k.val - 128, by omega⟩ (by simp; omega)) ?_
    refine Eq.trans (hb _) ?_
    exact Eq.symm (concat_row_piece _ _ e k 1 (by simp) b rfl 128 rfl ⟨k.val - 128, by omega⟩ (by simp; omega))
  rcases Nat.lt_or_ge k.val 384 with h3 | h3
  · -- third piece on both sides, 256 columns in
    refine Eq.trans (concat_row_piece _ _ r k 2 (by simp) g' rfl 256 rfl ⟨k.val - 256, by omega⟩ (by simp; omega)) ?_
    refine Eq.trans (hg _) ?_
    exact Eq.symm (concat_row_piece _ _ e k 2 (by simp) g rfl 256 rfl ⟨k.val - 256, by omega⟩ (by simp; omega))
  rcases Nat.lt_or_ge k.val 401 with h4 | h4
  · -- the 17-wide piece on the left, 384 columns in; on the right it is `c` (column 384) or `d` (from column 385)
    refine Eq.trans (concat_row_piece _ _ r k 3 (by simp) cd' rfl 384 rfl ⟨k.val - 384, by omega⟩ (by simp; omega)) ?_
    refine Eq.trans (hcd _) ?_
    rcases Nat.lt_or_ge k.val 385 with h5 | h5
    · refine Eq.trans (pair17_left c d h2 e ⟨k.val - 384, by omega⟩ (by simp; omega)) ?_
      exact Eq.symm (concat_row_piece _ _ e k 3 (by simp) c rfl 384 rfl ⟨k.val - 384, by omega⟩ (by simp; omega))
    · refine Eq.trans (pair17_right c d h2 e ⟨k.val - 384, by omega⟩ (by simp; omega)) ?_
      refine Eq.trans ?_ (Eq.symm (concat_row_piece _ _ e k 4 (by simp) d rfl 385 rfl ⟨k.val - 385, by omega⟩ (by simp; omega)))
      -- column `(k - 384) - 1` of `d` is column `k - 385`
      exact congrArg (fun j => d (ix2 e j)) (Fin.ext (by show k.val - 384 - 1 = k.val - 385; omega))
  · -- last piece on both sides, 401 columns in
    refine Eq.trans (concat_row_piece _ _ r k 4 (by simp) f' rfl 401 rfl ⟨k.val - 401, by omega⟩ (by simp; omega)) ?_
    refine Eq.trans (hf _) ?_
    exact Eq.symm (concat_row_piece _ _ e k 5 (by simp) f rfl 401 rfl ⟨k.val - 401, by omega⟩ (by simp; omega))

end Cert.ConcatRows
-- ==== Proof.Blocks.lean ====
/-
  From the blocks to the whole arrays.

  The kernel walks the 300000 edges in 100 steps of 3000 rows.  At step `t` it is handed rows `3000 t … 3000 t + 2999`
  of the four row arrays (sender features, receiver features, edge features, and the 17 geometric columns) and the
  whole of every weight and bias, and it writes rows `3000 t … 3000 t + 2999` of both results.  Row `r` of the block is
  row `3000 t + r` of the array.  The network does not mix rows (`RowMlp.rowsMlp_congr`), and laying a row's features
  side by side in a block or in the whole array gives the same row (`ConcatRows.features401`, `features529`); so what
  step `t` writes is block `t` of ONE whole-array function, `edgeMessage` for the first result and `edgeOut` for the
  second, and the 100 blocks tile the array: after the run each result IS that function.
-/
import proofs.«415486_j17815524344038_2_alg».proof.Proof.Gen.KernelIdeal.Value
import proofs.«415486_j17815524344038_2_alg».proof.Proof.RowMlp
import proofs.«415486_j17815524344038_2_alg».proof.Proof.BlockMlp
import proofs.«415486_j17815524344038_2_alg».proof.Proof.ConcatRows
import Idealize.ShloMosaic.Lib.Pipeline.Value
import Idealize.ShloMosaic.Lib.ValueIdx

set_option maxRecDepth 16384

noncomputable section

namespace Cert.KernelIdeal.Blocks

open Cert.KernelIdeal Cert.KernelIdeal.Gen Cert.KernelIdeal.BlockMlp Cert.RowMlp
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The arrays as the region finds them, and the blocks, at their literal types -/

abbrev senderFeat (c : Dev nD) : Vec Ideal S300000x128 .f32 := V m c main_v4
abbrev receiverFeat (c : Dev nD) : Vec Ideal S300000x128 .f32 := V m c main_v5
abbrev edgeFeat (c : Dev nD) : Vec Ideal S300000x128 .f32 := V m c main_arg2
abbrev geom (c : Dev nD) : Vec Ideal S300000x17 .f32 := V m c main_v29
abbrev dist (c : Dev nD) : Vec Ideal S300000x1 .f32 := V m c main_v12
abbrev radial (c : Dev nD) : Vec Ideal S300000x16 .f32 := V m c main_v28
abbrev w1e (c : Dev nD) : Vec Ideal S401x128 .bf16 := V m c main_v30
abbrev b1e (c : Dev nD) : Vec Ideal S1x128 .f32 := V m c main_v34
abbrev w2e (c : Dev nD) : Vec Ideal S128x128 .bf16 := V m c main_v31
abbrev b2e (c : Dev nD) : Vec Ideal S1x128 .f32 := V m c main_v35
abbrev w1b (c : Dev nD) : Vec Ideal S529x128 .bf16 := V m c main_v32
abbrev b1b (c : Dev nD) : Vec Ideal S1x128 .f32 := V m c main_v36
abbrev w2b (c : Dev nD) : Vec Ideal S128x128 .bf16 := V m c main_v33
abbrev b2b (c : Dev nD) : Vec Ideal S1x128 .f32 := V m c main_v37

abbrev blk0 (c : Dev nD) (t : Fin cfg0.N) : Vec Ideal S3000x128 .f32 := iblk m c 0 t
abbrev blk1 (c : Dev nD) (t : Fin cfg0.N) : Vec Ideal S3000x128 .f32 := iblk m c 1 t
abbrev blk2 (c : Dev nD) (t : Fin cfg0.N) : Vec Ideal S3000x128 .f32 := iblk m c 2 t
abbrev blk3 (c : Dev nD) (t : Fin cfg0.N) : Vec Ideal S3000x17 .f32 := iblk m c 3 t
abbrev blk4 (c : Dev nD) (t : Fin cfg0.N) : Vec Ideal S401x128 .bf16 := iblk m c 4 t
abbrev blk5 (c : Dev nD) (t : Fin cfg0.N) : Vec Ideal S1x128 .f32 := iblk m c 5 t
abbrev blk6 (c : Dev nD) (t : Fin cfg0.N) : Vec Ideal S128x128 .bf16 := iblk m c 6 t
abbrev blk7 (c : Dev nD) (t : Fin cfg0.N) : Vec Ideal S1x128 .f32 := iblk m c 7 t
abbrev blk8 (c : Dev nD) (t : Fin cfg0.N) : Vec Ideal S529x128 .bf16 := iblk m c 8 t
abbrev blk9 (c : Dev nD) (t : Fin cfg0.N) : Vec Ideal S1x128 .f32 := iblk m c 9 t
abbrev blk10 (c : Dev nD) (t : Fin cfg0.N) : Vec Ideal S128x128 .bf16 := iblk m c 10 t
abbrev blk11 (c : Dev nD) (t : Fin cfg0.N) : Vec Ideal S1x128 .f32 := iblk m c 11 t

/-! ## The two results as whole-array functions -/

/-- The side conditions of laying whole arrays side by side (true of the literal shapes; whoever uses the
    definitions below supplies them). -/
structure Widths : Prop where
  h401 : Shape.Concatenates [S300000x128, S300000x128, S300000x1, S300000x16, S300000x128] ⟨2, ![300000, 401]⟩ 1
  h529 : Shape.Concatenates [S300000x128, S300000x128, S300000x128, S300000x1, S300000x16, S300000x128] ⟨2, ![300000, 529]⟩ 1

variable (hw : Widths)

/-- The first result: every edge's 401 features through the first network. -/
def edgeMessage (c : Dev nD) : S300000x128.Idx → EReal :=
  rowsMlp (concatenate ⟨2, ![300000, 401]⟩ 1 [⟨S300000x128, senderFeat m c⟩, ⟨S300000x128, receiverFeat m c⟩,
      ⟨S300000x1, dist m c⟩, ⟨S300000x16, radial m c⟩, ⟨S300000x128, edgeFeat m c⟩] hw.h401)
    (w1e m c) (biasRow (b1e m c)) (w2e m c) (biasRow (b2e m c))

/-- The second result: every edge's 529 features, the first result among them, through the second network. -/
def edgeOut (c : Dev nD) : S300000x128.Idx → EReal :=
  rowsMlp (concatenate ⟨2, ![300000, 529]⟩ 1 [⟨S300000x128, senderFeat m c⟩, ⟨S300000x128, receiverFeat m c⟩,
      ⟨S300000x128, edgeMessage m hw c⟩, ⟨S300000x1, dist m c⟩, ⟨S300000x16, radial m c⟩, ⟨S300000x128, edgeFeat m c⟩] hw.h529)
    (w1b m c) (biasRow (b1b m c)) (w2b m c) (biasRow (b2b m c))

/-! ## Where each window's block sits -/

theorem hz : (![0, 0] : Fin 2 → Nat) = fun _ => 0 := funext fun a => by fin_cases a <;> rfl

/-- The printed index maps, decided over the 100 points: the six row windows sit at block `(t, 0)`, the eight weight
    and bias windows at block `(0, 0)`. -/
theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx12 : ∀ t : Fin cfg0.N, win0_12.index t (0 : Fin 2) = t.val ∧ win0_12.index t (1 : Fin 2) = 0 :=
  (by decide +kernel : ∀ t : Fin grid0.N, _)
theorem idx13 : ∀ t : Fin cfg0.N, win0_13.index t (0 : Fin 2) = t.val ∧ win0_13.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)

theorem t_lt (t : Fin cfg0.N) : t.val < 100 := t.isLt

/-- Row `r` of block `t` is row `3000 t + r` of the array. -/
def row (t : Fin cfg0.N) (r : Fin 3000) : Fin 300000 := ⟨3000 * t.val + r.val, by have := t_lt t; have := r.isLt; omega⟩

/-! ## The blocks read through the arrays -/

theorem blk0_apply (c : Dev nD) (t : Fin cfg0.N) (r : Fin 3000) (k : Fin 128) :
    blk0 m c t (ix2 r k) = senderFeat m c (ix2 (row t r) k) := by
  show V m c main_v4 (((cfg0.win 0).blk t).view.emb (ix2 r k)) = V m c main_v4 (ix2 (row t r) k)
  refine congrArg (V m c main_v4) (funext fun a => Fin.ext ?_)
  obtain ⟨e0, e1⟩ := idx0 t
  match a with
  | ⟨0, _⟩ => show win0_0.index t (0 : Fin 2) * 3000 + 1 * r.val = 3000 * t.val + r.val; omega
  | ⟨1, _⟩ => show win0_0.index t (1 : Fin 2) * 128 + 1 * k.val = k.val; omega

theorem blk1_apply (c : Dev nD) (t : Fin cfg0.N) (r : Fin 3000) (k : Fin 128) :
    blk1 m c t (ix2 r k) = receiverFeat m c (ix2 (row t r) k) := by
  show V m c main_v5 (((cfg0.win 1).blk t).view.emb (ix2 r k)) = V m c main_v5 (ix2 (row t r) k)
  refine congrArg (V m c main_v5) (funext fun a => Fin.ext ?_)
  obtain ⟨e0, e1⟩ := idx1 t
  match a with
  | ⟨0, _⟩ => show win0_1.index t (0 : Fin 2) * 3000 + 1 * r.val = 3000 * t.val + r.val; omega
  | ⟨1, _⟩ => show win0_1.index t (1 : Fin 2) * 128 + 1 * k.val = k.val; omega

theorem blk2_apply (c : Dev nD) (t : Fin cfg0.N) (r : Fin 3000) (k : Fin 128) :
    blk2 m c t (ix2 r k) = edgeFeat m c (ix2 (row t r) k) := by
  show V m c main_arg2 (((cfg0.win 2).blk t).view.emb (ix2 r k)) = V m c main_arg2 (ix2 (row t r) k)
  refine congrArg (V m c main_arg2) (funext fun a => Fin.ext ?_)
  obtain ⟨e0, e1⟩ := idx2 t
  match a with
  | ⟨0, _⟩ => show win0_2.index t (0 : Fin 2) * 3000 + 1 * r.val = 3000 * t.val + r.val; omega
  | ⟨1, _⟩ => show win0_2.index t (1 : Fin 2) * 128 + 1 * k.val = k.val; omega

theorem blk3_apply (c : Dev nD) (t : Fin cfg0.N) (r : Fin 3000) (j : Fin 17) :
    blk3 m c t (ix2 r j) = geom m c (ix2 (row t r) j) := by
  show V m c main_v29 (((cfg0.win 3).blk t).view.emb (ix2 r j)) = V m c main_v29 (ix2 (row t r) j)
  refine congrArg (V m c main_v29) (funext fun a => Fin.ext ?_)
  obtain ⟨e0, e1⟩ := idx3 t
  match a with
  | ⟨0, _⟩ => show win0_3.index t (0 : Fin 2) * 3000 + 1 * r.val = 3000 * t.val + r.val; omega
  | ⟨1, _⟩ => show win0_3.index t (1 : Fin 2) * 17 + 1 * j.val = j.val; omega

/-! ## The weight and bias windows: one block, the whole array -/

theorem blk4_eq (c : Dev nD) (t : Fin cfg0.N) : blk4 m c t = w1e m c := by
  funext y
  show V m c main_v30 (((cfg0.win 4).blk t).view.emb y) = V m c main_v30 y
  refine congrArg (V m c main_v30) (funext fun a => Fin.ext ?_)
  obtain ⟨e0, e1⟩ := idx4 t
  match a with
  | ⟨0, _⟩ => show win0_4.index t (0 : Fin 2) * 401 + 1 * (y 0).val = (y 0).val; omega
  | ⟨1, _⟩ => show win0_4.index t (1 : Fin 2) * 128 + 1 * (y 1).val = (y 1).val; omega

theorem blk5_eq (c : Dev nD) (t : Fin cfg0.N) : blk5 m c t = b1e m c := by
  funext y
  show V m c main_v34 (((cfg0.win 5).blk t).view.emb y) = V m c main_v34 y
  refine congrArg (V m c main_v34) (funext fun a => Fin.ext ?_)
  obtain ⟨e0, e1⟩ := idx5 t
  match a with
  | ⟨0, _⟩ => show win0_5.index t (0 : Fin 2) * 1 + 1 * (y 0).val = (y 0).val; omega
  | ⟨1, _⟩ => show win0_5.index t (1 : Fin 2) * 128 + 1 * (y 1).val = (y 1).val; omega

theorem blk6_eq (c : Dev nD) (t : Fin cfg0.N) : blk6 m c t = w2e m c := by
  funext y
  show V m c main_v31 (((cfg0.win 6).blk t).view.emb y) = V m c main_v31 y
  refine congrArg (V m c main_v31) (funext fun a => Fin.ext ?_)
  obtain ⟨e0, e1⟩ := idx6 t
  match a with
  | ⟨0, _⟩ => show win0_6.index t (0 : Fin 2) * 128 + 1 * (y 0).val = (y 0).val; omega
  | ⟨1, _⟩ => show win0_6.index t (1 : Fin 2) * 128 + 1 * (y 1).val = (y 1).val; omega

theorem blk7_eq (c : Dev nD) (t : Fin cfg0.N) : blk7 m c t = b2e m c := by
  funext y
  show V m c main_v35 (((cfg0.win 7).blk t).view.emb y) = V m c main_v35 y
  refine congrArg (V m c main_v35) (funext fun a => Fin.ext ?_)
  obtain ⟨e0, e1⟩ := idx7 t
  match a with
  | ⟨0, _⟩ => show win0_7.index t (0 : Fin 2) * 1 + 1 * (y 0).val = (y 0).val; omega
  | ⟨1, _⟩ => show win0_7.index t (1 : Fin 2) * 128 + 1 * (y 1).val = (y 1).val; omega

theorem blk8_eq (c : Dev nD) (t : Fin cfg0.N) : blk8 m c t = w1b m c := by
  funext y
  show V m c main_v32 (((cfg0.win 8).blk t).view.emb y) = V m c main_v32 y
  refine congrArg (V m c main_v32) (funext fun a => Fin.ext ?_)
  obtain ⟨e0, e1⟩ := idx8 t
  match a with
  | ⟨0, _⟩ => show win0_8.index t (0 : Fin 2) * 529 + 1 * (y 0).val = (y 0).val; omega
  | ⟨1, _⟩ => show win0_8.index t (1 : Fin 2) * 128 + 1 * (y 1).val = (y 1).val; omega

theorem blk9_eq (c : Dev nD) (t : Fin cfg0.N) : blk9 m c t = b1b m c := by
  funext y
  show V m c main_v36 (((cfg0.win 9).blk t).view.emb y) = V m c main_v36 y
  refine congrArg (V m c main_v36) (funext fun a => Fin.ext ?_)
  obtain ⟨e0, e1⟩ := idx9 t
  match a with
  | ⟨0, _⟩ => show win0_9.index t (0 : Fin 2) * 1 + 1 * (y 0).val = (y 0).val; omega
  | ⟨1, _⟩ => show win0_9.index t (1 : Fin 2) * 128 + 1 * (y 1).val = (y 1).val; omega

theorem blk10_eq (c : Dev nD) (t : Fin cfg0.N) : blk10 m c t = w2b m c := by
  funext y
  show V m c main_v33 (((cfg0.win 10).blk t).view.emb y) = V m c main_v33 y
  refine congrArg (V m c main_v33) (funext fun a => Fin.ext ?_)
  obtain ⟨e0, e1⟩ := idx10 t
  match a with
  | ⟨0, _⟩ => show win0_10.index t (0 : Fin 2) * 128 + 1 * (y 0).val = (y 0).val; omega
  | ⟨1, _⟩ => show win0_10.index t (1 : Fin 2) * 128 + 1 * (y 1).val = (y 1).val; omega

theorem blk11_eq (c : Dev nD) (t : Fin cfg0.N) : blk11 m c t = b2b m c := by
  funext y
  show V m c main_v37 (((cfg0.win 11).blk t).view.emb y) = V m c main_v37 y
  refine congrArg (V m c main_v37) (funext fun a => Fin.ext ?_)
  obtain ⟨e0, e1⟩ := idx11 t
  match a with
  | ⟨0, _⟩ => show win0_11.index t (0 : Fin 2) * 1 + 1 * (y 0).val = (y 0).val; omega
  | ⟨1, _⟩ => show win0_11.index t (1 : Fin 2) * 128 + 1 * (y 1).val = (y 1).val; omega

/-! ## A block's feature rows are the array's -/

/-- The 17 geometric columns are the edge length followed by the 16 radial values (a fact about the kernel program's
    host operations, supplied by whoever uses the lemmas below). -/
def GeomSplit (c : Dev nD) : Prop :=
  geom m c = concatenate S300000x17 1 [⟨S300000x1, dist m c⟩, ⟨S300000x16, radial m c⟩] concatenates_S300000x1_S300000x16_S300000x17_d1

/-- Row `r` of block `t`'s 401 features is row `3000 t + r` of the whole feature array. -/
theorem feat401_row (c : Dev nD) (hg : GeomSplit m c) (t : Fin cfg0.N) (r : Fin 3000) (k : Fin 401) :
    concatenate S3000x401 1 [⟨S3000x128, blk0 m c t⟩, ⟨S3000x128, blk1 m c t⟩, ⟨S3000x17, blk3 m c t⟩, ⟨S3000x128, blk2 m c t⟩]
        concatenates_S3000x128_S3000x128_S3000x17_S3000x128_S3000x401_d1 (ix2 r k)
      = concatenate ⟨2, ![300000, 401]⟩ 1 [⟨S300000x128, senderFeat m c⟩, ⟨S300000x128, receiverFeat m c⟩,
          ⟨S300000x1, dist m c⟩, ⟨S300000x16, radial m c⟩, ⟨S300000x128, edgeFeat m c⟩] hw.h401 (ix2 (row t r) k) :=
  Cert.ConcatRows.features401 (blk0 m c t) (blk1 m c t) (blk2 m c t) (blk3 m c t) (senderFeat m c) (receiverFeat m c)
    (edgeFeat m c) (dist m c) (radial m c) concatenates_S3000x128_S3000x128_S3000x17_S3000x128_S3000x401_d1
    concatenates_S300000x1_S300000x16_S300000x17_d1 hw.h401 r (row t r) (blk0_apply m c t r) (blk1_apply m c t r)
    (blk2_apply m c t r) (fun j => (blk3_apply m c t r j).trans (congrFun hg _)) k

/-- Row `r` of what the first network makes of block `t` is row `3000 t + r` of `edgeMessage`. -/
theorem message_row (c : Dev nD) (hg : GeomSplit m c) (t : Fin cfg0.N) (r : Fin 3000) (n : Fin 128) :
    k0_pay5 (F := Ideal) (blk0 m c t) (blk1 m c t) (blk2 m c t) (blk3 m c t) (blk4 m c t) (blk5 m c t) (blk6 m c t) (blk7 m c t) (ix2 r n)
      = edgeMessage m hw c (ix2 (row t r) n) := by
  rw [pay5_eq, blk4_eq, blk5_eq, blk6_eq, blk7_eq]
  exact rowsMlp_congr _ _ _ _ _ _ r (row t r) n (feat401_row m hw c hg t r)

/-- Row `r` of block `t`'s 529 features is row `3000 t + r` of the whole feature array. -/
theorem feat529_row (c : Dev nD) (hg : GeomSplit m c) (t : Fin cfg0.N) (r : Fin 3000) (k : Fin 529) :
    concatenate S3000x529 1 [⟨S3000x128, blk0 m c t⟩, ⟨S3000x128, blk1 m c t⟩,
        ⟨S3000x128, k0_pay5 (F := Ideal) (blk0 m c t) (blk1 m c t) (blk2 m c t) (blk3 m c t) (blk4 m c t) (blk5 m c t) (blk6 m c t) (blk7 m c t)⟩,
        ⟨S3000x17, blk3 m c t⟩, ⟨S3000x128, blk2 m c t⟩]
        concatenates_S3000x128_S3000x128_S3000x128_S3000x17_S3000x128_S3000x529_d1 (ix2 r k)
      = concatenate ⟨2, ![300000, 529]⟩ 1 [⟨S300000x128, senderFeat m c⟩, ⟨S300000x128, receiverFeat m c⟩,
          ⟨S300000x128, edgeMessage m hw c⟩, ⟨S300000x1, dist m c⟩, ⟨S300000x16, radial m c⟩, ⟨S300000x128, edgeFeat m c⟩] hw.h529 (ix2 (row t r) k) :=
  Cert.ConcatRows.features529 (blk0 m c t) (blk1 m c t)
    (k0_pay5 (F := Ideal) (blk0 m c t) (blk1 m c t) (blk2 m c t) (blk3 m c t) (blk4 m c t) (blk5 m c t) (blk6 m c t) (blk7 m c t))
    (blk2 m c t) (blk3 m c t) (senderFeat m c) (receiverFeat m c) (edgeMessage m hw c) (edgeFeat m c) (dist m c) (radial m c)
    concatenates_S3000x128_S3000x128_S3000x128_S3000x17_S3000x128_S3000x529_d1
    concatenates_S300000x1_S300000x16_S300000x17_d1 hw.h529 r (row t r) (blk0_apply m c t r) (blk1_apply m c t r)
    (message_row m hw c hg t r) (blk2_apply m c t r) (fun j => (blk3_apply m c t r j).trans (congrFun hg _)) k

/-! ## What a step writes back is a block of the whole-array function -/

theorem emb12 (t : Fin cfg0.N) (r : Fin 3000) (n : Fin 128) : ((cfg0.win 12).blk t).view.emb (ix2 r n) = ix2 (row t r) n := by
  funext a; apply Fin.ext
  obtain ⟨e0, e1⟩ := idx12 t
  match a with
  | ⟨0, _⟩ => show win0_12.index t (0 : Fin 2) * 3000 + 1 * r.val = 3000 * t.val + r.val; omega
  | ⟨1, _⟩ => show win0_12.index t (1 : Fin 2) * 128 + 1 * n.val = n.val; omega

theorem emb13 (t : Fin cfg0.N) (r : Fin 3000) (n : Fin 128) : ((cfg0.win 13).blk t).view.emb (ix2 r n) = ix2 (row t r) n := by
  funext a; apply Fin.ext
  obtain ⟨e0, e1⟩ := idx13 t
  match a with
  | ⟨0, _⟩ => show win0_13.index t (0 : Fin 2) * 3000 + 1 * r.val = 3000 * t.val + r.val; omega
  | ⟨1, _⟩ => show win0_13.index t (1 : Fin 2) * 128 + 1 * n.val = n.val; omega

/-- The body's result for the first output window is the first network over the block's features. -/
theorem out12_eq (c : Dev nD) (t : Fin cfg0.N) :
    out0_12 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
      = k0_pay5 (F := Ideal) (blk0 m c t) (blk1 m c t) (blk2 m c t) (blk3 m c t) (blk4 m c t) (blk5 m c t) (blk6 m c t) (blk7 m c t) := by
  unfold out0_12
  rw [View.canon_unit_zero hz]
  simp only [View.ld_unit_zero (S := S3000x128) hz, View.ld_unit_zero (S := S3000x17) hz, View.ld_unit_zero (S := S401x128) hz,
    View.ld_unit_zero (S := S1x128) hz, View.ld_unit_zero (S := S128x128) hz]

/-- The body's result for the second output window is the second network over the block's features. -/
theorem out13_eq (c : Dev nD) (t : Fin cfg0.N) :
    out0_13 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
      = k0_pay1 (F := Ideal) (k0_pay6 (blk0 m c t) (blk1 m c t) (blk2 m c t) (blk3 m c t) (blk4 m c t) (blk5 m c t) (blk6 m c t) (blk7 m c t) (blk8 m c t))
          (k0_pay7 (blk9 m c t)) (blk10 m c t) (blk11 m c t) := by
  unfold out0_13
  rw [View.canon_unit_zero hz]
  simp only [View.ld_unit_zero (S := S3000x128) hz, View.ld_unit_zero (S := S3000x17) hz, View.ld_unit_zero (S := S401x128) hz,
    View.ld_unit_zero (S := S1x128) hz, View.ld_unit_zero (S := S128x128) hz, View.ld_unit_zero (S := S529x128) hz]

/-- WHAT STEP `t` WRITES BACK to the first result is block `t` of `edgeMessage`. -/
theorem flushed12_eq (c : Dev nD) (hg : GeomSplit m c) (t : Fin cfg0.N) :
    (dats m 0 c).flushed 12 t = ((cfg0.win 12).blk t).view.read (Elt Ideal) (edgeMessage m hw c) := by
  rw [Value.flushed12, out12_eq]
  funext y
  obtain ⟨r, n, rfl⟩ : ∃ (r : Fin 3000) (n : Fin 128), y = ix2 r n := ⟨y 0, y 1, eq_ix2 y⟩
  show k0_pay5 (F := Ideal) (blk0 m c t) (blk1 m c t) (blk2 m c t) (blk3 m c t) (blk4 m c t) (blk5 m c t) (blk6 m c t) (blk7 m c t) (ix2 r n)
    = edgeMessage m hw c (((cfg0.win 12).blk t).view.emb (ix2 r n))
  rw [emb12]
  exact message_row m hw c hg t r n

/-- WHAT STEP `t` WRITES BACK to the second result is block `t` of `edgeOut`. -/
theorem flushed13_eq (c : Dev nD) (hg : GeomSplit m c) (t : Fin cfg0.N) :
    (dats m 0 c).flushed 13 t = ((cfg0.win 13).blk t).view.read (Elt Ideal) (edgeOut m hw c) := by
  rw [Value.flushed13, out13_eq]
  funext y
  obtain ⟨r, n, rfl⟩ : ∃ (r : Fin 3000) (n : Fin 128), y = ix2 r n := ⟨y 0, y 1, eq_ix2 y⟩
  show k0_pay1 (F := Ideal) (k0_pay6 (blk0 m c t) (blk1 m c t) (blk2 m c t) (blk3 m c t) (blk4 m c t) (blk5 m c t) (blk6 m c t) (blk7 m c t) (blk8 m c t))
      (k0_pay7 (blk9 m c t)) (blk10 m c t) (blk11 m c t) (ix2 r n)
    = edgeOut m hw c (((cfg0.win 13).blk t).view.emb (ix2 r n))
  rw [emb13, pay1_eq, blk8_eq, blk9_eq, blk10_eq, blk11_eq]
  exact rowsMlp_congr _ _ _ _ _ _ r (row t r) n (feat529_row m hw c hg t r)

/-! ## The 100 blocks tile the array -/

theorem mem_blk12 (t : Fin cfg0.N) (i : S300000x128.Idx) :
    i ∈ ((cfg0.win 12).blk t).view.set ↔ ∀ a : Fin 2, win0_12.index t a * S3000x128.size a ≤ (i a).val ∧ (i a).val < win0_12.index t a * S3000x128.size a + S3000x128.size a := by
  show i ∈ ((View.whole main_v38_0).slice (win0_12.rect t)).set ↔ _
  rw [View.set_slice_whole, Rect.mem_set_unit]
  exact Iff.rfl

theorem mem_blk13 (t : Fin cfg0.N) (i : S300000x128.Idx) :
    i ∈ ((cfg0.win 13).blk t).view.set ↔ ∀ a : Fin 2, win0_13.index t a * S3000x128.size a ≤ (i a).val ∧ (i a).val < win0_13.index t a * S3000x128.size a + S3000x128.size a := by
  show i ∈ ((View.whole main_v38_1).slice (win0_13.rect t)).set ↔ _
  rw [View.set_slice_whole, Rect.mem_set_unit]
  exact Iff.rfl

/-- Row `e` lies in the block of step `e / 3000`. -/
theorem cover12 (i : S300000x128.Idx) : ∃ t : Fin cfg0.N, (cfg0.win 12).flush t = true ∧ i ∈ ((cfg0.win 12).blk t).view.set := by
  have hi0 : (i 0).val < 300000 := (i 0).isLt
  have hi1 : (i 1).val < 128 := (i 1).isLt
  refine ⟨⟨(i 0).val / 3000, by show (i 0).val / 3000 < 100; omega⟩, flush0_12 _, ?_⟩
  rw [mem_blk12]
  obtain ⟨e0, e1⟩ := idx12 ⟨(i 0).val / 3000, by show (i 0).val / 3000 < 100; omega⟩
  intro a
  match a with
  | ⟨0, _⟩ => show win0_12.index _ (0 : Fin 2) * 3000 ≤ (i 0).val ∧ (i 0).val < win0_12.index _ (0 : Fin 2) * 3000 + 3000; rw [e0]; show (i 0).val / 3000 * 3000 ≤ (i 0).val ∧ (i 0).val < (i 0).val / 3000 * 3000 + 3000; omega
  | ⟨1, _⟩ => show win0_12.index _ (1 : Fin 2) * 128 ≤ (i 1).val ∧ (i 1).val < win0_12.index _ (1 : Fin 2) * 128 + 128; rw [e1]; omega

theorem cover13 (i : S300000x128.Idx) : ∃ t : Fin cfg0.N, (cfg0.win 13).flush t = true ∧ i ∈ ((cfg0.win 13).blk t).view.set := by
  have hi0 : (i 0).val < 300000 := (i 0).isLt
  have hi1 : (i 1).val < 128 := (i 1).isLt
  refine ⟨⟨(i 0).val / 3000, by show (i 0).val / 3000 < 100; omega⟩, flush0_13 _, ?_⟩
  rw [mem_blk13]
  obtain ⟨e0, e1⟩ := idx13 ⟨(i 0).val / 3000, by show (i 0).val / 3000 < 100; omega⟩
  intro a
  match a with
  | ⟨0, _⟩ => show win0_13.index _ (0 : Fin 2) * 3000 ≤ (i 0).val ∧ (i 0).val < win0_13.index _ (0 : Fin 2) * 3000 + 3000; rw [e0]; show (i 0).val / 3000 * 3000 ≤ (i 0).val ∧ (i 0).val < (i 0).val / 3000 * 3000 + 3000; omega
  | ⟨1, _⟩ => show win0_13.index _ (1 : Fin 2) * 128 ≤ (i 1).val ∧ (i 1).val < win0_13.index _ (1 : Fin 2) * 128 + 128; rw [e1]; omega

/-- AFTER THE RUN the first result array is `edgeMessage`, the second `edgeOut`. -/
theorem final12 (c : Dev nD) (hg : GeomSplit m c) : (dats m 0 c).arrAt 12 cfg0.N = edgeMessage m hw c :=
  (dats m 0 c).arrAt_eq_of_cover 12 (edgeMessage m hw c) (fun t _ => flushed12_eq m hw c hg t) cover12

theorem final13 (c : Dev nD) (hg : GeomSplit m c) : (dats m 0 c).arrAt 13 cfg0.N = edgeOut m hw c :=
  (dats m 0 c).arrAt_eq_of_cover 13 (edgeOut m hw c) (fun t _ => flushed13_eq m hw c hg t) cover13

end Cert.KernelIdeal.Blocks

end
-- ==== Proof.TakeDefs.lean ====
/-
  The kernel program's table look-ups, as pure functions of the table and the index vector.

  Before its one region the kernel program looks rows up four times — sender and receiver rows of the node features, sender
  and receiver rows of the coordinates — each time the same way: the index is wrapped (50000 added when negative), the
  row at the wrapped index is gathered, and a per-edge test "the wrapped index is in `[0, 49999]`" selects between the
  gathered row and a row of the junk constant.  These definitions spell that once; `distOf` and `radialOf` spell the
  geometry both programs compute from the coordinate rows: the edge length `‖x_s − x_r‖` and the sixteen radial values
  `√(2/c) · sin(z_k · d / c) / d`.
-/
import proofs.«415486_j17815524344038_2_alg».proof.Proof.Gen.KernelIdeal

noncomputable section

namespace Cert.KernelIdeal.Take

open Cert.KernelIdeal Cert.KernelIdeal.Gen Idealize.ShloMosaic

variable {F : FTy → Type} [FloatOps F]

/-- The sender (row 0) and receiver (row 1) index vectors, cut out of the 2 × 300000 index array. -/
def senderIdx (x3 : IVec S2x300000 32) : IVec S300000 32 :=
  shapeCast S300000 (extractStridedSlice S1x300000 ![0, 0] x3 slices_S2x300000_S1x300000_0_0) shapeCasts_S1x300000_S300000
def receiverIdx (x3 : IVec S2x300000 32) : IVec S300000 32 :=
  shapeCast S300000 (extractStridedSlice S1x300000 ![1, 0] x3 slices_S2x300000_S1x300000_1_0) shapeCasts_S1x300000_S300000

/-- An index vector wrapped the NumPy way (50000 added to a negative entry), as a column of start indices. -/
def wrapIdx (s : IVec S300000 32) : IVec S300000x1 32 :=
  broadcastInDim S300000x1 ![0] bcast_S300000_S300000x1_0
    (select (cmpi .slt s (broadcastInDim S300000 ![] bcast_S_S300000 (constantI S_ 32 0#32)))
      (addi s (broadcastInDim S300000 ![] bcast_S_S300000 (constantI S_ 32 50000#32))) s)

/-- Per edge: is the wrapped index in `[0, 49999]`? (An `and` over the one-entry start-index vector.) -/
def inRange (s : IVec S300000 32) : IVec S300000 1 :=
  Host.reduce IntOp.andi
    (andi (cmpi .sge (wrapIdx s) (broadcastInDim S300000x1 ![] bcast_S_S300000x1 (constantI S_ 32 0#32)))
      (cmpi .sle (wrapIdx s) (broadcastInDim S300000x1 ![0, 1] bcast_S1x1_S300000x1_0_1
        (broadcastInDim S1x1 ![1] bcast_S1_S1x1_1 (constantI S1 32 49999#32)))))
    (constantI S_ 1 1#1) reducesTo_S300000x1_S300000_d1 h_S_

/-- Rows of a 50000 × 128 table taken at an index vector: the gathered row where the wrapped index is in range, a
    row of the junk constant elsewhere. -/
def takeRows (x : FVec F S50000x128 .f32) (s : IVec S300000 32) : FVec F S300000x128 .f32 :=
  select (broadcastInDim S300000x128 ![0] bcast_S300000_S300000x128_0 (inRange s))
    (Host.gather gather_S50000x128_S300000x1_S300000x128_1_0_n_n_0_1_1128 x (wrapIdx s))
    (broadcastInDim S300000x128 ![] bcast_S_S300000x128 (constant (F := F) S_ .f32 0x7FC00000#32))

/-- The same for the 50000 × 3 coordinate table. -/
def takeCoords (x : FVec F S50000x3 .f32) (s : IVec S300000 32) : FVec F S300000x3 .f32 :=
  select (broadcastInDim S300000x3 ![0] bcast_S300000_S300000x3_0 (inRange s))
    (Host.gather gather_S50000x3_S300000x1_S300000x3_1_0_n_n_0_1_13 x (wrapIdx s))
    (broadcastInDim S300000x3 ![] bcast_S_S300000x3 (constant (F := F) S_ .f32 0x7FC00000#32))

/-- The edge length from the two coordinate rows: the square root of the sum of the squared differences. -/
def distOf (a b : FVec F S300000x3 .f32) : FVec F S300000x1 .f32 :=
  Host.sqrt (broadcastInDim S300000x1 ![0] bcast_S300000_S300000x1_0
    (Host.reduceAdd (mulf (subf a b) (subf a b)) (constant (F := F) S_ .f32 0x00000000#32) reducesTo_S300000x3_S300000_d1 h_S_))

/-- The sixteen radial values of an edge of length `d`, with cutoff `x4` and roots `x5`. -/
def radialOf (d : FVec F S300000x1 .f32) (x4 : FVec F S1 .f32) (x5 : FVec F S16 .f32) : FVec F S300000x16 .f32 :=
  Host.divf
    (mulf
      (broadcastInDim S300000x16 ![0, 1] bcast_S1x1_S300000x16_0_1 (broadcastInDim S1x1 ![1] bcast_S1_S1x1_1
        (Host.sqrt (Host.divf (broadcastInDim S1 ![] bcast_S_S1 (constant (F := F) S_ .f32 0x40000000#32)) x4))))
      (Host.sin (Host.divf
        (mulf (broadcastInDim S300000x16 ![0, 1] bcast_S1x16_S300000x16_0_1 (broadcastInDim S1x16 ![1] bcast_S16_S1x16_1 x5))
          (broadcastInDim S300000x16 ![0, 1] bcast_S300000x1_S300000x16_0_1 d))
        (broadcastInDim S300000x16 ![0, 1] bcast_S1x1_S300000x16_0_1 (broadcastInDim S1x1 ![1] bcast_S1_S1x1_1 x4)))))
    (broadcastInDim S300000x16 ![0, 1] bcast_S300000x1_S300000x16_0_1 d)

end Cert.KernelIdeal.Take

end
-- ==== Proof.IndexRange.lean ====
/-
  Integer facts about edge indices, free of either program's text.

  Both programs first wrap an index `w` the NumPy way — `w + 50000` when `w < 0`, else `w` — and then gather row `w'` of
  a 50000-row table.  One of them also tests `0 ≤ w' ≤ 49999` per edge and, where the test fails, discards the gathered
  row.  For `−50000 ≤ w < 50000` the wrapped index is in `[0, 49999]`, so the test never fails: `wrapped_in_range`.
  The test is folded over an axis by `and` from `true`; a fold of `and` from `true` over `true`s is `true`:
  `reduce_andi_of_all` (the converse of the library's `Host.reduce_andi_all`).
-/
import Idealize.ShloMosaic.Lib.ReduceAll

namespace Cert.IndexRange

open Idealize.ShloMosaic

theorem ofBool_eq_one (b : Bool) : BitVec.ofBool b = 1#1 ↔ b = true := by cases b <;> decide

/-- A left fold of `and` that starts at 1 and meets only 1s ends at 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self]
    exact foldl_andi_one f l fun n hn => h n (List.mem_cons_of_mem _ hn)

/-- A reduction by `and` whose initial value is 1 and whose operand is 1 everywhere is 1 at every result index. -/
theorem reduce_andi_of_all {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl, hinit]
  exact foldl_andi_one x _ fun n _ => hx n

/-- A signed 32-bit index in `[−50000, 50000)`, with 50000 added when it is negative, lies in `[0, 49999]`. -/
theorem wrapped_in_range (w : BitVec 32)
    (hlo : IntOp.cmpi .sge w 4294917296#32 = 1#1) (hhi : IntOp.cmpi .slt w 50000#32 = 1#1) :
    IntOp.andi (IntOp.cmpi .sge (Scalar.select (IntOp.cmpi .slt w 0#32) (IntOp.addi w 50000#32) w) 0#32)
      (IntOp.cmpi .sle (Scalar.select (IntOp.cmpi .slt w 0#32) (IntOp.addi w 50000#32) w) 49999#32) = 1#1 := by
  rw [IntOp.andi_eq_one]
  unfold IntOp.cmpi at hlo hhi ⊢
  rw [ofBool_eq_one] at hlo hhi
  simp only [ofBool_eq_one]
  have h32 := w.isLt
  by_cases hneg : w.slt 0#32 = true
  · rw [hneg]
    have hs : Scalar.select (BitVec.ofBool true) (IntOp.addi w 50000#32) w = w + 50000#32 := if_pos rfl
    rw [hs]
    simp only [BitVec.slt, BitVec.sle, decide_eq_true_eq, BitVec.toInt, BitVec.toNat_add, BitVec.toNat_ofNat] at hlo hhi hneg ⊢
    constructor <;> (split_ifs at hlo hhi hneg ⊢ <;> omega)
  · have hneg' : w.slt 0#32 = false := by simpa using hneg
    rw [hneg']
    have hs : Scalar.select (BitVec.ofBool false) (IntOp.addi w 50000#32) w = w := if_neg (by decide)
    rw [hs]
    simp only [BitVec.slt, BitVec.sle, decide_eq_true_eq, decide_eq_false_iff_not, BitVec.toInt, BitVec.toNat_ofNat] at hlo hhi hneg' ⊢
    constructor <;> (split_ifs at hlo hhi hneg' ⊢ <;> omega)

end Cert.IndexRange
-- ==== Proof.KernelTake.lean ====
/-
  The kernel program's table look-ups under the index range.

  `TakeDefs` spells a look-up as: gather at the wrapped index, then keep the gathered row where the wrapped index is in
  `[0, 49999]` and put the junk constant elsewhere.  When every index lies in `[−50000, 50000)` the wrapped index is
  always in `[0, 49999]` (`IndexRange.wrapped_in_range`), the per-edge test is 1 at every edge, and the look-up IS the
  plain gather at the wrapped index — which is, word for word, what the reference program does.
  The last two lemmas read the kernel program's host operations: its buffers `main_v4`, `main_v5` hold these look-ups of
  the node features at the sender and the receiver indices when the region is entered.
-/
import proofs.«415486_j17815524344038_2_alg».proof.Proof.Gen.KernelIdeal.Frame
import proofs.«415486_j17815524344038_2_alg».proof.Proof.TakeDefs
import proofs.«415486_j17815524344038_2_alg».proof.Proof.IndexRange
import Idealize.ShloMosaic.Lib.StableHlo.Run
import Idealize.ShloMosaic.Lib.ValueIdx

set_option maxRecDepth 16384

noncomputable section

namespace Cert.KernelIdeal.Take

open Cert.KernelIdeal Cert.KernelIdeal.Gen
open Idealize.ShloMosaic Idealize.ShloMosaic.TcCoe Idealize.SL.Sem Idealize.ShloMosaic.StableHlo

variable {F : FTy → Type} [FloatOps F]

/-- Every entry of an index vector lies in `[−50000, 50000)`, as the two signed comparisons say it. -/
def InRange (s : IVec S300000 32) : Prop :=
  ∀ e : S300000.Idx, IntOp.cmpi .sge (s e) 4294917296#32 = 1#1 ∧ IntOp.cmpi .slt (s e) 50000#32 = 1#1

/-- Then the per-edge test "the wrapped index is in `[0, 49999]`" is 1 at every edge. -/
theorem inRange_one (s : IVec S300000 32) (hs : InRange s) (e : S300000.Idx) : inRange s e = 1#1 := by
  unfold inRange
  refine Cert.IndexRange.reduce_andi_of_all _ _ _ _ e rfl fun i => ?_
  exact Cert.IndexRange.wrapped_in_range (s _) (hs _).1 (hs _).2

/-- … and the look-up of feature rows is the plain gather at the wrapped index. -/
theorem takeRows_eq (x : FVec F S50000x128 .f32) (s : IVec S300000 32) (hs : InRange s) :
    takeRows x s = Host.gather gather_S50000x128_S300000x1_S300000x128_1_0_n_n_0_1_1128 x (wrapIdx s) := by
  funext i
  unfold takeRows
  rw [ValueIdx.select_apply]
  have hm : broadcastInDim S300000x128 ![0] bcast_S300000_S300000x128_0 (inRange s) i = 1#1 := inRange_one s hs _
  rw [hm]
  exact ValueIdx.select_one _ _

/-- … and so is the look-up of coordinate rows. -/
theorem takeCoords_eq (x : FVec F S50000x3 .f32) (s : IVec S300000 32) (hs : InRange s) :
    takeCoords x s = Host.gather gather_S50000x3_S300000x1_S300000x3_1_0_n_n_0_1_13 x (wrapIdx s) := by
  funext i
  unfold takeCoords
  rw [ValueIdx.select_apply]
  have hm : broadcastInDim S300000x3 ![0] bcast_S300000_S300000x3_0 (inRange s) i = 1#1 := inRange_one s hs _
  rw [hm]
  exact ValueIdx.select_one _ _

/-- The sender and the receiver index vectors are rows of the index array: in range when every entry of the array is. -/
theorem senderIdx_inRange (x3 : IVec S2x300000 32)
    (h : ∀ i : S2x300000.Idx, IntOp.cmpi .sge (x3 i) 4294917296#32 = 1#1 ∧ IntOp.cmpi .slt (x3 i) 50000#32 = 1#1) :
    InRange (senderIdx x3) := fun e => h _
theorem receiverIdx_inRange (x3 : IVec S2x300000 32)
    (h : ∀ i : S2x300000.Idx, IntOp.cmpi .sge (x3 i) 4294917296#32 = 1#1 ∧ IntOp.cmpi .slt (x3 i) 50000#32 = 1#1) :
    InRange (receiverIdx x3) := fun e => h _

variable (m : (ℓ : Loc nD τ sig) → Buf (Elt F) ℓ)

set_option maxHeartbeats 4000000 in
/-- When the region is entered, `main_v4` holds the node features looked up at the sender indices. -/
theorem V_v4 (c : Dev nD) : (V m c main_v4 : FVec F S300000x128 .f32)
    = takeRows (m ((c : Thread nD τ).loc main_arg0)) (senderIdx (m ((c : Thread nD τ).loc main_arg3))) := by
  dsimp only [Gen.V]
  simp only [hostOps0, hostOps0_1, hostOps0_2, hostOps0_3, hostOps0_4, hostOps0_5, List.flatten_cons, List.flatten_nil, List.append_nil, List.cons_append, List.nil_append]
  after_results_simp
  simp only [TRef.ofBuf, TRef.toBuf, cast_eq]
  rfl

set_option maxHeartbeats 4000000 in
/-- When the region is entered, `main_v5` holds the node features looked up at the receiver indices. -/
theorem V_v5 (c : Dev nD) : (V m c main_v5 : FVec F S300000x128 .f32)
    = takeRows (m ((c : Thread nD τ).loc main_arg0)) (receiverIdx (m ((c : Thread nD τ).loc main_arg3))) := by
  dsimp only [Gen.V]
  simp only [hostOps0, hostOps0_1, hostOps0_2, hostOps0_3, hostOps0_4, hostOps0_5, List.flatten_cons, List.flatten_nil, List.append_nil, List.cons_append, List.nil_append]
  after_results_simp
  simp only [TRef.ofBuf, TRef.toBuf, cast_eq]
  rfl

end Cert.KernelIdeal.Take

end
-- ==== Proof.KernelGeom.lean ====
/-
  What the kernel program's three geometry arrays hold when its one region is entered.

  Before the region the host computes, per edge, the length of the edge — the distance between the coordinate rows taken
  at the sender's and at the receiver's index — then the sixteen radial values of that length (cutoff and roots given),
  and lays the length and the radial values side by side as seventeen geometry features.  Each array below is stated as
  that function of the launched arguments: the coordinate table, the index array, the cutoff and the roots.
-/
import proofs.«415486_j17815524344038_2_alg».proof.Proof.Gen.KernelIdeal.Frame
import proofs.«415486_j17815524344038_2_alg».proof.Proof.TakeDefs
import Idealize.ShloMosaic.Lib.StableHlo.Run

set_option maxRecDepth 16384

noncomputable section

namespace Cert.KernelIdeal.Geom

open Cert.KernelIdeal Cert.KernelIdeal.Gen Cert.KernelIdeal.Take Idealize.ShloMosaic Idealize.ShloMosaic.TcCoe Idealize.SL.Sem Idealize.ShloMosaic.StableHlo

variable {F : FTy → Type} [FloatOps F] (m : (ℓ : Loc nD τ sig) → Buf (Elt F) ℓ)

set_option maxHeartbeats 4000000 in
/-- The edge lengths: the distance between the sender's and the receiver's coordinate rows. -/
theorem V_v12 (c : Dev nD) : (V m c main_v12 : FVec F S300000x1 .f32)
    = distOf (takeCoords (m ((c : Thread nD τ).loc main_arg1)) (senderIdx (m ((c : Thread nD τ).loc main_arg3)))) (takeCoords (m ((c : Thread nD τ).loc main_arg1)) (receiverIdx (m ((c : Thread nD τ).loc main_arg3)))) := by
  dsimp only [Gen.V]
  simp only [hostOps0, hostOps0_1, hostOps0_2, hostOps0_3, hostOps0_4, hostOps0_5, List.flatten_cons, List.flatten_nil, List.append_nil, List.cons_append, List.nil_append]
  after_results_simp
  try simp only [TRef.ofBuf, TRef.toBuf, cast_eq]
  rfl

set_option maxHeartbeats 4000000 in
/-- The sixteen radial values of every edge, from its length, the cutoff and the roots. -/
theorem V_v28 (c : Dev nD) : (V m c main_v28 : FVec F S300000x16 .f32)
    = radialOf (distOf (takeCoords (m ((c : Thread nD τ).loc main_arg1)) (senderIdx (m ((c : Thread nD τ).loc main_arg3)))) (takeCoords (m ((c : Thread nD τ).loc main_arg1)) (receiverIdx (m ((c : Thread nD τ).loc main_arg3))))) (m ((c : Thread nD τ).loc main_arg4)) (m ((c : Thread nD τ).loc main_arg5)) := by
  dsimp only [Gen.V]
  simp only [hostOps0, hostOps0_1, hostOps0_2, hostOps0_3, hostOps0_4, hostOps0_5, List.flatten_cons, List.flatten_nil, List.append_nil, List.cons_append, List.nil_append]
  after_results_simp
  try simp only [TRef.ofBuf, TRef.toBuf, cast_eq]
  rfl

set_option maxHeartbeats 4000000 in
/-- The geometry features: every edge's length and its sixteen radial values, side by side. -/
theorem V_v29 (c : Dev nD) : (V m c main_v29 : FVec F S300000x17 .f32)
    = concatenate S300000x17 1 [⟨S300000x1, (V m c main_v12 : FVec F S300000x1 .f32)⟩, ⟨S300000x16, (V m c main_v28 : FVec F S300000x16 .f32)⟩] concatenates_S300000x1_S300000x16_S300000x17_d1 := by
  dsimp only [Gen.V]
  simp only [hostOps0, hostOps0_1, hostOps0_2, hostOps0_3, hostOps0_4, hostOps0_5, List.flatten_cons, List.flatten_nil, List.append_nil, List.cons_append, List.nil_append]
  after_results_simp
  try simp only [TRef.ofBuf, TRef.toBuf, cast_eq]
  rfl

end Cert.KernelIdeal.Geom

end
-- ==== Proof.KernelWeights.lean ====
/-
  What the eight weight and bias buffers hold when the kernel region is entered.

  Before the region the host program prepares each weight matrix by one change of float format (32-bit to 16-bit
  floats) and each bias vector by one reshape of its 128 entries into a single row of 128.  Nothing else writes those
  buffers, so at the region's entry each holds exactly that function of the corresponding program argument.  This is
  first stated for any float arithmetic.  At the ideal values (extended reals) a change of float format is the identity,
  so a weight buffer IS its argument; and entry `(0, n)` of a vector reshaped to one row is entry `n` of the vector
  (both sit at row-major position `n`), so a bias buffer read as a vector IS its argument.
-/
import proofs.«415486_j17815524344038_2_alg».proof.Proof.Gen.KernelIdeal.Frame
import proofs.«415486_j17815524344038_2_alg».proof.Proof.BlockMlp
import Idealize.ShloMosaic.Lib.StableHlo.Run
import Idealize.ShloMosaic.PureOps.Ideal
import Idealize.ShloMosaic.Lib.ValueIdx
import Idealize.ShloMosaic.Lib.Pipeline.Value

set_option maxRecDepth 16384

noncomputable section

namespace Cert.KernelIdeal.Weights

open Cert.KernelIdeal Cert.KernelIdeal.Gen Idealize.ShloMosaic Idealize.ShloMosaic.TcCoe Idealize.SL.Sem Idealize.ShloMosaic.StableHlo

/-! ### For any float arithmetic -/

section AnyFloats

variable {F : FTy → Type} [FloatOps F] (m : (ℓ : Loc nD τ sig) → Buf (Elt F) ℓ)

set_option maxHeartbeats 4000000 in
/-- Buffer `%30` at the region's entry: the first network's first weight matrix, written once, by a change of float format of argument 6; no later
    host operation writes it. -/
theorem V_v30 (c : Dev nD) :
    (V m c main_v30 : FVec F S401x128 .bf16) = truncf .bf16 (m ((c : Thread nD τ).loc main_arg6)) bitsLt_bf16_f32 := by
  dsimp only [Gen.V]
  simp only [hostOps0, hostOps0_1, hostOps0_2, hostOps0_3, hostOps0_4, hostOps0_5, List.flatten_cons, List.flatten_nil, List.append_nil, List.cons_append, List.nil_append]
  after_results_simp
  try simp only [TRef.ofBuf, TRef.toBuf, cast_eq]
  all_goals rfl

set_option maxHeartbeats 4000000 in
/-- Buffer `%31` at the region's entry: the first network's second weight matrix, written once, by a change of float format of argument 8; no later
    host operation writes it. -/
theorem V_v31 (c : Dev nD) :
    (V m c main_v31 : FVec F S128x128 .bf16) = truncf .bf16 (m ((c : Thread nD τ).loc main_arg8)) bitsLt_bf16_f32 := by
  dsimp only [Gen.V]
  simp only [hostOps0, hostOps0_1, hostOps0_2, hostOps0_3, hostOps0_4, hostOps0_5, List.flatten_cons, List.flatten_nil, List.append_nil, List.cons_append, List.nil_append]
  after_results_simp
  try simp only [TRef.ofBuf, TRef.toBuf, cast_eq]
  all_goals rfl

set_option maxHeartbeats 4000000 in
/-- Buffer `%32` at the region's entry: the second network's first weight matrix, written once, by a change of float format of argument 10; no later
    host operation writes it. -/
theorem V_v32 (c : Dev nD) :
    (V m c main_v32 : FVec F S529x128 .bf16) = truncf .bf16 (m ((c : Thread nD τ).loc main_arg10)) bitsLt_bf16_f32 := by
  dsimp only [Gen.V]
  simp only [hostOps0, hostOps0_1, hostOps0_2, hostOps0_3, hostOps0_4, hostOps0_5, List.flatten_cons, List.flatten_nil, List.append_nil, List.cons_append, List.nil_append]
  after_results_simp
  try simp only [TRef.ofBuf, TRef.toBuf, cast_eq]
  all_goals rfl

set_option maxHeartbeats 4000000 in
/-- Buffer `%33` at the region's entry: the second network's second weight matrix, written once, by a change of float format of argument 12; no later
    host operation writes it. -/
theorem V_v33 (c : Dev nD) :
    (V m c main_v33 : FVec F S128x128 .bf16) = truncf .bf16 (m ((c : Thread nD τ).loc main_arg12)) bitsLt_bf16_f32 := by
  dsimp only [Gen.V]
  simp only [hostOps0, hostOps0_1, hostOps0_2, hostOps0_3, hostOps0_4, hostOps0_5, List.flatten_cons, List.flatten_nil, List.append_nil, List.cons_append, List.nil_append]
  after_results_simp
  try simp only [TRef.ofBuf, TRef.toBuf, cast_eq]
  all_goals rfl

set_option maxHeartbeats 4000000 in
/-- Buffer `%34` at the region's entry: the first network's first bias, the 128-vector argument 7 laid out as one row of 128. -/
theorem V_v34 (c : Dev nD) :
    (V m c main_v34 : FVec F S1x128 .f32) = shapeCast S1x128 (m ((c : Thread nD τ).loc main_arg7)) shapeCasts_S128_S1x128 := by
  dsimp only [Gen.V]
  simp only [hostOps0, hostOps0_1, hostOps0_2, hostOps0_3, hostOps0_4, hostOps0_5, List.flatten_cons, List.flatten_nil, List.append_nil, List.cons_append, List.nil_append]
  after_results_simp
  try simp only [TRef.ofBuf, TRef.toBuf, cast_eq]
  all_goals rfl

set_option maxHeartbeats 4000000 in
/-- Buffer `%35` at the region's entry: the first network's second bias, the 128-vector argument 9 laid out as one row of 128. -/
theorem V_v35 (c : Dev nD) :
    (V m c main_v35 : FVec F S1x128 .f32) = shapeCast S1x128 (m ((c : Thread nD τ).loc main_arg9)) shapeCasts_S128_S1x128 := by
  dsimp only [Gen.V]
  simp only [hostOps0, hostOps0_1, hostOps0_2, hostOps0_3, hostOps0_4, hostOps0_5, List.flatten_cons, List.flatten_nil, List.append_nil, List.cons_append, List.nil_append]
  after_results_simp
  try simp only [TRef.ofBuf, TRef.toBuf, cast_eq]
  all_goals rfl

set_option maxHeartbeats 4000000 in
/-- Buffer `%36` at the region's entry: the second network's first bias, the 128-vector argument 11 laid out as one row of 128. -/
theorem V_v36 (c : Dev nD) :
    (V m c main_v36 : FVec F S1x128 .f32) = shapeCast S1x128 (m ((c : Thread nD τ).loc main_arg11)) shapeCasts_S128_S1x128 := by
  dsimp only [Gen.V]
  simp only [hostOps0, hostOps0_1, hostOps0_2, hostOps0_3, hostOps0_4, hostOps0_5, List.flatten_cons, List.flatten_nil, List.append_nil, List.cons_append, List.nil_append]
  after_results_simp
  try simp only [TRef.ofBuf, TRef.toBuf, cast_eq]
  all_goals rfl

set_option maxHeartbeats 4000000 in
/-- Buffer `%37` at the region's entry: the second network's second bias, the 128-vector argument 13 laid out as one row of 128. -/
theorem V_v37 (c : Dev nD) :
    (V m c main_v37 : FVec F S1x128 .f32) = shapeCast S1x128 (m ((c : Thread nD τ).loc main_arg13)) shapeCasts_S128_S1x128 := by
  dsimp only [Gen.V]
  simp only [hostOps0, hostOps0_1, hostOps0_2, hostOps0_3, hostOps0_4, hostOps0_5, List.flatten_cons, List.flatten_nil, List.append_nil, List.cons_append, List.nil_append]
  after_results_simp
  try simp only [TRef.ofBuf, TRef.toBuf, cast_eq]
  all_goals rfl

end AnyFloats

/-! ### At the ideal values -/

section AtIdeal

open Idealize.ShloMosaic.ValueIdx

/-- A 128-vector reshaped to one row of 128, read at `(0, n)`, is the vector at `n`: adding a leading axis of extent
    one moves no entry. -/
theorem row_of_vector {α : Type} (v : S128.Idx → α) (i : S128.Idx) :
    shapeCast S1x128 v shapeCasts_S128_S1x128 (ix2 (0 : Fin 1) (i 0)) = v i := by
  refine shapeCast_apply v shapeCasts_S128_S1x128 _ i ?_
  rw [Shape.rowMajor_val_one, Shape.rowMajor_val_two]
  show (i 0).val = 0 * 128 + (i 0).val
  omega

variable (m : (ℓ : Loc nD τ sig) → Buf (Elt Ideal) ℓ)

/-! The four weight matrices: a change of float format changes no extended real. -/

theorem weight30_ideal (c : Dev nD) :
    (V (F := Ideal) m c main_v30 : S401x128.Idx → EReal) = m ((c : Thread nD τ).loc main_arg6) :=
  (V_v30 (F := Ideal) m c).trans rfl

theorem weight31_ideal (c : Dev nD) :
    (V (F := Ideal) m c main_v31 : S128x128.Idx → EReal) = m ((c : Thread nD τ).loc main_arg8) :=
  (V_v31 (F := Ideal) m c).trans rfl

theorem weight32_ideal (c : Dev nD) :
    (V (F := Ideal) m c main_v32 : S529x128.Idx → EReal) = m ((c : Thread nD τ).loc main_arg10) :=
  (V_v32 (F := Ideal) m c).trans rfl

theorem weight33_ideal (c : Dev nD) :
    (V (F := Ideal) m c main_v33 : S128x128.Idx → EReal) = m ((c : Thread nD τ).loc main_arg12) :=
  (V_v33 (F := Ideal) m c).trans rfl

/-! The four biases, read as vectors. -/

theorem bias34_ideal (c : Dev nD) :
    (BlockMlp.biasRow (V (F := Ideal) m c main_v34) : (⟨1, ![128]⟩ : Shape).Idx → EReal) = m ((c : Thread nD τ).loc main_arg7) := by
  funext i
  show (V (F := Ideal) m c main_v34 : FVec Ideal S1x128 .f32) (ix2 (0 : Fin 1) (i 0)) = _
  rw [V_v34]
  exact row_of_vector _ i

theorem bias35_ideal (c : Dev nD) :
    (BlockMlp.biasRow (V (F := Ideal) m c main_v35) : (⟨1, ![128]⟩ : Shape).Idx → EReal) = m ((c : Thread nD τ).loc main_arg9) := by
  funext i
  show (V (F := Ideal) m c main_v35 : FVec Ideal S1x128 .f32) (ix2 (0 : Fin 1) (i 0)) = _
  rw [V_v35]
  exact row_of_vector _ i

theorem bias36_ideal (c : Dev nD) :
    (BlockMlp.biasRow (V (F := Ideal) m c main_v36) : (⟨1, ![128]⟩ : Shape).Idx → EReal) = m ((c : Thread nD τ).loc main_arg11) := by
  funext i
  show (V (F := Ideal) m c main_v36 : FVec Ideal S1x128 .f32) (ix2 (0 : Fin 1) (i 0)) = _
  rw [V_v36]
  exact row_of_vector _ i

theorem bias37_ideal (c : Dev nD) :
    (BlockMlp.biasRow (V (F := Ideal) m c main_v37) : (⟨1, ![128]⟩ : Shape).Idx → EReal) = m ((c : Thread nD τ).loc main_arg13) := by
  funext i
  show (V (F := Ideal) m c main_v37 : FVec Ideal S1x128 .f32) (ix2 (0 : Fin 1) (i 0)) = _
  rw [V_v37]
  exact row_of_vector _ i

end AtIdeal

end Cert.KernelIdeal.Weights

end
-- ==== Proof.Bridge.lean ====
/-
  The kernel program's two whole-array results are the reference's two results.

  `Blocks` shows that after its run the kernel program holds `edgeMessage` and `edgeOut`: the two networks applied to
  every row of feature arrays laid side by side from what its host operations computed.  Here each of those host arrays
  is identified with the reference program's own stage of the same name:
    · the sender and receiver feature rows and coordinate rows: the kernel's look-up is the reference's gather once
      every index lies in `[−50000, 50000)` (`KernelTake`), and the two gathers are the same operation on the same
      wrapped indices;
    · the edge length and the radial values: the same operations on those rows;
    · the weights: a change of float format is the identity on the extended reals; the biases: a vector read as a
      one-row matrix and back.
  With the pieces equal the concatenations are equal, and the results are `RowMlp.rowsMlp` of equal arguments.
-/
import proofs.«415486_j17815524344038_2_alg».proof.Proof.Blocks
import proofs.«415486_j17815524344038_2_alg».proof.Proof.KernelTake
import proofs.«415486_j17815524344038_2_alg».proof.Proof.KernelGeom
import proofs.«415486_j17815524344038_2_alg».proof.Proof.KernelWeights
import proofs.«415486_j17815524344038_2_alg».proof.Proof.RefRead
import proofs.«415486_j17815524344038_2_alg».proof.Proof.RefRows

set_option maxRecDepth 16384

noncomputable section

namespace Cert.Bridge

open Cert.KernelIdeal Cert.KernelIdeal.Gen Cert.KernelIdeal.Take Cert.KernelIdeal.Blocks Cert.KernelIdeal.BlockMlp Cert.RowMlp
open Idealize.ShloMosaic Idealize.ShloMosaic.TcCoe Idealize.SL.Sem

/-! ## The look-ups and the geometry, operation for operation (at any float family) -/

section Generic

variable {F : FTy → Type} [FloatOps F]

theorem gatherSender (x0 : FVec F S50000x128 .f32) (x3 : IVec S2x300000 32) :
    Host.gather gather_S50000x128_S300000x1_S300000x128_1_0_n_n_0_1_1128 x0 (wrapIdx (senderIdx x3))
      = Cert.ReferenceIdeal.ReadP.val_main_v10 (F := F) x0 x3 := rfl

theorem gatherReceiver (x0 : FVec F S50000x128 .f32) (x3 : IVec S2x300000 32) :
    Host.gather gather_S50000x128_S300000x1_S300000x128_1_0_n_n_0_1_1128 x0 (wrapIdx (receiverIdx x3))
      = Cert.ReferenceIdeal.ReadP.val_main_v17 (F := F) x0 x3 := rfl

theorem distGather (x1 : FVec F S50000x3 .f32) (x3 : IVec S2x300000 32) :
    distOf (Host.gather gather_S50000x3_S300000x1_S300000x3_1_0_n_n_0_1_13 x1 (wrapIdx (senderIdx x3)))
        (Host.gather gather_S50000x3_S300000x1_S300000x3_1_0_n_n_0_1_13 x1 (wrapIdx (receiverIdx x3)))
      = Cert.ReferenceIdeal.ReadP.val_main_v36 (F := F) x1 x3 := rfl

theorem radialDist (x1 : FVec F S50000x3 .f32) (x3 : IVec S2x300000 32) (x4 : FVec F S1 .f32) (x5 : FVec F S16 .f32) :
    radialOf (Cert.ReferenceIdeal.ReadP.val_main_v36 (F := F) x1 x3) x4 x5
      = Cert.ReferenceIdeal.ReadP.val_main_v52 (F := F) x1 x3 x4 x5 := rfl

end Generic

/-! ## The kernel program's host arrays are the reference's stages -/

variable (m : (ℓ : Loc nD τ sig) → Buf (Elt Ideal) ℓ)

/-- Every edge index, sender or receiver, lies in `[−50000, 50000)`. -/
def IdxOk (c : Dev nD) : Prop :=
  ∀ i : S2x300000.Idx, IntOp.cmpi .sge ((m ((c : Thread nD τ).loc main_arg3)) i) 4294917296#32 = 1#1 ∧ IntOp.cmpi .slt ((m ((c : Thread nD τ).loc main_arg3)) i) 50000#32 = 1#1

theorem sender_eq (c : Dev nD) (h : IdxOk m c) :
    senderFeat m c = Cert.ReferenceIdeal.ReadP.val_main_v10 (F := Ideal) (m ((c : Thread nD τ).loc main_arg0)) (m ((c : Thread nD τ).loc main_arg3)) := by
  show (V m c main_v4 : FVec Ideal S300000x128 .f32) = _
  rw [Take.V_v4, takeRows_eq (F := Ideal) _ _ (senderIdx_inRange _ h)]
  exact gatherSender (F := Ideal) _ _

theorem receiver_eq (c : Dev nD) (h : IdxOk m c) :
    receiverFeat m c = Cert.ReferenceIdeal.ReadP.val_main_v17 (F := Ideal) (m ((c : Thread nD τ).loc main_arg0)) (m ((c : Thread nD τ).loc main_arg3)) := by
  show (V m c main_v5 : FVec Ideal S300000x128 .f32) = _
  rw [Take.V_v5, takeRows_eq (F := Ideal) _ _ (receiverIdx_inRange _ h)]
  exact gatherReceiver (F := Ideal) _ _

theorem dist_eq (c : Dev nD) (h : IdxOk m c) :
    dist m c = Cert.ReferenceIdeal.ReadP.val_main_v36 (F := Ideal) (m ((c : Thread nD τ).loc main_arg1)) (m ((c : Thread nD τ).loc main_arg3)) := by
  show (V m c main_v12 : FVec Ideal S300000x1 .f32) = _
  rw [Geom.V_v12, takeCoords_eq (F := Ideal) _ _ (senderIdx_inRange _ h), takeCoords_eq (F := Ideal) _ _ (receiverIdx_inRange _ h)]
  exact distGather (F := Ideal) _ _

theorem radial_eq (c : Dev nD) (h : IdxOk m c) :
    radial m c = Cert.ReferenceIdeal.ReadP.val_main_v52 (F := Ideal) (m ((c : Thread nD τ).loc main_arg1)) (m ((c : Thread nD τ).loc main_arg3)) (m ((c : Thread nD τ).loc main_arg4)) (m ((c : Thread nD τ).loc main_arg5)) := by
  show (V m c main_v28 : FVec Ideal S300000x16 .f32) = _
  rw [Geom.V_v28, takeCoords_eq (F := Ideal) _ _ (senderIdx_inRange _ h), takeCoords_eq (F := Ideal) _ _ (receiverIdx_inRange _ h), distGather (F := Ideal)]
  exact radialDist (F := Ideal) _ _ _ _

theorem edge_eq (c : Dev nD) : edgeFeat m c = (m ((c : Thread nD τ).loc main_arg2)) := V_main_arg2 m c

/-- The 17 geometric columns are the edge length followed by the radial values. -/
theorem geomSplit (c : Dev nD) : GeomSplit m c := Geom.V_v29 (F := Ideal) m c

/-! ## The two results -/

variable (hw : Widths)

/-- The kernel program's first result is the first network over the reference's 401-column feature array. -/
theorem message_eq (c : Dev nD) (h : IdxOk m c) :
    edgeMessage m hw c = rowsMlp (Cert.ReferenceIdeal.ReadP.val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))
      (m ((c : Thread nD τ).loc main_arg6)) (m ((c : Thread nD τ).loc main_arg7)) (m ((c : Thread nD τ).loc main_arg8)) (m ((c : Thread nD τ).loc main_arg9)) := by
  unfold edgeMessage
  rw [sender_eq m c h, receiver_eq m c h, dist_eq m c h, radial_eq m c h, edge_eq m c,
    show w1e m c = (m ((c : Thread nD τ).loc main_arg6)) from Weights.weight30_ideal m c, show biasRow (b1e m c) = (m ((c : Thread nD τ).loc main_arg7)) from Weights.bias34_ideal m c,
    show w2e m c = (m ((c : Thread nD τ).loc main_arg8)) from Weights.weight31_ideal m c, show biasRow (b2e m c) = (m ((c : Thread nD τ).loc main_arg9)) from Weights.bias35_ideal m c]
  rfl

/-- The kernel program's second result is the second network over the reference's 529-column feature array. -/
theorem out_eq (c : Dev nD) (h : IdxOk m c) :
    edgeOut m hw c = rowsMlp (Cert.ReferenceIdeal.ReadP.val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)))
      (m ((c : Thread nD τ).loc main_arg10)) (m ((c : Thread nD τ).loc main_arg11)) (m ((c : Thread nD τ).loc main_arg12)) (m ((c : Thread nD τ).loc main_arg13)) := by
  unfold edgeOut
  rw [message_eq m hw c h, ← Cert.ReferenceIdeal.Rows.v62_eq_rows, sender_eq m c h, receiver_eq m c h, dist_eq m c h, radial_eq m c h, edge_eq m c,
    show w1b m c = (m ((c : Thread nD τ).loc main_arg10)) from Weights.weight32_ideal m c, show biasRow (b1b m c) = (m ((c : Thread nD τ).loc main_arg11)) from Weights.bias36_ideal m c,
    show w2b m c = (m ((c : Thread nD τ).loc main_arg12)) from Weights.weight33_ideal m c, show biasRow (b2b m c) = (m ((c : Thread nD τ).loc main_arg13)) from Weights.bias37_ideal m c]
  rfl

end Cert.Bridge

end
-- ==== Proof.lean ====
/-
  Two dense layers with `silu` between them, twice, for every one of 300000 edges — once by a program that walks the edges
  3000 rows at a time inside one pipelined region, once by a program that handles whole arrays.

  For an edge `e` with sender `s` and receiver `r` let `h_e` be the row
      [ node_feats[s] | node_feats[r] | ‖x_s − x_r‖ | √(2/c)·sin(z_k·‖x_s − x_r‖/c)/‖x_s − x_r‖ (k < 16) | edge_feats[e] ]
  of 401 features.  The first result is  `m_ji[e] = W₂ᵉ · silu(W₁ᵉ · h_e + b₁ᵉ) + b₂ᵉ`;  the second puts `m_ji[e]` into the row
  as a third block of 128 (529 features) and applies the second pair of layers.  Both programs compute exactly this:
    · they look the node rows up at the same wrapped indices — one of them also replaces a row whose index is out of range by
      a junk constant, which never happens for indices in `[−50000, 50000)`, the precondition (`KernelTake`, `PreRange`);
    · `silu` is spelt `x · σ(x)` in one and `x · (1 / (1 + e^(−x)))` in the other: one function on the extended reals;
    · a change of float format is the identity on the extended reals, and a matrix product is the same sum of products in
      both (`BlockMlp`, `RefRows`, over `RowMlp`);
    · no row of the network depends on another row, so 100 blocks of 3000 rows give the rows of the whole (`Blocks`,
      `ConcatRows`), and the host arrays the blocks are cut from are the reference's own stages (`Bridge`).
  No law of arithmetic beyond that is used — the two sides are the same expression, tiled differently — so finiteness of
  the float inputs is never opened; only the index range is.

  The kernel programs' frames are the generated ones; the reference has no region, and its frame is its run (`RefRun`: the
  99 host operations as eight stretches, read back at the results and at the arguments) with the results dropped; `preserves`
  has no entry.
-/
import proofs.«415486_j17815524344038_2_alg».proof.Defs
import proofs.«415486_j17815524344038_2_alg».proof.Proof.Gen.Kernel
import proofs.«415486_j17815524344038_2_alg».proof.Proof.Gen.Kernel.Skeleton
import proofs.«415486_j17815524344038_2_alg».proof.Proof.Gen.Kernel.Launch
import proofs.«415486_j17815524344038_2_alg».proof.Proof.Gen.Kernel.Points
import proofs.«415486_j17815524344038_2_alg».proof.Proof.Gen.Kernel.Frame
import proofs.«415486_j17815524344038_2_alg».proof.Proof.Gen.KernelIdeal
import proofs.«415486_j17815524344038_2_alg».proof.Proof.Gen.KernelIdeal.Skeleton
import proofs.«415486_j17815524344038_2_alg».proof.Proof.Gen.KernelIdeal.Launch
import proofs.«415486_j17815524344038_2_alg».proof.Proof.Gen.KernelIdeal.Points
import proofs.«415486_j17815524344038_2_alg».proof.Proof.Gen.KernelIdeal.Frame
import proofs.«415486_j17815524344038_2_alg».proof.Proof.Gen.ReferenceIdeal
import proofs.«415486_j17815524344038_2_alg».proof.Proof.Gen.Pre_finite_inputs
import proofs.«415486_j17815524344038_2_alg».proof.Proof.Gen.KernelIdeal.Value
import proofs.«415486_j17815524344038_2_alg».proof.Proof.RefRun
import proofs.«415486_j17815524344038_2_alg».proof.Proof.RefRead
import proofs.«415486_j17815524344038_2_alg».proof.Proof.RefRows
import proofs.«415486_j17815524344038_2_alg».proof.Proof.PreRange
import proofs.«415486_j17815524344038_2_alg».proof.Proof.Blocks
import proofs.«415486_j17815524344038_2_alg».proof.Proof.Bridge
import Idealize.ShloMosaic.Adequacy
import Idealize.ShloMosaic.Init

noncomputable section

namespace Cert.Proof

open Idealize.ShloMosaic Idealize.SL.Sem

/-! ## The frames -/

theorem frame_kernel : Cert.frame_Kernel := fun m ρ _ => Cert.Kernel.Gen.frame m ρ

theorem frame_kernelIdeal : Cert.frame_KernelIdeal := fun m ρ _ => Cert.KernelIdeal.Gen.frame m ρ

/-- The reference has no region: its frame is its run, the two results dropped. -/
theorem frame_referenceIdeal : Cert.frame_ReferenceIdeal := fun m ρ _ =>
  (θ_run Cert.ReferenceIdeal.defs _ _).mono (fun _ h c => (h c).2.2) (Cert.ReferenceIdeal.ValueP.run (F := Ideal) m ρ)

/-! ## The value claim -/

/-- Laying the whole feature arrays side by side: the widths add up (the reference program's own facts). -/
theorem widths : Cert.KernelIdeal.Blocks.Widths :=
  ⟨Cert.ReferenceIdeal.Facts₀.concatenates_S300000x128_S300000x128_S300000x1_S300000x16_S300000x128_S300000x401_d1,
   Cert.ReferenceIdeal.Facts₀.concatenates_S300000x128_S300000x128_S300000x128_S300000x1_S300000x16_S300000x128_S300000x529_d1⟩

/-- Both programs end with `m_ji` and the second network's output, as the same two whole-array functions of the
    arguments: the kernel program by its blocks (`Blocks.final12`, `final13`), the reference by its stages read as the
    same row-wise networks (`RefRows`) over feature arrays the bridge identifies (`Bridge.message_eq`, `out_eq`). -/
theorem algebraic : Cert.algebraic_KernelIdeal_ReferenceIdeal := by
  intro m ρ m' ρ' hpre hagree
  have hidx : ∀ c, Cert.Bridge.IdxOk m c := fun c =>
    Cert.Pre_finite_inputs.Range.index_range _ _ _ _ _ _ _ _ _ _ _ _ _ _ (hpre c)
  refine ⟨fun c => Cert.KernelIdeal.Blocks.edgeMessage m widths c, fun c => Cert.KernelIdeal.Blocks.edgeOut m widths c, ?_, ?_⟩
  · exact (θ_run Cert.KernelIdeal.defs _ _).mono (fun r h c =>
      ⟨(h c).1.trans (Cert.KernelIdeal.Blocks.final12 m widths c (Cert.Bridge.geomSplit m c)),
        (h c).2.1.trans (Cert.KernelIdeal.Blocks.final13 m widths c (Cert.Bridge.geomSplit m c)), (h c).2.2⟩)
      (Cert.KernelIdeal.Value.run_blocks m ρ)
  · refine (θ_run Cert.ReferenceIdeal.defs _ _).mono (fun r h c => ⟨(h c).1.trans ?_, (h c).2.1.trans ?_, (h c).2.2⟩)
      (Cert.ReferenceIdeal.ValueP.run (F := Ideal) m' ρ')
    · rw [Cert.ReferenceIdeal.Rows.v62_eq_rows,
        (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1]
      exact (Cert.Bridge.message_eq m widths c (hidx c)).symm
    · rw [Cert.ReferenceIdeal.Rows.v72_eq_rows,
        (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2]
      exact (Cert.Bridge.out_eq m widths c (hidx c)).symm

/-! ## The certificate -/

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
